-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S100000x64 : Shape := ⟨2, ![100000, 64]⟩
abbrev S1600000 : Shape := ⟨1, ![1600000]⟩

class Facts : Prop where
  reducesTo_S_S_d : S_.ReducesTo [] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg3 : IVec S1600000 32) (main_v12 : IVec S_ 1) (main_v14 : IVec S1600000 1) (main_v15 : IVec S1600000 32) : IVec S_ 1 :=
  let main_v16 : IVec S1600000 1 := cmpi .slt main_arg3 main_v15
  let main_v17 : IVec S1600000 1 := andi main_v14 main_v16
  let main_c_6 : IVec S_ 1 := constantI S_ 1 1#1
  let main_v18 : IVec S_ 1 := (fun x v => Host.reduce IntOp.andi x v reducesTo_S1600000_S_d0 h_S_) main_v17 main_c_6
  let main_v19 : IVec S_ 1 := andi main_v12 main_v18
  main_v19

def fn {F : FTy → Type} [FloatOps F] (main_arg0 : FVec F S_ .f32) (main_arg1 : FVec F S100000x64 .f32) (main_arg2 : IVec S1600000 32) (main_arg3 : IVec S1600000 32) (main_arg4 : FVec F S1600000 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S100000x64 .f32 := Host.absf main_arg1
  let main_cst_0 : FVec F S_ .f32 := constant S_ .f32 0x7F800000#32
  let main_v4 : FVec F S100000x64 .f32 := broadcastInDim S100000x64 ![] bcast_S_S100000x64 main_cst_0
  let main_v5 : IVec S100000x64 1 := cmpf .olt main_v3 main_v4
  let main_c_1 : IVec S_ 1 := constantI S_ 1 1#1
  let main_v6 : IVec S_ 1 := (fun x v => Host.reduce IntOp.andi x v reducesTo_S100000x64_S_d0_1 h_S_) main_v5 main_c_1
  let main_v7 : IVec S_ 1 := andi main_v2 main_v6
  let main_v8 : FVec F S1600000 .f32 := Host.absf main_arg4
  let main_cst_2 : FVec F S_ .f32 := constant S_ .f32 0x7F800000#32
  let main_v9 : FVec F S1600000 .f32 := broadcastInDim S1600000 ![] bcast_S_S1600000 main_cst_2
  let main_v10 : IVec S1600000 1 := cmpf .olt main_v8 main_v9
  let main_c_3 : IVec S_ 1 := constantI S_ 1 1#1
  let main_v11 : IVec S_ 1 := (fun x v => Host.reduce IntOp.andi x v reducesTo_S1600000_S_d0 h_S_) main_v10 main_c_3
  let main_v12 : IVec S_ 1 := andi main_v7 main_v11
  let main_c_4 : IVec S_ 32 := constantI S_ 32 0#32
  let main_v13 : IVec S1600000 32 := broadcastInDim S1600000 ![] bcast_S_S1600000 main_c_4
  let main_v14 : IVec S1600000 1 := cmpi .sge main_arg3 main_v13
  let main_c_5 : IVec S_ 32 := constantI S_ 32 100000#32
  let main_v15 : IVec S1600000 32 := broadcastInDim S1600000 ![] bcast_S_S1600000 main_c_5
  fn_part1 (F := F) main_arg3 main_v12 main_v14 main_v15
-- ==== Kernel.lean ====
abbrev S_ : Shape := ⟨0, ![]⟩
abbrev S100000x64 : Shape := ⟨2, ![100000, 64]⟩
abbrev S1600000 : Shape := ⟨1, ![1600000]⟩
abbrev S102400x64 : Shape := ⟨2, ![102400, 64]⟩
abbrev S1600000x1 : Shape := ⟨2, ![1600000, 1]⟩
abbrev S1x1600000 : Shape := ⟨2, ![1, 1600000]⟩
abbrev S1600000x64 : Shape := ⟨2, ![1600000, 64]⟩
abbrev S1600x1 : Shape := ⟨2, ![1600, 1]⟩
abbrev S2560x64 : Shape := ⟨2, ![2560, 64]⟩
abbrev S1600x64 : Shape := ⟨2, ![1600, 64]⟩
abbrev S1x2560 : Shape := ⟨2, ![1, 2560]⟩
abbrev S1600x2560 : Shape := ⟨2, ![1600, 2560]⟩
abbrev S1x3200 : Shape := ⟨2, ![1, 3200]⟩
abbrev S3200x64 : Shape := ⟨2, ![3200, 64]⟩
abbrev S2560x1 : Shape := ⟨2, ![2560, 1]⟩
abbrev S2560x3200 : Shape := ⟨2, ![2560, 3200]⟩

abbrev nBuf : Space → Nat
  | .hbm => 15
  | .vmem => 15
  | .smem => 0
  | _ => 0

abbrev bufTy : (tb : Table) → Fin (tcTables nBuf tb) → BufTy
  | .hbm, ⟨0, _⟩ => ⟨S_, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S_, .i32⟩
  | .hbm, ⟨6, _⟩ => ⟨S_, .f32⟩
  | .hbm, ⟨7, _⟩ => ⟨S102400x64, .f32⟩
  | .hbm, ⟨8, _⟩ => ⟨S102400x64, .bf16⟩
  | .hbm, ⟨9, _⟩ => ⟨S1600000x1, .i32⟩
  | .hbm, ⟨10, _⟩ => ⟨S1600000x1, .f32⟩
  | .hbm, ⟨11, _⟩ => ⟨S1x1600000, .i32⟩
  | .hbm, ⟨12, _⟩ => ⟨S1600000x64, .bf16⟩
  | .hbm, ⟨13, _⟩ => ⟨S102400x64, .f32⟩
  | .hbm, ⟨14, _⟩ => ⟨S100000x64, .f32⟩
  | .local _ .vmem, ⟨0, _⟩ => ⟨S1600x1, .i32⟩
  | .local _ .vmem, ⟨1, _⟩ => ⟨S1600x1, .i32⟩
  | .local _ .vmem, ⟨2, _⟩ => ⟨S1600x1, .f32⟩
  | .local _ .vmem, ⟨3, _⟩ => ⟨S1600x1, .f32⟩
  | .local _ .vmem, ⟨4, _⟩ => ⟨S2560x64, .bf16⟩
  | .local _ .vmem, ⟨5, _⟩ => ⟨S2560x64, .bf16⟩
  | .local _ .vmem, ⟨6, _⟩ => ⟨S1600x64, .bf16⟩
  | .local _ .vmem, ⟨7, _⟩ => ⟨S1600x64, .bf16⟩
  | .local _ .vmem, ⟨8, _⟩ => ⟨S1600x64, .f32⟩
  | .local _ .vmem, ⟨9, _⟩ => ⟨S1x3200, .i32⟩
  | .local _ .vmem, ⟨10, _⟩ => ⟨S1x3200, .i32⟩
  | .local _ .vmem, ⟨11, _⟩ => ⟨S3200x64, .bf16⟩
  | .local _ .vmem, ⟨12, _⟩ => ⟨S3200x64, .bf16⟩
  | .local _ .vmem, ⟨13, _⟩ => ⟨S2560x64, .f32⟩
  | .local _ .vmem, ⟨14, _⟩ => ⟨S2560x64, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![1000, 40], ![false, false]⟩

def k0_cond2 (i : grid0.Coords) : BitVec 1 :=
  let arg1 : BitVec 32 := BitVec.ofNat 32 (i 1).val
  let c39_i32 : BitVec 32 := 39#32
  let v23 : BitVec 1 := Scalar.cmpi .eq arg1 c39_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1600x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1600x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2560x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1600x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![40, 500], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x3200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2560x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  pads_S100000x64_S102400x64_024000_000 : S100000x64.Pads (![0, 0] : Fin 2 → Nat) ![2400, 0] ![0, 0] S102400x64
  h_S_ : 0 < S_.numel
  bitsLt_bf16_f32 : FTy.bits .bf16 < FTy.bits .f32
  shapeCasts_S1600000_S1600000x1 : S1600000.ShapeCasts S1600000x1
  shapeCasts_S1600000_S1x1600000 : S1600000.ShapeCasts S1x1600000
  inb_S1600x64_S1600x64_0_0 : ∀ a, (![0, 0] : Fin 2 → Nat) a + S1600x64.size a ≤ S1600x64.size a
  h_S1600x64 : 0 < S1600x64.numel
  shapeCasts_S1600x64_S1600x64 : S1600x64.ShapeCasts S1600x64
  inb_S1600x1_S1600x1_0_0 : ∀ a, (![0, 0] : Fin 2 → Nat) a + S1600x1.size a ≤ S1600x1.size a
  h_S1600x1 : 0 < S1600x1.numel
  shapeCasts_S1600x1_S1600x1 : S1600x1.ShapeCasts S1600x1
  iota_S1x2560_d1_w32 : S1x2560.Iotas .tc 32 [1]
  broadcasts_S1600x1_S1600x2560 : S1600x1.Broadcasts S1600x2560
  broadcasts_S1x2560_S1600x2560 : S1x2560.Broadcasts S1600x2560
  natLt_1_32 : 1 < 32
  inb_S2560x64_S2560x64_0_0 : ∀ a, (![0, 0] : Fin 2 → Nat) a + S2560x64.size a ≤ S2560x64.size a
  h_S2560x64 : 0 < S2560x64.numel
  shapeCasts_S2560x64_S2560x64 : S2560x64.ShapeCasts S2560x64
  broadcasts_S1600x1_S1600x64 : S1600x1.Broadcasts S1600x64
  packedbf16_S1600x64_S1600x64_0_0 : (Rect.unit (s := S1600x64) ![0, 0] S1600x64.size inb_S1600x64_S1600x64_0_0).PackedRows (EltTy.packing .bf16)
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  iota_S2560x1_d0_w32 : S2560x1.Iotas .tc 32 [0]
  broadcasts_S2560x1_S2560x3200 : S2560x1.Broadcasts S2560x3200
  broadcasts_S1x3200_S2560x3200 : S1x3200.Broadcasts S2560x3200
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  slices_S102400x64_S100000x64_0_0 : S102400x64.Slices ![0, 0] S100000x64
  dot_S1600x2560_S2560x64_S1600x64_1_0_0_1_n_n_wf : DotDims.WF S1600x2560 S2560x64 S1600x64 [1] [0] [0] [1] [] []
  dot_S2560x3200_S3200x64_S2560x64_1_0_0_1_n_n_wf : DotDims.WF S2560x3200 S3200x64 S2560x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x1.size a ≤ S1600000x1.size a
  hwx0_0 : ∀ i : grid0.Coords, EltTy.bits .i32 = 32 ∨ (Rect.block (s := S1600000x1) S1600x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x1.size a ≤ S1600000x1.size a
  hwx0_1 : ∀ i : grid0.Coords, EltTy.bits .f32 = 32 ∨ (Rect.block (s := S1600000x1) S1600x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x64.size a ≤ S102400x64.size a
  hwx0_2 : ∀ i : grid0.Coords, EltTy.bits .bf16 = 32 ∨ (Rect.block (s := S102400x64) S2560x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1600x64.size a ≤ S1600000x64.size a
  hwx0_3 : ∀ i : grid0.Coords, EltTy.bits .bf16 = 32 ∨ (Rect.block (s := S1600000x64) S1600x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3200.size a ≤ S1x1600000.size a
  hwx1_0 : ∀ i : grid1.Coords, EltTy.bits .i32 = 32 ∨ (Rect.block (s := S1x1600000) S1x3200.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S1600000x64.size a
  hwx1_1 : ∀ i : grid1.Coords, EltTy.bits .bf16 = 32 ∨ (Rect.block (s := S1600000x64) S3200x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2560x64.size a ≤ S102400x64.size a
  hwx1_2 : ∀ i : grid1.Coords, EltTy.bits .f32 = 32 ∨ (Rect.block (s := S102400x64) S2560x64.size (cc1_transform_2 i) (hinb1_2 i)).WholeWords (EltTy.packing .f32)

variable [Facts₀]

def dot_S1600x2560_S2560x64_S1600x64_1_0_0_1_n_n : DotDims S1600x2560 S2560x64 S1600x64 where
  lhsContracting := [1]
  rhsContracting := [0]
  lhsNonContracting := [0]
  rhsNonContracting := [1]
  lhsBatch := []
  rhsBatch := []
  wf := dot_S1600x2560_S2560x64_S1600x64_1_0_0_1_n_n_wf
def dot_S2560x3200_S3200x64_S2560x64_1_0_0_1_n_n : DotDims S2560x3200 S3200x64 S2560x64 where
  lhsContracting := [1]
  rhsContracting := [0]
  lhsNonContracting := [0]
  rhsNonContracting := [1]
  lhsBatch := []
  rhsBatch := []
  wf := dot_S2560x3200_S3200x64_S2560x64_1_0_0_1_n_n_wf

abbrev win0_0 : Pipeline.Window sig grid0 :=
  Pipeline.Window.ofSpec (Memref.whole main_v2) S1600x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1600x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2560x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1600x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v4) S1x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2560x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S_ : Shape := ⟨0, ![]⟩
abbrev S100000x64 : Shape := ⟨2, ![100000, 64]⟩
abbrev S1600000 : Shape := ⟨1, ![1600000]⟩
abbrev S1600000x1 : Shape := ⟨2, ![1600000, 1]⟩
abbrev S1600000x64 : Shape := ⟨2, ![1600000, 64]⟩

abbrev nBuf : Space → Nat
  | .hbm => 24
  | .vmem => 0
  | .smem => 0
  | _ => 0

abbrev bufTy : (tb : Table) → Fin (tcTables nBuf tb) → BufTy
  | .hbm, ⟨0, _⟩ => ⟨S_, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S1600000x1, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x64, .f32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S_, .f32⟩
  | .hbm, ⟨22, _⟩ => ⟨S100000x64, .f32⟩
  | .hbm, ⟨23, _⟩ => ⟨S100000x64, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.K.Sched.lean ====
import proofs.«421706_j16071767622283_1_alg».proof.Proof.Gen.Kernel.Launch
import Idealize.ShloMosaic.Lib.Pipeline.Kit

noncomputable section

namespace Cert.Kernel.Hand

open Cert.Kernel Cert.Kernel.Gen
open Idealize.ShloMosaic Idealize.ShloMosaic.TcCoe
open Idealize.SL Idealize.SL.Sem
open Facts₀ Facts

variable {F : FTy → Type} [FloatOps F]

/-! # The schedule of the two pallas_calls' output windows, by arithmetic on the grid's points

Point `t` of the gather stage's 1000 × 40 grid is (t / 40, t % 40); its output block's index is the edge tile t / 40, so the
block is written back exactly where the next point starts another edge tile (or the grid ends): t ≡ 39 (mod 40). Likewise the
scatter stage's 40 × 500 grid: point t is (t / 500, t % 500), the output block's index the node tile t / 500, written back at
t ≡ 499 (mod 500). -/

theorem N0_eq : cfg0.N = 40000 := N_0
theorem N1_eq : cfg1.N = 20000 := N_1

/-- The gather stage's point `s` has first coordinate s / 40 and second s % 40. -/
theorem coords0_0 (s : Fin grid0.N) : (grid0.coords s 0).val = s.val / 40 := by
  have hs : s.val < 40000 := lt_of_lt_of_eq s.isLt N_0
  show s.val / grid0.stride 0 % grid0.bound 0 = _
  rw [show grid0.stride 0 = 40 from by decide, show grid0.bound 0 = 1000 from rfl]
  omega
theorem coords0_1 (s : Fin grid0.N) : (grid0.coords s 1).val = s.val % 40 := by
  show s.val / grid0.stride 1 % grid0.bound 1 = _
  rw [show grid0.stride 1 = 1 from by decide, show grid0.bound 1 = 40 from rfl, Nat.div_one]

/-- The scatter stage's point `s` has first coordinate s / 500 and second s % 500. -/
theorem coords1_0 (s : Fin grid1.N) : (grid1.coords s 0).val = s.val / 500 := by
  have hs : s.val < 20000 := lt_of_lt_of_eq s.isLt N_1
  show s.val / grid1.stride 0 % grid1.bound 0 = _
  rw [show grid1.stride 0 = 500 from by decide, show grid1.bound 0 = 40 from rfl]
  omega
theorem coords1_1 (s : Fin grid1.N) : (grid1.coords s 1).val = s.val % 500 := by
  show s.val / grid1.stride 1 % grid1.bound 1 = _
  rw [show grid1.stride 1 = 1 from by decide, show grid1.bound 1 = 500 from rfl, Nat.div_one]

/-- The gather stage's output block index at point `s`: the edge tile. -/
theorem index0_3 (s : Fin grid0.N) : win0_3.index s = ![s.val / 40, 0] := by
  have hs : s.val < 40000 := lt_of_lt_of_eq s.isLt N_0
  funext a
  match a with
  | ⟨0, _⟩ =>
    show (BitVec.ofNat 32 (grid0.coords s 0).val).toNat = s.val / 40
    rw [coords0_0, BitVec.toNat_ofNat]
    omega
  | ⟨1, _⟩ => rfl

/-- The scatter stage's output block index at point `s`: the node tile. -/
theorem index1_2 (s : Fin grid1.N) : win1_2.index s = ![s.val / 500, 0] := by
  have hs : s.val < 20000 := lt_of_lt_of_eq s.isLt N_1
  funext a
  match a with
  | ⟨0, _⟩ =>
    show (BitVec.ofNat 32 (grid1.coords s 0).val).toNat = s.val / 500
    rw [coords1_0, BitVec.toNat_ofNat]
    omega
  | ⟨1, _⟩ => rfl

/-- The gather stage's output block is written back at the points ≡ 39 (mod 40). -/
theorem flush0_3 : ∀ t : Fin cfg0.N, (cfg0.win 3).flush t = true ↔ t.val % 40 = 39 := by
  intro t
  have ht : t.val < 40000 := lt_of_lt_of_eq t.isLt N_0
  show win0_3.flush t = true ↔ _
  unfold Pipeline.Window.flush
  rw [show win0_3.isOut = true from rfl, Bool.true_and, Bool.or_eq_true, decide_eq_true_eq, decide_eq_true_eq]
  constructor
  · rintro (h | ⟨h, hne⟩)
    · have : t.val + 1 = 40000 := h.trans N_0
      omega
    · by_contra hc
      apply hne
      rw [index0_3, index0_3]
      have : (t.val + 1) / 40 = t.val / 40 := by omega
      show ![(t.val + 1) / 40, 0] = _
      rw [this]
  · intro h
    by_cases hl : t.val + 1 = grid0.N
    · exact Or.inl hl
    · refine Or.inr ⟨by have := N_0; omega, ?_⟩
      rw [index0_3, index0_3]
      intro he
      have := congrFun he 0
      have h2 : (t.val + 1) / 40 = t.val / 40 := this
      omega

/-- The scatter stage's output block is written back at the points ≡ 499 (mod 500). -/
theorem flush1_2 : ∀ t : Fin cfg1.N, (cfg1.win 2).flush t = true ↔ t.val % 500 = 499 := by
  intro t
  have ht : t.val < 20000 := lt_of_lt_of_eq t.isLt N_1
  show win1_2.flush t = true ↔ _
  unfold Pipeline.Window.flush
  rw [show win1_2.isOut = true from rfl, Bool.true_and, Bool.or_eq_true, decide_eq_true_eq, decide_eq_true_eq]
  constructor
  · rintro (h | ⟨h, hne⟩)
    · have : t.val + 1 = 20000 := h.trans N_1
      omega
    · by_contra hc
      apply hne
      rw [index1_2, index1_2]
      have : (t.val + 1) / 500 = t.val / 500 := by omega
      show ![(t.val + 1) / 500, 0] = _
      rw [this]
  · intro h
    by_cases hl : t.val + 1 = grid1.N
    · exact Or.inl hl
    · refine Or.inr ⟨by have := N_1; omega, ?_⟩
      rw [index1_2, index1_2]
      intro he
      have := congrFun he 0
      have h2 : (t.val + 1) / 500 = t.val / 500 := this
      omega

/-- The current staging memref of each window at point `t`. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)

/-- The gather kernel's body at point `t`, on what the pipeline calls it with. -/
abbrev bodyAt0 (t : Fin cfg0.N) : Prog (TpuEff nD τ sig (Elt F) Λ₀ .tc) PUnit :=
  cc0__gather_kernel (grid0.coords t) (win0_0.stage (cfg0.slots t 0)) (Facts₀.hstage0_0 ((cfg0.slots t 0).cast Facts₀.nbuf0_0)) (win0_1.stage (cfg0.slots t 1)) (Facts₀.hstage0_1 ((cfg0.slots t 1).cast Facts₀.nbuf0_1)) (win0_2.stage (cfg0.slots t 2)) (Facts₀.hstage0_2 ((cfg0.slots t 2).cast Facts₀.nbuf0_2)) (win0_3.stage (cfg0.slots t 3)) (Facts₀.hstage0_3 ((cfg0.slots t 3).cast Facts₀.nbuf0_3)) (Memref.whole cc0_scratch0) (Memref.isWhole_whole _)

/-- The scatter kernel's body at point `t`, on what the pipeline calls it with. -/
abbrev bodyAt1 (t : Fin cfg1.N) : Prog (TpuEff nD τ sig (Elt F) Λ₀ .tc) PUnit :=
  cc1__scatter_kernel (grid1.coords t) (win1_0.stage (cfg1.slots t 0)) (Facts₀.hstage1_0 ((cfg1.slots t 0).cast Facts₀.nbuf1_0)) (win1_1.stage (cfg1.slots t 1)) (Facts₀.hstage1_1 ((cfg1.slots t 1).cast Facts₀.nbuf1_1)) (win1_2.stage (cfg1.slots t 2)) (Facts₀.hstage1_2 ((cfg1.slots t 2).cast Facts₀.nbuf1_2))

end Cert.Kernel.Hand

end
-- ==== Proof.K.Region0.lean ====
import proofs.«421706_j16071767622283_1_alg».proof.Proof.Gen.Kernel.Launch
import proofs.«421706_j16071767622283_1_alg».proof.Proof.Gen.Kernel.Skeleton
import proofs.«421706_j16071767622283_1_alg».proof.Proof.K.Sched
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! ## The body's two conditions, and one grid point's run on any whole buffers -/

/-- The whole-buffer rectangle starts at the origin. -/
theorem origin0 : (![0, 0] : Fin 2 → ℕ) = fun _ => 0 := funext fun a => by fin_cases a <;> rfl

/-- The reset condition of the body (node tile j = 0), as the body computes it from the coordinates. -/
abbrev cond0_0 (i : grid0.Coords) : Prop :=
  (Scalar.cmpi .ne (Scalar.extui (Scalar.cmpi .eq (BitVec.ofNat 32 (i 1).val) 0#32)) 0#32) = 1#1

/-- The write-out condition of the body (node tile j = 39). -/
abbrev cond0_1 (i : grid0.Coords) : Prop := k0_cond2 i = 1#1

/-- The reset condition reads only the node tile, and holds at tile 0 alone. -/
theorem reset_iff0 : ∀ j : Fin 40,
    (Scalar.cmpi .ne (Scalar.extui (Scalar.cmpi .eq (BitVec.ofNat 32 j.val) 0#32)) 0#32 = 1#1) ↔ j.val = 0 := by decide +kernel

/-- The write-out condition reads only the node tile, and holds at tile 39 alone. -/
theorem writeout_iff0 : ∀ j : Fin 40,
    (Scalar.cmpi .ne (Scalar.extui (Scalar.cmpi .eq (BitVec.ofNat 32 j.val) 39#32)) 0#32 = 1#1) ↔ j.val = 39 := by decide +kernel

/-- The reset condition holds at the first node tile of each edge tile: the points ≡ 0 (mod 40). -/
theorem hcond0_0 (t : Fin cfg0.N) : cond0_0 (grid0.coords t) ↔ t.val % 40 = 0 :=
  (reset_iff0 ((grid0.coords t) 1)).trans (by rw [coords0_1])

/-- The write-out condition holds at the last node tile of each edge tile: the points ≡ 39 (mod 40). -/
theorem hcond0_1 (t : Fin cfg0.N) : cond0_1 (grid0.coords t) ↔ t.val % 40 = 39 :=
  (writeout_iff0 ((grid0.coords t) 1)).trans (by rw [coords0_1])

/-- A store through the whole 1600 × 64 rectangle, made last, covers every index. -/
theorem cover0 {e : EltTy} (w : S1600x64.Idx → Elt F e) (L : List (View.Piece (Elt F) S1600x64 e)) (y : S1600x64.Idx) :
    ∃ pc ∈ ((⟨Rect.unit (s := S1600x64) ![0, 0] S1600x64.size Gen.inb_S1600x64_S1600x64_0_0, w⟩ : View.Piece (Elt F) S1600x64 e) :: L),
      y ∈ pc.1.set :=
  ⟨_, List.Mem.head _, View.mem_set_unit_zero origin0 Gen.inb_S1600x64_S1600x64_0_0 y⟩

section Run

variable (c : Dev nD) (i : grid0.Coords)
  (arg2 : Memref sig .tc .vmem S1600x1 .i32) (harg2 : arg2.IsWhole)
  (arg3 : Memref sig .tc .vmem S1600x1 .f32) (harg3 : arg3.IsWhole)
  (arg4 : Memref sig .tc .vmem S2560x64 .bf16) (harg4 : arg4.IsWhole)
  (arg5 : Memref sig .tc .vmem S1600x64 .bf16) (harg5 : arg5.IsWhole)
  (arg6 : Memref sig .tc .vmem S1600x64 .f32) (harg6 : arg6.IsWhole)
  (x0 : Vec F S1600x1 .i32) (x1 : Vec F S1600x1 .f32) (x2 : Vec F S2560x64 .bf16)

set_option maxHeartbeats 1000000 in
/-- A middle point (0 < j < 39): the accumulator, found at `xs`, gains the tile's one-hot product; nothing else changes. -/
theorem run0_mid (hc0 : ¬ cond0_0 i) (hc1 : ¬ cond0_1 i) (xi3 : Vec F S1600x64 .bf16) (xs : Vec F S1600x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 i x0 x2 xs)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (cover0 _ _), View.canon_unit_zero origin0]
  simp only [View.readAt_eq_ld, harg2.read_unread, harg4.read_unread, harg6.read_unread,
    View.ld_unit_zero (S := S1600x1) origin0, View.ld_unit_zero (S := S2560x64) origin0, View.ld_unit_zero (S := S1600x64) origin0]

set_option maxHeartbeats 1000000 in
/-- The first node tile (j = 0): the accumulator, found at anything, is zero-filled and then gains the tile's product. -/
theorem run0_first (hc0 : cond0_0 i) (hc1 : ¬ cond0_1 i) (xi3 : Vec F S1600x64 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 i x0 x2 (k0_pay1 (F := F)))) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (cover0 _ _),
    View.canon_cons_unit_zero (S := S1600x64) origin0]
  simp only [View.readCov_unit_zero (S := S1600x64) _ origin0, View.readAt_eq_ld, harg2.read_unread, harg4.read_unread,
    View.ld_unit_zero (S := S1600x1) origin0, View.ld_unit_zero (S := S2560x64) origin0]

set_option maxHeartbeats 1000000 in
/-- The last node tile (j = 39): the accumulator gains the tile's product, and its scaling by the edge values is
    stored over whatever the output's buffer held. -/
theorem run0_last (hc0 : ¬ cond0_0 i) (hc1 : cond0_1 i) (xs : Vec F S1600x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x1 (k0_pay2 i x0 x2 xs)) ∗ owns (c : Thread nD τ) arg6 fullShare (k0_pay2 i x0 x2 xs)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (cover0 _ _), View.canon_unit_zero origin0]
    simp only [View.readCov_unit_zero (S := S1600x64) _ origin0, View.readAt_eq_ld, harg2.read_unread, harg3.read_unread,
      harg4.read_unread, harg6.read_unread,
      View.ld_unit_zero (S := S1600x1) origin0, View.ld_unit_zero (S := S2560x64) origin0, View.ld_unit_zero (S := S1600x64) origin0]
  iexists _; isplitr
  swap; · iexact HS
  ipureintro
  sl_unfold_words
  rw [View.read_writes_eq_canon _ _ _ (cover0 _ _), View.canon_unit_zero origin0]
  simp only [View.readAt_eq_ld, harg2.read_unread, harg4.read_unread, harg6.read_unread,
    View.ld_unit_zero (S := S1600x1) origin0, View.ld_unit_zero (S := S2560x64) origin0, View.ld_unit_zero (S := S1600x64) origin0]

end Run

/-! # The gather stage (the first pallas_call) at the contents `V` its region is entered with

One grid point (i, j) handles edge tile i against node tile j: the scratch accumulator is reset at j = 0,
gains the tile's one-hot product at every j, and at j = 39 is scaled by the edge values and stored to the output block. -/

variable (V : (c : Dev nD) → (b : Ref sig .tc) → Buf (Elt F) ((c : Thread nD τ).loc b))

/-- Window `w`'s block of its array at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator after the body at position `n`: the point's one-hot product added to what the point before left,
    or to the zero fill when the point is the first of its edge tile (n ≡ 0 mod 40). -/
def acc0 (c : Dev nD) : (n : ℕ) → n < cfg0.N → Vec F S1600x64 .f32
  | 0, hn => k0_pay2 (grid0.coords ⟨0, hn⟩) (iblk0 V c 0 ⟨0, hn⟩) (iblk0 V c 2 ⟨0, hn⟩) (k0_pay1 (F := F))
  | n + 1, hn =>
    if (n + 1) % 40 = 0 then k0_pay2 (grid0.coords ⟨n + 1, hn⟩) (iblk0 V c 0 ⟨n + 1, hn⟩) (iblk0 V c 2 ⟨n + 1, hn⟩) (k0_pay1 (F := F))
    else k0_pay2 (grid0.coords ⟨n + 1, hn⟩) (iblk0 V c 0 ⟨n + 1, hn⟩) (iblk0 V c 2 ⟨n + 1, hn⟩) (acc0 c n (Nat.lt_of_succ_lt hn))

theorem acc0_first (c : Dev nD) (t : Fin cfg0.N) (h : t.val % 40 = 0) :
    acc0 V c t.val t.isLt = k0_pay2 (grid0.coords t) (iblk0 V c 0 t) (iblk0 V c 2 t) (k0_pay1 (F := F)) := by
  obtain ⟨n, hn⟩ := t
  cases n with
  | zero => rfl
  | succ n => exact if_pos h

theorem acc0_next (c : Dev nD) (t : Fin cfg0.N) (h : ¬ t.val % 40 = 0) :
    acc0 V c t.val t.isLt = k0_pay2 (grid0.coords t) (iblk0 V c 0 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: the scoped rest and the generator register, the scratch accumulator at
    what the point before left (at anything before the first point). -/
def Phi0 (c : Dev nD) : (n : ℕ) → n ≤ cfg0.N → sProp 𝕄
  | 0, _ => Pipeline.ΦA spec0 c
  | n + 1, hn => iprop(iprop(owns (c : Thread nD τ) (Memref.whole cc0_scratch0 : Memref sig .tc .vmem S1600x64 .f32) fullShare (acc0 V c n hn)
      ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))
      ∗ (∃ r, prngReg c r))

/-- The proof data of the gather stage on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 1 t) (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = k0_pay3 (iblk0 V c 1 t) (acc0 V c t.val t.isLt) := by dsimp only [dat0]

/-- The second stage's staging buffers, each whole at some contents: this stage does not touch them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The scratch accumulator as the body is handed it: the whole scoped buffer. -/
abbrev scM0 : Memref sig .tc .vmem S1600x64 .f32 := Memref.whole cc0_scratch0

theorem Phi0_zero (c : Dev nD) (n : ℕ) (h : n ≤ cfg0.N) (hz : n = 0) : Phi0 V c n h = Pipeline.ΦA spec0 c := by
  subst hz; rfl

/-- After point `n`: the accumulator at that point's contents. -/
theorem Phi0_succ (c : Dev nD) (n : ℕ) (hn : n < cfg0.N) :
    Phi0 V c (n + 1) hn = iprop(iprop(owns (c : Thread nD τ) scM0 fullShare (acc0 V c n hn) ∗ rest0 c) ∗ (∃ r, prngReg c r)) := rfl

/-- Before a point that is not the first: the accumulator at what the point before left. -/
theorem Phi0_pos (c : Dev nD) (n : ℕ) (h : n ≤ cfg0.N) (hz : n ≠ 0) :
    Phi0 V c n h = iprop(iprop(owns (c : Thread nD τ) scM0 fullShare (acc0 V c (n - 1) (by omega)) ∗ rest0 c) ∗ (∃ r, prngReg c r)) := by
  cases n with
  | zero => exact absurd rfl hz
  | succ n => rfl

/-- What the launch hands the region, with the scratch accumulator as a buffer owned at some contents. -/
theorem PhiA_eq0 (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-- The body leaves each input block where it found it. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-- Each input's current staging buffer holds its block at every point, fetched there or not: an unfetched input's
    block index did not move, and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## Where the output window is idle -/

/-- The inputs are never idle. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl

/-- The output window is idle exactly where the write-out condition fails. -/
theorem idleAt0_3 (t : Fin cfg0.N) (h : ¬ cond0_1 (grid0.coords t)) : cfg0.idle 3 (grid0.coords t) = true := by
  show (!(k0_cond2 (grid0.coords t) == 1#1)) = true
  rw [Bool.not_eq_true', beq_eq_false_iff_ne]; exact h
theorem liveAt0_3 (t : Fin cfg0.N) (h : cond0_1 (grid0.coords t)) : cfg0.idle 3 (grid0.coords t) = false := by
  show (!(k0_cond2 (grid0.coords t) == 1#1)) = false
  rw [show k0_cond2 (grid0.coords t) = 1#1 from h]; rfl

/-- Off the points ≡ 39 (mod 40) the output block is not written back. -/
theorem noFlush0_3 (t : Fin cfg0.N) (h : ¬ t.val % 40 = 39) : (cfg0.win 3).flush t = false :=
  Bool.eq_false_iff.mpr fun hf => h ((flush0_3 t).mp hf)

/-- Each window's current staging buffer at point `t`, as the pipeline passes it to the body. -/
abbrev ms0_0 (t : Fin cfg0.N) : Memref sig .tc .vmem S1600x1 .i32 := win0_0.stage (cfg0.slots t 0)
abbrev ms0_1 (t : Fin cfg0.N) : Memref sig .tc .vmem S1600x1 .f32 := win0_1.stage (cfg0.slots t 1)
abbrev ms0_2 (t : Fin cfg0.N) : Memref sig .tc .vmem S2560x64 .bf16 := win0_2.stage (cfg0.slots t 2)
abbrev ms0_3 (t : Fin cfg0.N) : Memref sig .tc .vmem S1600x64 .bf16 := win0_3.stage (cfg0.slots t 3)

/-- What the body leaves in each input's buffer: its block. -/
theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) :
    (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the position modulo 40 says which of the three kinds
    of point this is. At the first node tile the accumulator is handed over at anything and comes back at the point's
    product over the zero fill; elsewhere it is handed over at what the point before left and comes back with the point's
    product added. Only at the last node tile is the output block stored, the accumulator scaled by the edge values;
    at every other point the output's buffer is handed back as it was found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2]
  have hN : t.val < 40000 := lt_of_lt_of_eq t.isLt (show cfg0.N = 40000 from N_0)
  by_cases h0 : t.val % 40 = 0
  · -- the first node tile of an edge tile
    have h39 : ¬ t.val % 40 = 39 := by omega
    have hc0 : cond0_0 (grid0.coords t) := (hcond0_0 t).mpr h0
    have hc1 : ¬ cond0_1 (grid0.coords t) := fun h => h39 ((hcond0_1 t).mp h)
    rw [Dat.leavesExact_idle (dat0 V c) 3 t (idleAt0_3 t hc1) (noFlush0_3 t h39)]
    rw [acc0_first V c t h0]
    by_cases hz : t.val = 0
    · rw [Phi0_castSucc V c t, Phi0_zero V c _ _ hz, PhiA_eq0]
      iintro ⟨⟨⟨HS, HR⟩, Hg⟩, Ho, ⟨%d0, H0⟩, ⟨%d1, H1⟩, ⟨%d2, H2⟩, ⟨%d3, H3⟩⟩
      iapply (run0_first c (grid0.coords t) _ _ _ _ _ _ _ _ _ _ (iblk0 V c 0 t) (iblk0 V c 1 t) (iblk0 V c 2 t) hc0 hc1 _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨⟨HS, HR⟩, Hg⟩, Ho, ⟨%d0, H0⟩, ⟨%d1, H1⟩, ⟨%d2, H2⟩, ⟨%d3, H3⟩⟩
      iapply (run0_first c (grid0.coords t) _ _ _ _ _ _ _ _ _ _ (iblk0 V c 0 t) (iblk0 V c 1 t) (iblk0 V c 2 t) hc0 hc1 _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬ cond0_0 (grid0.coords t) := fun h => h0 ((hcond0_0 t).mp h)
    rw [acc0_next V c t h0]
    rw [Phi0_castSucc V c t, Phi0_pos V c _ _ hz]
    by_cases h39 : t.val % 40 = 39
    · -- the last node tile: the output block is stored
      have hc1 : cond0_1 (grid0.coords t) := (hcond0_1 t).mpr h39
      rw [show (dat0 V c).leavesExact 3 t = owns (c : Thread nD τ) (ms0_3 t) fullShare ((dat0 V c).after 3 t) from by
        unfold Dat.leavesExact; rw [liveAt0_3 t hc1], after0_3, acc0_next V c t h0]
      iintro ⟨⟨⟨HS, HR⟩, Hg⟩, Ho, ⟨%d0, H0⟩, ⟨%d1, H1⟩, ⟨%d2, H2⟩, ⟨%d3, H3⟩⟩
      iapply (run0_last c (grid0.coords t) _ _ _ _ _ _ _ _ _ _ (iblk0 V c 0 t) (iblk0 V c 1 t) (iblk0 V c 2 t) hc0 hc1 _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle node tile
      have hc1 : ¬ cond0_1 (grid0.coords t) := fun h => h39 ((hcond0_1 t).mp h)
      rw [Dat.leavesExact_idle (dat0 V c) 3 t (idleAt0_3 t hc1) (noFlush0_3 t h39)]
      iintro ⟨⟨⟨HS, HR⟩, Hg⟩, Ho, ⟨%d0, H0⟩, ⟨%d1, H1⟩, ⟨%d2, H2⟩, ⟨%d3, H3⟩⟩
      iapply (run0_mid c (grid0.coords t) _ _ _ _ _ _ _ _ _ _ (iblk0 V c 0 t) (iblk0 V c 1 t) (iblk0 V c 2 t) hc0 hc1 _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body obligation of the gather stage at every grid point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the scoped rest and the generator register back. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 40000 := N_0; omega), PhiA_eq0]
  iintro ⟨⟨HS, HR⟩, Hg⟩
  isplitl [HS HR]
  · isplitl [HS]
    · iexists _; iexact HS
    iexact HR
  iexact Hg

end Cert.Kernel.Hand

end
-- ==== Proof.K.Region1.lean ====
import proofs.«421706_j16071767622283_1_alg».proof.Proof.Gen.Kernel.Launch
import proofs.«421706_j16071767622283_1_alg».proof.Proof.Gen.Kernel.Skeleton
import proofs.«421706_j16071767622283_1_alg».proof.Proof.K.Sched
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # The scatter stage (the second pallas_call) at the contents `V` its region is entered with

One grid point (i, k) handles node tile i against edge tile k: the output block is zeroed at k = 0, gains the tile's
one-hot product at every k, and at k = 499 is clipped below at zero; the block is written back after k = 499. -/

variable (V : (c : Dev nD) → (b : Ref sig .tc) → Buf (Elt F) ((c : Thread nD τ).loc b))

/-- Window `w`'s block of its array at grid point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block's staging buffer after the body at position `n`. -/
def out1 (c : Dev nD) : (n : ℕ) → n < cfg1.N → Vec F S2560x64 .f32
  | 0, hn => k1_pay2 (grid1.coords ⟨0, hn⟩) (iblk1 V c 0 ⟨0, hn⟩) (iblk1 V c 1 ⟨0, hn⟩) (k1_pay1 (F := F))
  | n + 1, hn =>
    if (n + 1) % 500 = 0 then k1_pay2 (grid1.coords ⟨n + 1, hn⟩) (iblk1 V c 0 ⟨n + 1, hn⟩) (iblk1 V c 1 ⟨n + 1, hn⟩) (k1_pay1 (F := F))
    else if (n + 1) % 500 = 499 then
      k1_pay3 (k1_pay2 (grid1.coords ⟨n + 1, hn⟩) (iblk1 V c 0 ⟨n + 1, hn⟩) (iblk1 V c 1 ⟨n + 1, hn⟩) (out1 c n (Nat.lt_of_succ_lt hn)))
    else k1_pay2 (grid1.coords ⟨n + 1, hn⟩) (iblk1 V c 0 ⟨n + 1, hn⟩) (iblk1 V c 1 ⟨n + 1, hn⟩) (out1 c n (Nat.lt_of_succ_lt hn))

theorem out1_first (c : Dev nD) (t : Fin cfg1.N) (h : t.val % 500 = 0) :
    out1 V c t.val t.isLt = k1_pay2 (grid1.coords t) (iblk1 V c 0 t) (iblk1 V c 1 t) (k1_pay1 (F := F)) := by
  obtain ⟨n, hn⟩ := t
  cases n with
  | zero => rfl
  | succ n => exact (if_pos h).trans rfl

theorem out1_mid (c : Dev nD) (t : Fin cfg1.N) (h0 : ¬ t.val % 500 = 0) (h1 : ¬ t.val % 500 = 499) :
    out1 V c t.val t.isLt = k1_pay2 (grid1.coords t) (iblk1 V c 0 t) (iblk1 V c 1 t)
      (out1 V c (t.val - 1) (Nat.lt_of_le_of_lt (Nat.sub_le _ _) t.isLt)) := by
  obtain ⟨n, hn⟩ := t
  cases n with
  | zero => exact absurd (Nat.zero_mod _) h0
  | succ n => exact (if_neg h0).trans ((if_neg h1).trans rfl)

theorem out1_last (c : Dev nD) (t : Fin cfg1.N) (h1 : t.val % 500 = 499) :
    out1 V c t.val t.isLt = k1_pay3 (k1_pay2 (grid1.coords t) (iblk1 V c 0 t) (iblk1 V c 1 t)
      (out1 V c (t.val - 1) (Nat.lt_of_le_of_lt (Nat.sub_le _ _) t.isLt))) := by
  obtain ⟨n, hn⟩ := t
  cases n with
  | zero => exact absurd ((Nat.zero_mod 500).symm.trans h1) (by decide)
  | succ n =>
    have h0 : ¬ (n + 1) % 500 = 0 := fun h => by dsimp only at h1; omega
    exact (if_neg h0).trans ((if_pos h1).trans rfl)

/-- The proof data of the scatter stage on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1 V c t.val t.isLt := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]

/-- The rows block's staging buffer holds the block of its array at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The messages block's staging buffer likewise. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Past the first edge tile of a node tile the output block's staging buffer holds what the point before left:
    the block is written back only after the last edge tile. -/
theorem before1_2_kept (c : Dev nD) (t : Fin cfg1.N) (h0 : ¬ t.val % 500 = 0) (d) :
    (dat1 V c).before 2 t d = out1 V c (t.val - 1) (Nat.lt_of_le_of_lt (Nat.sub_le _ _) t.isLt) := by
  rw [Dat.before_out_kept _ 2 rfl t (by omega)
    (Bool.eq_false_iff.mpr fun h => by have := (flush1_2 _).mp h; dsimp only at this; omega)
    (fun _ => rfl) (fun _ _ => rfl)]
  dsimp only [dat1]

/-- The first branch condition of the body at grid coordinates `i` (as the body computes it from the coordinate's 32-bit word): the edge-tile
    coordinate is 0. -/
abbrev cond1_0 (i : grid1.Coords) : Prop :=
  (Scalar.cmpi .ne (Scalar.extui (Scalar.cmpi .eq (BitVec.ofNat 32 (i 1).val) 0#32)) 0#32) = 1#1
/-- The second: the edge-tile coordinate is 499. -/
abbrev cond1_1 (i : grid1.Coords) : Prop :=
  (Scalar.cmpi .ne (Scalar.extui (Scalar.cmpi .eq (BitVec.ofNat 32 (i 1).val) 499#32)) 0#32) = 1#1

/-- The two conditions as functions of the edge-tile coordinate alone, over its 500 values. -/
private theorem condK_0 : ∀ k : ℕ, k < 500 →
    ((Scalar.cmpi .ne (Scalar.extui (Scalar.cmpi .eq (BitVec.ofNat 32 k) 0#32)) 0#32 = 1#1) ↔ k = 0) := by decide +kernel
private theorem condK_1 : ∀ k : ℕ, k < 500 →
    ((Scalar.cmpi .ne (Scalar.extui (Scalar.cmpi .eq (BitVec.ofNat 32 k) 499#32)) 0#32 = 1#1) ↔ k = 499) := by decide +kernel

theorem hcond1_0 (t : Fin cfg1.N) : cond1_0 (grid1.coords t) ↔ t.val % 500 = 0 :=
  (condK_0 _ (grid1.coords t 1).isLt).trans (by rw [coords1_1])
theorem hcond1_1 (t : Fin cfg1.N) : cond1_1 (grid1.coords t) ↔ t.val % 500 = 499 :=
  (condK_1 _ (grid1.coords t 1).isLt).trans (by rw [coords1_1])

private theorem hz2 : (![0, 0] : Fin 2 → Nat) = fun _ => 0 := funext fun a => by fin_cases a <;> rfl

set_option maxHeartbeats 1000000 in
/-- The body at a point with k = 0: whatever the output buffer held, it ends at the tile's one-hot product added to
    the zero fill. -/
theorem run1_A (c : Dev nD) (E : Set ℕ) (i : grid1.Coords)
    (arg2 : Memref sig .tc .vmem S1x3200 .i32) (harg2 : arg2.IsWhole) (arg3 : Memref sig .tc .vmem S3200x64 .bf16) (harg3 : arg3.IsWhole)
    (arg4 : Memref sig .tc .vmem S2560x64 .f32) (harg4 : arg4.IsWhole) (hc0 : cond1_0 i) (hc1 : ¬ cond1_1 i)
    (x0 : Vec F S1x3200 .i32) (x1 : Vec F S3200x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay2 i x0 x1 (k1_pay1 (F := F)))) -∗ K ⟨⟩))
      ⊢ wp frame (wpE (defs₀ (F := F)) Variants.none c none) E (cc1__scatter_kernel i arg2 harg2 arg3 harg3 arg4 harg4) K := by
  simp only [cc1__scatter_kernel_eq_skeleton]; unfold cc1__scatter_kernel_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_cons_self, View.mem_set_unit_zero hz2 Gen.inb_S2560x64_S2560x64_0_0 y⟩),
    View.canon_cons_unit_zero hz2]
  sl_unfold_words
  simp only [View.readAt_eq_ld, harg2.read_unread, harg3.read_unread, harg4.read_unread,
    View.readCov_unit_zero (S := S2560x64) _ hz2,
    View.ld_unit_zero (S := S1x3200) hz2, View.ld_unit_zero (S := S3200x64) hz2, View.ld_unit_zero (S := S2560x64) hz2]

set_option maxHeartbeats 1000000 in
/-- The body at a point with 0 < k < 499, on whole staging memrefs: the output buffer at `xo` ends at the tile's
    one-hot product added to `xo`. -/
theorem run1_B (c : Dev nD) (E : Set ℕ) (i : grid1.Coords)
    (arg2 : Memref sig .tc .vmem S1x3200 .i32) (harg2 : arg2.IsWhole) (arg3 : Memref sig .tc .vmem S3200x64 .bf16) (harg3 : arg3.IsWhole)
    (arg4 : Memref sig .tc .vmem S2560x64 .f32) (harg4 : arg4.IsWhole) (hc0 : ¬ cond1_0 i) (hc1 : ¬ cond1_1 i)
    (x0 : Vec F S1x3200 .i32) (x1 : Vec F S3200x64 .bf16) (xo : Vec F S2560x64 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k1_pay2 i x0 x1 xo)) -∗ K ⟨⟩))
      ⊢ wp frame (wpE (defs₀ (F := F)) Variants.none c none) E (cc1__scatter_kernel i arg2 harg2 arg3 harg3 arg4 harg4) K := by
  simp only [cc1__scatter_kernel_eq_skeleton]; unfold cc1__scatter_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_singleton_self _, View.mem_set_unit_zero hz2 Gen.inb_S2560x64_S2560x64_0_0 y⟩),
    View.canon_unit_zero hz2]
  simp only [View.readAt_eq_ld, harg2.read_unread, harg3.read_unread, harg4.read_unread,
    View.ld_unit_zero (S := S1x3200) hz2, View.ld_unit_zero (S := S3200x64) hz2, View.ld_unit_zero (S := S2560x64) hz2]

set_option maxHeartbeats 1000000 in
/-- The body at a point with k = 499: the output buffer at `xo` ends at the tile's one-hot product added to `xo`,
    clipped below at zero. -/
theorem run1_C (c : Dev nD) (E : Set ℕ) (i : grid1.Coords)
    (arg2 : Memref sig .tc .vmem S1x3200 .i32) (harg2 : arg2.IsWhole) (arg3 : Memref sig .tc .vmem S3200x64 .bf16) (harg3 : arg3.IsWhole)
    (arg4 : Memref sig .tc .vmem S2560x64 .f32) (harg4 : arg4.IsWhole) (hc0 : ¬ cond1_0 i) (hc1 : cond1_1 i)
    (x0 : Vec F S1x3200 .i32) (x1 : Vec F S3200x64 .bf16) (xo : Vec F S2560x64 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k1_pay3 (k1_pay2 i x0 x1 xo))) -∗ K ⟨⟩))
      ⊢ wp frame (wpE (defs₀ (F := F)) Variants.none c none) E (cc1__scatter_kernel i arg2 harg2 arg3 harg3 arg4 harg4) K := by
  simp only [cc1__scatter_kernel_eq_skeleton]; unfold cc1__scatter_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_cons_self, View.mem_set_unit_zero hz2 Gen.inb_S2560x64_S2560x64_0_0 y⟩),
    View.canon_cons_unit_zero hz2]
  sl_unfold_words
  simp only [View.readAt_eq_ld, harg2.read_unread, harg3.read_unread, harg4.read_unread,
    View.readCov_unit_zero (S := S2560x64) _ hz2,
    View.ld_unit_zero (S := S1x3200) hz2, View.ld_unit_zero (S := S3200x64) hz2, View.ld_unit_zero (S := S2560x64) hz2]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point. The two input buffers hold their blocks. At k = 0 the output buffer holds anything and is
    overwritten by the zero fill before it is used; at k > 0 it holds what the point before left, the block not having been
    written back between; the three cases of k leave the three cases of the recursion. The invariant and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 500 = 0
  · have h1 : ¬ t.val % 500 = 499 := by omega
    rw [out1_first V c t h0]
    iintro ⟨HΦ, Ho, ⟨%d0, H0⟩, ⟨%d1, H1⟩, ⟨%d2, H2⟩⟩
    iapply (run1_A c Set.univ (grid1.coords t) _ _ _ _ _ _ ((hcond1_0 t).mpr h0) (fun h => h1 ((hcond1_1 t).mp h))
      (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before1_2_kept V c t h0]
    by_cases h1 : t.val % 500 = 499
    · rw [out1_last V c t h1]
      iintro ⟨HΦ, Ho, ⟨%d0, H0⟩, ⟨%d1, H1⟩, ⟨%d2, H2⟩⟩
      iapply (run1_C c Set.univ (grid1.coords t) _ _ _ _ _ _ (fun h => h0 ((hcond1_0 t).mp h)) ((hcond1_1 t).mpr h1)
        (iblk1 V c 0 t) (iblk1 V c 1 t) (out1 V c (t.val - 1) (Nat.lt_of_le_of_lt (Nat.sub_le _ _) t.isLt)) _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [out1_mid V c t h0 h1]
      iintro ⟨HΦ, Ho, ⟨%d0, H0⟩, ⟨%d1, H1⟩, ⟨%d2, H2⟩⟩
      iapply (run1_B c Set.univ (grid1.coords t) _ _ _ _ _ _ (fun h => h0 ((hcond1_0 t).mp h)) (fun h => h1 ((hcond1_1 t).mp h))
        (iblk1 V c 0 t) (iblk1 V c 1 t) (out1 V c (t.val - 1) (Nat.lt_of_le_of_lt (Nat.sub_le _ _) t.isLt)) _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The body obligation of the scatter stage at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
import proofs.«421706_j16071767622283_1_alg».proof.Proof.Gen.Kernel.Launch
import proofs.«421706_j16071767622283_1_alg».proof.Proof.Gen.Kernel.Skeleton
import proofs.«421706_j16071767622283_1_alg».proof.Proof.Gen.Kernel.Regions
import proofs.«421706_j16071767622283_1_alg».proof.Proof.K.Sched
import proofs.«421706_j16071767622283_1_alg».proof.Proof.K.Region0
import proofs.«421706_j16071767622283_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # The whole run: @main's host stretches and its two regions, from the launch to the return

The buffer contents at each boundary of @main are a fold from the launch memory: a host stretch applies its operations, a
region leaves its arrays at what its write-backs leave (the proof data's `arrAt` at the grid's end) and every other buffer as
entered. -/

variable (m : (ℓ : Loc nD τ sig) → Buf (Elt F) ℓ) (ρ : Dev nD → PrngReg)

/-- Core `c`'s buffers at launch. -/
abbrev W0 : Dev nD → Valuation τ sig (Elt F) := fun c b => m (c, b)
/-- After the first host stretch (the constant). -/
abbrev W1 : Dev nD → Valuation τ sig (Elt F) := fun c => StableHlo.after hostOps0 (W0 m c)
/-- After the second host stretch (the zero padding). -/
abbrev W2 : Dev nD → Valuation τ sig (Elt F) := fun c => StableHlo.after hostOps0_1 (StableHlo.after hostOps0 (W0 m c))
/-- After the three host stretches before the first region (the constant; the zero padding; the narrowing and the reshapes). -/
abbrev W3 : Dev nD → Valuation τ sig (Elt F) := fun c => StableHlo.after hostOps0_2 (StableHlo.after hostOps0_1 (StableHlo.after hostOps0 (W0 m c)))
/-- The same read at the TensorCore's references: what the gather stage is entered with. -/
abbrev V3 : (c : Dev nD) → (b : Ref sig .tc) → Buf (Elt F) ((c : Thread nD τ).loc b) := fun c b => W3 m c b
/-- At the gather stage's exit. -/
def W4 (c : Dev nD) : Valuation τ sig (Elt F) :=
  Pipeline.withArrays spec0 c (W3 m c) fun w => (dat0 (V3 m) c).arrAt w cfg0.N
/-- The same read at the TensorCore's references: what the scatter stage is entered with. -/
abbrev V4 : (c : Dev nD) → (b : Ref sig .tc) → Buf (Elt F) ((c : Thread nD τ).loc b) := fun c b => W4 m c b
/-- At the scatter stage's exit. -/
def W5 (c : Dev nD) : Valuation τ sig (Elt F) :=
  Pipeline.withArrays spec1 c (W4 m c) fun w => (dat1 (V4 m) c).arrAt w cfg1.N
/-- The same read at the TensorCore's references. -/
abbrev V5 : (c : Dev nD) → (b : Ref sig .tc) → Buf (Elt F) ((c : Thread nD τ).loc b) := fun c b => W5 m c b
/-- After the last host stretch (the slice to the first 100000 rows). -/
abbrev W6 : Dev nD → Valuation τ sig (Elt F) := fun c => StableHlo.after hostOps2 (W5 m c)

/-! ## A region's exit contents: its arrays at what the write-backs leave, every other buffer as entered -/

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-! ## The proof data family and the thread state -/

/-- Each pipeline's proof data at the contents its region is entered with. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the core owing nothing. -/
abbrev R (c : Dev nD) : sProp 𝕄 := iprop((∃ r, prngReg c r) ∗ ∃ W, owes (c : Thread nD τ) (0 : CellTallies nD τ sig Unit) W)
/-- A host stretch as a segment over every unscoped buffer from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the fold's last contents, the generator register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The gather stage's region: entered from every unscoped buffer at `W3`, left at `W4`. Its arrays are split out of the
    unscoped buffers at entry and put back at the exit contents; the generator register and the scoped rest enter the
    region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V3 m) c)
    unfold Pipeline.ΦA
    iintro ⟨Hp, -, Hr⟩
    isplitl [Hr]; · iexact Hr
    iexact Hp
  hout c := by
    rw [Pipeline.ownSems0_none]
    refine BIBase.Entails.trans (hout0 (V3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter stage's region: entered from every unscoped buffer at `W4`, left at `W5`; its invariant is the scoped rest
    beside the generator register at every point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m),
    .host (hseg hostOps2 hostOps2_sub hostOps2_fresh (W5 m)) ]

set_option backward.isDefEq.respectTransparency.types false in
/-- THE RUN: from any memory with zero counters every weakly fair execution of @main terminates, nothing faulting, and every
    final memory holds each unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-! ## The fold read at the buffers the claims speak of -/

/-- A reference no host stretch writes and no region has among its arrays reaches the end as launched. -/
theorem W6_of_untouched (c : Dev nD) (r : Ref sig .tc) (h0 : r ∉ hostOps0_W) (h1 : r ∉ hostOps0_1_W) (h2 : r ∉ hostOps0_2_W)
    (h3 : ∀ w, Pipeline.arrRef spec0 w ≠ r) (h4 : ∀ w, Pipeline.arrRef spec1 w ≠ r) (h5 : r ∉ hostOps2_W) :
    W6 m c (Proc.devRef .tc r) = m ((c : Thread nD τ).loc r) :=
  calc W6 m c (Proc.devRef .tc r)
    _ = W5 m c (Proc.devRef .tc r) := StableHlo.after_of_writes_sub hostOps2 _ hostOps2_writes h5
    _ = W4 m c (Proc.devRef .tc r) := W5_of_ne m c r h4
    _ = W3 m c (Proc.devRef .tc r) := W4_of_ne m c r h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

theorem W6_main_arg0 (c : Dev nD) : W6 m c (Proc.devRef .tc main_arg0) = m ((c : Thread nD τ).loc main_arg0) :=
  W6_of_untouched m c main_arg0 (by decide) (by decide) (by decide) (by decide) (by decide) (by decide)
theorem W6_main_arg1 (c : Dev nD) : W6 m c (Proc.devRef .tc main_arg1) = m ((c : Thread nD τ).loc main_arg1) :=
  W6_of_untouched m c main_arg1 (by decide) (by decide) (by decide) (by decide) (by decide) (by decide)
theorem W6_main_arg2 (c : Dev nD) : W6 m c (Proc.devRef .tc main_arg2) = m ((c : Thread nD τ).loc main_arg2) :=
  W6_of_untouched m c main_arg2 (by decide) (by decide) (by decide) (by decide) (by decide) (by decide)
theorem W6_main_arg3 (c : Dev nD) : W6 m c (Proc.devRef .tc main_arg3) = m ((c : Thread nD τ).loc main_arg3) :=
  W6_of_untouched m c main_arg3 (by decide) (by decide) (by decide) (by decide) (by decide) (by decide)
theorem W6_main_arg4 (c : Dev nD) : W6 m c (Proc.devRef .tc main_arg4) = m ((c : Thread nD τ).loc main_arg4) :=
  W6_of_untouched m c main_arg4 (by decide) (by decide) (by decide) (by decide) (by decide) (by decide)

/-- The result: the first 100000 rows of what the scatter stage leaves in its output array. -/
theorem W6_main_v7 (c : Dev nD) : (W6 m c (Proc.devRef .tc main_v7) : S100000x64.Idx → Elt F .f32)
    = extractStridedSlice S100000x64 ![0, 0] ((dat1 (V4 m) c).arrAt 2 cfg1.N : S102400x64.Idx → Elt F .f32) Facts₀.slices_S102400x64_S100000x64_0_0 := by
  have h : W6 m c (Proc.devRef .tc main_v7)
      = extractStridedSlice S100000x64 ![0, 0] (W5 m c (Proc.devRef .tc main_v6) : S102400x64.Idx → Elt F .f32) Facts₀.slices_S102400x64_S100000x64_0_0 := by
    show StableHlo.after hostOps2 (W5 m c) (Proc.devRef .tc main_v7) = _
    after_results
  exact h.trans (congrArg (fun x : S102400x64.Idx → Elt F .f32 => extractStridedSlice S100000x64 ![0, 0] x Facts₀.slices_S102400x64_S100000x64_0_0) (W5_arr m c 2))

/-- What the gather stage is entered with: the node features padded with 2400 zero rows (and narrowed), and the column
    words, the edge values as columns. -/
theorem V3_main_v1 (c : Dev nD) : (V3 m c main_v1 : S102400x64.Idx → Elt F .bf16)
    = truncf .bf16 (pad S102400x64 ![0, 0] ![2400, 0] ![0, 0] (m ((c : Thread nD τ).loc main_arg1) : S100000x64.Idx → Elt F .f32)
        (sitofp .f32 (constantI S_ 32 0#32 : IVec S_ 32)) Facts₀.pads_S100000x64_S102400x64_024000_000 Facts₀.h_S_) Facts₀.bitsLt_bf16_f32 := by
  show StableHlo.after hostOps0_2 (StableHlo.after hostOps0_1 (StableHlo.after hostOps0 (W0 m c))) (Proc.devRef .tc main_v1) = _
  after_results
  rfl
theorem V3_main_v2 (c : Dev nD) : (V3 m c main_v2 : S1600000x1.Idx → Elt F .i32)
    = shapeCast S1600000x1 (m ((c : Thread nD τ).loc main_arg3) : S1600000.Idx → Elt F .i32) Facts₀.shapeCasts_S1600000_S1600000x1 := by
  show StableHlo.after hostOps0_2 (StableHlo.after hostOps0_1 (StableHlo.after hostOps0 (W0 m c))) (Proc.devRef .tc main_v2) = _
  after_results
  rfl
theorem V3_main_v3 (c : Dev nD) : (V3 m c main_v3 : S1600000x1.Idx → Elt F .f32)
    = shapeCast S1600000x1 (m ((c : Thread nD τ).loc main_arg4) : S1600000.Idx → Elt F .f32) Facts₀.shapeCasts_S1600000_S1600000x1 := by
  show StableHlo.after hostOps0_2 (StableHlo.after hostOps0_1 (StableHlo.after hostOps0 (W0 m c))) (Proc.devRef .tc main_v3) = _
  after_results
  rfl
/-- What the scatter stage is entered with: the row words as one row, and the gather stage's output array. -/
theorem V4_main_v4 (c : Dev nD) : (V4 m c main_v4 : S1x1600000.Idx → Elt F .i32)
    = shapeCast S1x1600000 (m ((c : Thread nD τ).loc main_arg2) : S1600000.Idx → Elt F .i32) Facts₀.shapeCasts_S1600000_S1x1600000 := by
  refine (W4_of_ne m c main_v4 (by decide)).trans ?_
  show StableHlo.after hostOps0_2 (StableHlo.after hostOps0_1 (StableHlo.after hostOps0 (W0 m c))) (Proc.devRef .tc main_v4) = _
  after_results
  rfl
theorem V4_main_v5 (c : Dev nD) : (V4 m c main_v5 : S1600000x64.Idx → Elt F .bf16)
    = ((dat0 (V3 m) c).arrAt 3 cfg0.N : S1600000x64.Idx → Elt F .bf16) :=
  W4_arr m c 3

end Cert.Kernel.Hand

end
-- ==== Proof.KI.Sched.lean ====
import proofs.«421706_j16071767622283_1_alg».proof.Proof.Gen.KernelIdeal.Launch
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.Sem
open Facts₀ Facts

variable {F : FTy → Type} [FloatOps F]

/-! # The schedule of the two pallas_calls' output windows, by arithmetic on the grid's points

Point `t` of the gather stage's 1000 × 40 grid is (t / 40, t % 40); its output block's index is the edge tile t / 40, so the
block is written back exactly where the next point starts another edge tile (or the grid ends): t ≡ 39 (mod 40). Likewise the
scatter stage's 40 × 500 grid: point t is (t / 500, t % 500), the output block's index the node tile t / 500, written back at
t ≡ 499 (mod 500). -/

theorem N0_eq : cfg0.N = 40000 := N_0
theorem N1_eq : cfg1.N = 20000 := N_1

/-- The gather stage's point `s` has first coordinate s / 40 and second s % 40. -/
theorem coords0_0 (s : Fin grid0.N) : (grid0.coords s 0).val = s.val / 40 := by
  have hs : s.val < 40000 := lt_of_lt_of_eq s.isLt N_0
  show s.val / grid0.stride 0 % grid0.bound 0 = _
  rw [show grid0.stride 0 = 40 from by decide, show grid0.bound 0 = 1000 from rfl]
  omega
theorem coords0_1 (s : Fin grid0.N) : (grid0.coords s 1).val = s.val % 40 := by
  show s.val / grid0.stride 1 % grid0.bound 1 = _
  rw [show grid0.stride 1 = 1 from by decide, show grid0.bound 1 = 40 from rfl, Nat.div_one]

/-- The scatter stage's point `s` has first coordinate s / 500 and second s % 500. -/
theorem coords1_0 (s : Fin grid1.N) : (grid1.coords s 0).val = s.val / 500 := by
  have hs : s.val < 20000 := lt_of_lt_of_eq s.isLt N_1
  show s.val / grid1.stride 0 % grid1.bound 0 = _
  rw [show grid1.stride 0 = 500 from by decide, show grid1.bound 0 = 40 from rfl]
  omega
theorem coords1_1 (s : Fin grid1.N) : (grid1.coords s 1).val = s.val % 500 := by
  show s.val / grid1.stride 1 % grid1.bound 1 = _
  rw [show grid1.stride 1 = 1 from by decide, show grid1.bound 1 = 500 from rfl, Nat.div_one]

/-- The gather stage's output block index at point `s`: the edge tile. -/
theorem index0_3 (s : Fin grid0.N) : win0_3.index s = ![s.val / 40, 0] := by
  have hs : s.val < 40000 := lt_of_lt_of_eq s.isLt N_0
  funext a
  match a with
  | ⟨0, _⟩ =>
    show (BitVec.ofNat 32 (grid0.coords s 0).val).toNat = s.val / 40
    rw [coords0_0, BitVec.toNat_ofNat]
    omega
  | ⟨1, _⟩ => rfl

/-- The scatter stage's output block index at point `s`: the node tile. -/
theorem index1_2 (s : Fin grid1.N) : win1_2.index s = ![s.val / 500, 0] := by
  have hs : s.val < 20000 := lt_of_lt_of_eq s.isLt N_1
  funext a
  match a with
  | ⟨0, _⟩ =>
    show (BitVec.ofNat 32 (grid1.coords s 0).val).toNat = s.val / 500
    rw [coords1_0, BitVec.toNat_ofNat]
    omega
  | ⟨1, _⟩ => rfl

/-- The gather stage's output block is written back at the points ≡ 39 (mod 40). -/
theorem flush0_3 : ∀ t : Fin cfg0.N, (cfg0.win 3).flush t = true ↔ t.val % 40 = 39 := by
  intro t
  have ht : t.val < 40000 := lt_of_lt_of_eq t.isLt N_0
  show win0_3.flush t = true ↔ _
  unfold Pipeline.Window.flush
  rw [show win0_3.isOut = true from rfl, Bool.true_and, Bool.or_eq_true, decide_eq_true_eq, decide_eq_true_eq]
  constructor
  · rintro (h | ⟨h, hne⟩)
    · have : t.val + 1 = 40000 := h.trans N_0
      omega
    · by_contra hc
      apply hne
      rw [index0_3, index0_3]
      have : (t.val + 1) / 40 = t.val / 40 := by omega
      show ![(t.val + 1) / 40, 0] = _
      rw [this]
  · intro h
    by_cases hl : t.val + 1 = grid0.N
    · exact Or.inl hl
    · refine Or.inr ⟨by have := N_0; omega, ?_⟩
      rw [index0_3, index0_3]
      intro he
      have := congrFun he 0
      have h2 : (t.val + 1) / 40 = t.val / 40 := this
      omega

/-- The scatter stage's output block is written back at the points ≡ 499 (mod 500). -/
theorem flush1_2 : ∀ t : Fin cfg1.N, (cfg1.win 2).flush t = true ↔ t.val % 500 = 499 := by
  intro t
  have ht : t.val < 20000 := lt_of_lt_of_eq t.isLt N_1
  show win1_2.flush t = true ↔ _
  unfold Pipeline.Window.flush
  rw [show win1_2.isOut = true from rfl, Bool.true_and, Bool.or_eq_true, decide_eq_true_eq, decide_eq_true_eq]
  constructor
  · rintro (h | ⟨h, hne⟩)
    · have : t.val + 1 = 20000 := h.trans N_1
      omega
    · by_contra hc
      apply hne
      rw [index1_2, index1_2]
      have : (t.val + 1) / 500 = t.val / 500 := by omega
      show ![(t.val + 1) / 500, 0] = _
      rw [this]
  · intro h
    by_cases hl : t.val + 1 = grid1.N
    · exact Or.inl hl
    · refine Or.inr ⟨by have := N_1; omega, ?_⟩
      rw [index1_2, index1_2]
      intro he
      have := congrFun he 0
      have h2 : (t.val + 1) / 500 = t.val / 500 := this
      omega

/-- The current staging memref of each window at point `t`. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)

/-- The gather kernel's body at point `t`, on what the pipeline calls it with. -/
abbrev bodyAt0 (t : Fin cfg0.N) : Prog (TpuEff nD τ sig (Elt F) Λ₀ .tc) PUnit :=
  cc0__gather_kernel (grid0.coords t) (win0_0.stage (cfg0.slots t 0)) (Facts₀.hstage0_0 ((cfg0.slots t 0).cast Facts₀.nbuf0_0)) (win0_1.stage (cfg0.slots t 1)) (Facts₀.hstage0_1 ((cfg0.slots t 1).cast Facts₀.nbuf0_1)) (win0_2.stage (cfg0.slots t 2)) (Facts₀.hstage0_2 ((cfg0.slots t 2).cast Facts₀.nbuf0_2)) (win0_3.stage (cfg0.slots t 3)) (Facts₀.hstage0_3 ((cfg0.slots t 3).cast Facts₀.nbuf0_3)) (Memref.whole cc0_scratch0) (Memref.isWhole_whole _)

/-- The scatter kernel's body at point `t`, on what the pipeline calls it with. -/
abbrev bodyAt1 (t : Fin cfg1.N) : Prog (TpuEff nD τ sig (Elt F) Λ₀ .tc) PUnit :=
  cc1__scatter_kernel (grid1.coords t) (win1_0.stage (cfg1.slots t 0)) (Facts₀.hstage1_0 ((cfg1.slots t 0).cast Facts₀.nbuf1_0)) (win1_1.stage (cfg1.slots t 1)) (Facts₀.hstage1_1 ((cfg1.slots t 1).cast Facts₀.nbuf1_1)) (win1_2.stage (cfg1.slots t 2)) (Facts₀.hstage1_2 ((cfg1.slots t 2).cast Facts₀.nbuf1_2))

end Cert.KernelIdeal.Hand

end
-- ==== Proof.KI.Region0.lean ====
import proofs.«421706_j16071767622283_1_alg».proof.Proof.Gen.KernelIdeal.Launch
import proofs.«421706_j16071767622283_1_alg».proof.Proof.Gen.KernelIdeal.Skeleton
import proofs.«421706_j16071767622283_1_alg».proof.Proof.KI.Sched
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! ## The body's two conditions, and one grid point's run on any whole buffers -/

/-- The whole-buffer rectangle starts at the origin. -/
theorem origin0 : (![0, 0] : Fin 2 → ℕ) = fun _ => 0 := funext fun a => by fin_cases a <;> rfl

/-- The reset condition of the body (node tile j = 0), as the body computes it from the coordinates. -/
abbrev cond0_0 (i : grid0.Coords) : Prop :=
  (Scalar.cmpi .ne (Scalar.extui (Scalar.cmpi .eq (BitVec.ofNat 32 (i 1).val) 0#32)) 0#32) = 1#1

/-- The write-out condition of the body (node tile j = 39). -/
abbrev cond0_1 (i : grid0.Coords) : Prop := k0_cond2 i = 1#1

/-- The reset condition reads only the node tile, and holds at tile 0 alone. -/
theorem reset_iff0 : ∀ j : Fin 40,
    (Scalar.cmpi .ne (Scalar.extui (Scalar.cmpi .eq (BitVec.ofNat 32 j.val) 0#32)) 0#32 = 1#1) ↔ j.val = 0 := by decide +kernel

/-- The write-out condition reads only the node tile, and holds at tile 39 alone. -/
theorem writeout_iff0 : ∀ j : Fin 40,
    (Scalar.cmpi .ne (Scalar.extui (Scalar.cmpi .eq (BitVec.ofNat 32 j.val) 39#32)) 0#32 = 1#1) ↔ j.val = 39 := by decide +kernel

/-- The reset condition holds at the first node tile of each edge tile: the points ≡ 0 (mod 40). -/
theorem hcond0_0 (t : Fin cfg0.N) : cond0_0 (grid0.coords t) ↔ t.val % 40 = 0 :=
  (reset_iff0 ((grid0.coords t) 1)).trans (by rw [coords0_1])

/-- The write-out condition holds at the last node tile of each edge tile: the points ≡ 39 (mod 40). -/
theorem hcond0_1 (t : Fin cfg0.N) : cond0_1 (grid0.coords t) ↔ t.val % 40 = 39 :=
  (writeout_iff0 ((grid0.coords t) 1)).trans (by rw [coords0_1])

/-- A store through the whole 1600 × 64 rectangle, made last, covers every index. -/
theorem cover0 {e : EltTy} (w : S1600x64.Idx → Elt F e) (L : List (View.Piece (Elt F) S1600x64 e)) (y : S1600x64.Idx) :
    ∃ pc ∈ ((⟨Rect.unit (s := S1600x64) ![0, 0] S1600x64.size Gen.inb_S1600x64_S1600x64_0_0, w⟩ : View.Piece (Elt F) S1600x64 e) :: L),
      y ∈ pc.1.set :=
  ⟨_, List.Mem.head _, View.mem_set_unit_zero origin0 Gen.inb_S1600x64_S1600x64_0_0 y⟩

section Run

variable (c : Dev nD) (i : grid0.Coords)
  (arg2 : Memref sig .tc .vmem S1600x1 .i32) (harg2 : arg2.IsWhole)
  (arg3 : Memref sig .tc .vmem S1600x1 .f32) (harg3 : arg3.IsWhole)
  (arg4 : Memref sig .tc .vmem S2560x64 .bf16) (harg4 : arg4.IsWhole)
  (arg5 : Memref sig .tc .vmem S1600x64 .bf16) (harg5 : arg5.IsWhole)
  (arg6 : Memref sig .tc .vmem S1600x64 .f32) (harg6 : arg6.IsWhole)
  (x0 : Vec F S1600x1 .i32) (x1 : Vec F S1600x1 .f32) (x2 : Vec F S2560x64 .bf16)

set_option maxHeartbeats 1000000 in
/-- A middle point (0 < j < 39): the accumulator, found at `xs`, gains the tile's one-hot product; nothing else changes. -/
theorem run0_mid (hc0 : ¬ cond0_0 i) (hc1 : ¬ cond0_1 i) (xi3 : Vec F S1600x64 .bf16) (xs : Vec F S1600x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 i x0 x2 xs)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (cover0 _ _), View.canon_unit_zero origin0]
  simp only [View.readAt_eq_ld, harg2.read_unread, harg4.read_unread, harg6.read_unread,
    View.ld_unit_zero (S := S1600x1) origin0, View.ld_unit_zero (S := S2560x64) origin0, View.ld_unit_zero (S := S1600x64) origin0]

set_option maxHeartbeats 1000000 in
/-- The first node tile (j = 0): the accumulator, found at anything, is zero-filled and then gains the tile's product. -/
theorem run0_first (hc0 : cond0_0 i) (hc1 : ¬ cond0_1 i) (xi3 : Vec F S1600x64 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 i x0 x2 (k0_pay1 (F := F)))) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (cover0 _ _),
    View.canon_cons_unit_zero (S := S1600x64) origin0]
  simp only [View.readCov_unit_zero (S := S1600x64) _ origin0, View.readAt_eq_ld, harg2.read_unread, harg4.read_unread,
    View.ld_unit_zero (S := S1600x1) origin0, View.ld_unit_zero (S := S2560x64) origin0]

set_option maxHeartbeats 1000000 in
/-- The last node tile (j = 39): the accumulator gains the tile's product, and its scaling by the edge values is
    stored over whatever the output's buffer held. -/
theorem run0_last (hc0 : ¬ cond0_0 i) (hc1 : cond0_1 i) (xs : Vec F S1600x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x1 (k0_pay2 i x0 x2 xs)) ∗ owns (c : Thread nD τ) arg6 fullShare (k0_pay2 i x0 x2 xs)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (cover0 _ _), View.canon_unit_zero origin0]
    simp only [View.readCov_unit_zero (S := S1600x64) _ origin0, View.readAt_eq_ld, harg2.read_unread, harg3.read_unread,
      harg4.read_unread, harg6.read_unread,
      View.ld_unit_zero (S := S1600x1) origin0, View.ld_unit_zero (S := S2560x64) origin0, View.ld_unit_zero (S := S1600x64) origin0]
  iexists _; isplitr
  swap; · iexact HS
  ipureintro
  sl_unfold_words
  rw [View.read_writes_eq_canon _ _ _ (cover0 _ _), View.canon_unit_zero origin0]
  simp only [View.readAt_eq_ld, harg2.read_unread, harg4.read_unread, harg6.read_unread,
    View.ld_unit_zero (S := S1600x1) origin0, View.ld_unit_zero (S := S2560x64) origin0, View.ld_unit_zero (S := S1600x64) origin0]

end Run

/-! # The gather stage (the first pallas_call) at the contents `V` its region is entered with

One grid point (i, j) handles edge tile i against node tile j: the scratch accumulator is reset at j = 0,
gains the tile's one-hot product at every j, and at j = 39 is scaled by the edge values and stored to the output block. -/

variable (V : (c : Dev nD) → (b : Ref sig .tc) → Buf (Elt F) ((c : Thread nD τ).loc b))

/-- Window `w`'s block of its array at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator after the body at position `n`: the point's one-hot product added to what the point before left,
    or to the zero fill when the point is the first of its edge tile (n ≡ 0 mod 40). -/
def acc0 (c : Dev nD) : (n : ℕ) → n < cfg0.N → Vec F S1600x64 .f32
  | 0, hn => k0_pay2 (grid0.coords ⟨0, hn⟩) (iblk0 V c 0 ⟨0, hn⟩) (iblk0 V c 2 ⟨0, hn⟩) (k0_pay1 (F := F))
  | n + 1, hn =>
    if (n + 1) % 40 = 0 then k0_pay2 (grid0.coords ⟨n + 1, hn⟩) (iblk0 V c 0 ⟨n + 1, hn⟩) (iblk0 V c 2 ⟨n + 1, hn⟩) (k0_pay1 (F := F))
    else k0_pay2 (grid0.coords ⟨n + 1, hn⟩) (iblk0 V c 0 ⟨n + 1, hn⟩) (iblk0 V c 2 ⟨n + 1, hn⟩) (acc0 c n (Nat.lt_of_succ_lt hn))

theorem acc0_first (c : Dev nD) (t : Fin cfg0.N) (h : t.val % 40 = 0) :
    acc0 V c t.val t.isLt = k0_pay2 (grid0.coords t) (iblk0 V c 0 t) (iblk0 V c 2 t) (k0_pay1 (F := F)) := by
  obtain ⟨n, hn⟩ := t
  cases n with
  | zero => rfl
  | succ n => exact if_pos h

theorem acc0_next (c : Dev nD) (t : Fin cfg0.N) (h : ¬ t.val % 40 = 0) :
    acc0 V c t.val t.isLt = k0_pay2 (grid0.coords t) (iblk0 V c 0 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: the scoped rest and the generator register, the scratch accumulator at
    what the point before left (at anything before the first point). -/
def Phi0 (c : Dev nD) : (n : ℕ) → n ≤ cfg0.N → sProp 𝕄
  | 0, _ => Pipeline.ΦA spec0 c
  | n + 1, hn => iprop(iprop(owns (c : Thread nD τ) (Memref.whole cc0_scratch0 : Memref sig .tc .vmem S1600x64 .f32) fullShare (acc0 V c n hn)
      ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))
      ∗ (∃ r, prngReg c r))

/-- The proof data of the gather stage on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 1 t) (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = k0_pay3 (iblk0 V c 1 t) (acc0 V c t.val t.isLt) := by dsimp only [dat0]

/-- The second stage's staging buffers, each whole at some contents: this stage does not touch them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The scratch accumulator as the body is handed it: the whole scoped buffer. -/
abbrev scM0 : Memref sig .tc .vmem S1600x64 .f32 := Memref.whole cc0_scratch0

theorem Phi0_zero (c : Dev nD) (n : ℕ) (h : n ≤ cfg0.N) (hz : n = 0) : Phi0 V c n h = Pipeline.ΦA spec0 c := by
  subst hz; rfl

/-- After point `n`: the accumulator at that point's contents. -/
theorem Phi0_succ (c : Dev nD) (n : ℕ) (hn : n < cfg0.N) :
    Phi0 V c (n + 1) hn = iprop(iprop(owns (c : Thread nD τ) scM0 fullShare (acc0 V c n hn) ∗ rest0 c) ∗ (∃ r, prngReg c r)) := rfl

/-- Before a point that is not the first: the accumulator at what the point before left. -/
theorem Phi0_pos (c : Dev nD) (n : ℕ) (h : n ≤ cfg0.N) (hz : n ≠ 0) :
    Phi0 V c n h = iprop(iprop(owns (c : Thread nD τ) scM0 fullShare (acc0 V c (n - 1) (by omega)) ∗ rest0 c) ∗ (∃ r, prngReg c r)) := by
  cases n with
  | zero => exact absurd rfl hz
  | succ n => rfl

/-- What the launch hands the region, with the scratch accumulator as a buffer owned at some contents. -/
theorem PhiA_eq0 (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-- The body leaves each input block where it found it. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-- Each input's current staging buffer holds its block at every point, fetched there or not: an unfetched input's
    block index did not move, and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## Where the output window is idle -/

/-- The inputs are never idle. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl

/-- The output window is idle exactly where the write-out condition fails. -/
theorem idleAt0_3 (t : Fin cfg0.N) (h : ¬ cond0_1 (grid0.coords t)) : cfg0.idle 3 (grid0.coords t) = true := by
  show (!(k0_cond2 (grid0.coords t) == 1#1)) = true
  rw [Bool.not_eq_true', beq_eq_false_iff_ne]; exact h
theorem liveAt0_3 (t : Fin cfg0.N) (h : cond0_1 (grid0.coords t)) : cfg0.idle 3 (grid0.coords t) = false := by
  show (!(k0_cond2 (grid0.coords t) == 1#1)) = false
  rw [show k0_cond2 (grid0.coords t) = 1#1 from h]; rfl

/-- Off the points ≡ 39 (mod 40) the output block is not written back. -/
theorem noFlush0_3 (t : Fin cfg0.N) (h : ¬ t.val % 40 = 39) : (cfg0.win 3).flush t = false :=
  Bool.eq_false_iff.mpr fun hf => h ((flush0_3 t).mp hf)

/-- Each window's current staging buffer at point `t`, as the pipeline passes it to the body. -/
abbrev ms0_0 (t : Fin cfg0.N) : Memref sig .tc .vmem S1600x1 .i32 := win0_0.stage (cfg0.slots t 0)
abbrev ms0_1 (t : Fin cfg0.N) : Memref sig .tc .vmem S1600x1 .f32 := win0_1.stage (cfg0.slots t 1)
abbrev ms0_2 (t : Fin cfg0.N) : Memref sig .tc .vmem S2560x64 .bf16 := win0_2.stage (cfg0.slots t 2)
abbrev ms0_3 (t : Fin cfg0.N) : Memref sig .tc .vmem S1600x64 .bf16 := win0_3.stage (cfg0.slots t 3)

/-- What the body leaves in each input's buffer: its block. -/
theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) :
    (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the position modulo 40 says which of the three kinds
    of point this is. At the first node tile the accumulator is handed over at anything and comes back at the point's
    product over the zero fill; elsewhere it is handed over at what the point before left and comes back with the point's
    product added. Only at the last node tile is the output block stored, the accumulator scaled by the edge values;
    at every other point the output's buffer is handed back as it was found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2]
  have hN : t.val < 40000 := lt_of_lt_of_eq t.isLt (show cfg0.N = 40000 from N_0)
  by_cases h0 : t.val % 40 = 0
  · -- the first node tile of an edge tile
    have h39 : ¬ t.val % 40 = 39 := by omega
    have hc0 : cond0_0 (grid0.coords t) := (hcond0_0 t).mpr h0
    have hc1 : ¬ cond0_1 (grid0.coords t) := fun h => h39 ((hcond0_1 t).mp h)
    rw [Dat.leavesExact_idle (dat0 V c) 3 t (idleAt0_3 t hc1) (noFlush0_3 t h39)]
    rw [acc0_first V c t h0]
    by_cases hz : t.val = 0
    · rw [Phi0_castSucc V c t, Phi0_zero V c _ _ hz, PhiA_eq0]
      iintro ⟨⟨⟨HS, HR⟩, Hg⟩, Ho, ⟨%d0, H0⟩, ⟨%d1, H1⟩, ⟨%d2, H2⟩, ⟨%d3, H3⟩⟩
      iapply (run0_first c (grid0.coords t) _ _ _ _ _ _ _ _ _ _ (iblk0 V c 0 t) (iblk0 V c 1 t) (iblk0 V c 2 t) hc0 hc1 _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨⟨HS, HR⟩, Hg⟩, Ho, ⟨%d0, H0⟩, ⟨%d1, H1⟩, ⟨%d2, H2⟩, ⟨%d3, H3⟩⟩
      iapply (run0_first c (grid0.coords t) _ _ _ _ _ _ _ _ _ _ (iblk0 V c 0 t) (iblk0 V c 1 t) (iblk0 V c 2 t) hc0 hc1 _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬ cond0_0 (grid0.coords t) := fun h => h0 ((hcond0_0 t).mp h)
    rw [acc0_next V c t h0]
    rw [Phi0_castSucc V c t, Phi0_pos V c _ _ hz]
    by_cases h39 : t.val % 40 = 39
    · -- the last node tile: the output block is stored
      have hc1 : cond0_1 (grid0.coords t) := (hcond0_1 t).mpr h39
      rw [show (dat0 V c).leavesExact 3 t = owns (c : Thread nD τ) (ms0_3 t) fullShare ((dat0 V c).after 3 t) from by
        unfold Dat.leavesExact; rw [liveAt0_3 t hc1], after0_3, acc0_next V c t h0]
      iintro ⟨⟨⟨HS, HR⟩, Hg⟩, Ho, ⟨%d0, H0⟩, ⟨%d1, H1⟩, ⟨%d2, H2⟩, ⟨%d3, H3⟩⟩
      iapply (run0_last c (grid0.coords t) _ _ _ _ _ _ _ _ _ _ (iblk0 V c 0 t) (iblk0 V c 1 t) (iblk0 V c 2 t) hc0 hc1 _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle node tile
      have hc1 : ¬ cond0_1 (grid0.coords t) := fun h => h39 ((hcond0_1 t).mp h)
      rw [Dat.leavesExact_idle (dat0 V c) 3 t (idleAt0_3 t hc1) (noFlush0_3 t h39)]
      iintro ⟨⟨⟨HS, HR⟩, Hg⟩, Ho, ⟨%d0, H0⟩, ⟨%d1, H1⟩, ⟨%d2, H2⟩, ⟨%d3, H3⟩⟩
      iapply (run0_mid c (grid0.coords t) _ _ _ _ _ _ _ _ _ _ (iblk0 V c 0 t) (iblk0 V c 1 t) (iblk0 V c 2 t) hc0 hc1 _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body obligation of the gather stage at every grid point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the scoped rest and the generator register back. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 40000 := N_0; omega), PhiA_eq0]
  iintro ⟨⟨HS, HR⟩, Hg⟩
  isplitl [HS HR]
  · isplitl [HS]
    · iexists _; iexact HS
    iexact HR
  iexact Hg

end Cert.KernelIdeal.Hand

end
-- ==== Proof.KI.Region1.lean ====
import proofs.«421706_j16071767622283_1_alg».proof.Proof.Gen.KernelIdeal.Launch
import proofs.«421706_j16071767622283_1_alg».proof.Proof.Gen.KernelIdeal.Skeleton
import proofs.«421706_j16071767622283_1_alg».proof.Proof.KI.Sched
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # The scatter stage (the second pallas_call) at the contents `V` its region is entered with

One grid point (i, k) handles node tile i against edge tile k: the output block is zeroed at k = 0, gains the tile's
one-hot product at every k, and at k = 499 is clipped below at zero; the block is written back after k = 499. -/

variable (V : (c : Dev nD) → (b : Ref sig .tc) → Buf (Elt F) ((c : Thread nD τ).loc b))

/-- Window `w`'s block of its array at grid point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block's staging buffer after the body at position `n`. -/
def out1 (c : Dev nD) : (n : ℕ) → n < cfg1.N → Vec F S2560x64 .f32
  | 0, hn => k1_pay2 (grid1.coords ⟨0, hn⟩) (iblk1 V c 0 ⟨0, hn⟩) (iblk1 V c 1 ⟨0, hn⟩) (k1_pay1 (F := F))
  | n + 1, hn =>
    if (n + 1) % 500 = 0 then k1_pay2 (grid1.coords ⟨n + 1, hn⟩) (iblk1 V c 0 ⟨n + 1, hn⟩) (iblk1 V c 1 ⟨n + 1, hn⟩) (k1_pay1 (F := F))
    else if (n + 1) % 500 = 499 then
      k1_pay3 (k1_pay2 (grid1.coords ⟨n + 1, hn⟩) (iblk1 V c 0 ⟨n + 1, hn⟩) (iblk1 V c 1 ⟨n + 1, hn⟩) (out1 c n (Nat.lt_of_succ_lt hn)))
    else k1_pay2 (grid1.coords ⟨n + 1, hn⟩) (iblk1 V c 0 ⟨n + 1, hn⟩) (iblk1 V c 1 ⟨n + 1, hn⟩) (out1 c n (Nat.lt_of_succ_lt hn))

theorem out1_first (c : Dev nD) (t : Fin cfg1.N) (h : t.val % 500 = 0) :
    out1 V c t.val t.isLt = k1_pay2 (grid1.coords t) (iblk1 V c 0 t) (iblk1 V c 1 t) (k1_pay1 (F := F)) := by
  obtain ⟨n, hn⟩ := t
  cases n with
  | zero => rfl
  | succ n => exact (if_pos h).trans rfl

theorem out1_mid (c : Dev nD) (t : Fin cfg1.N) (h0 : ¬ t.val % 500 = 0) (h1 : ¬ t.val % 500 = 499) :
    out1 V c t.val t.isLt = k1_pay2 (grid1.coords t) (iblk1 V c 0 t) (iblk1 V c 1 t)
      (out1 V c (t.val - 1) (Nat.lt_of_le_of_lt (Nat.sub_le _ _) t.isLt)) := by
  obtain ⟨n, hn⟩ := t
  cases n with
  | zero => exact absurd (Nat.zero_mod _) h0
  | succ n => exact (if_neg h0).trans ((if_neg h1).trans rfl)

theorem out1_last (c : Dev nD) (t : Fin cfg1.N) (h1 : t.val % 500 = 499) :
    out1 V c t.val t.isLt = k1_pay3 (k1_pay2 (grid1.coords t) (iblk1 V c 0 t) (iblk1 V c 1 t)
      (out1 V c (t.val - 1) (Nat.lt_of_le_of_lt (Nat.sub_le _ _) t.isLt))) := by
  obtain ⟨n, hn⟩ := t
  cases n with
  | zero => exact absurd ((Nat.zero_mod 500).symm.trans h1) (by decide)
  | succ n =>
    have h0 : ¬ (n + 1) % 500 = 0 := fun h => by dsimp only at h1; omega
    exact (if_neg h0).trans ((if_pos h1).trans rfl)

/-- The proof data of the scatter stage on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1 V c t.val t.isLt := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]

/-- The rows block's staging buffer holds the block of its array at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The messages block's staging buffer likewise. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Past the first edge tile of a node tile the output block's staging buffer holds what the point before left:
    the block is written back only after the last edge tile. -/
theorem before1_2_kept (c : Dev nD) (t : Fin cfg1.N) (h0 : ¬ t.val % 500 = 0) (d) :
    (dat1 V c).before 2 t d = out1 V c (t.val - 1) (Nat.lt_of_le_of_lt (Nat.sub_le _ _) t.isLt) := by
  rw [Dat.before_out_kept _ 2 rfl t (by omega)
    (Bool.eq_false_iff.mpr fun h => by have := (flush1_2 _).mp h; dsimp only at this; omega)
    (fun _ => rfl) (fun _ _ => rfl)]
  dsimp only [dat1]

/-- The first branch condition of the body at grid coordinates `i` (as the body computes it from the coordinate's 32-bit word): the edge-tile
    coordinate is 0. -/
abbrev cond1_0 (i : grid1.Coords) : Prop :=
  (Scalar.cmpi .ne (Scalar.extui (Scalar.cmpi .eq (BitVec.ofNat 32 (i 1).val) 0#32)) 0#32) = 1#1
/-- The second: the edge-tile coordinate is 499. -/
abbrev cond1_1 (i : grid1.Coords) : Prop :=
  (Scalar.cmpi .ne (Scalar.extui (Scalar.cmpi .eq (BitVec.ofNat 32 (i 1).val) 499#32)) 0#32) = 1#1

/-- The two conditions as functions of the edge-tile coordinate alone, over its 500 values. -/
private theorem condK_0 : ∀ k : ℕ, k < 500 →
    ((Scalar.cmpi .ne (Scalar.extui (Scalar.cmpi .eq (BitVec.ofNat 32 k) 0#32)) 0#32 = 1#1) ↔ k = 0) := by decide +kernel
private theorem condK_1 : ∀ k : ℕ, k < 500 →
    ((Scalar.cmpi .ne (Scalar.extui (Scalar.cmpi .eq (BitVec.ofNat 32 k) 499#32)) 0#32 = 1#1) ↔ k = 499) := by decide +kernel

theorem hcond1_0 (t : Fin cfg1.N) : cond1_0 (grid1.coords t) ↔ t.val % 500 = 0 :=
  (condK_0 _ (grid1.coords t 1).isLt).trans (by rw [coords1_1])
theorem hcond1_1 (t : Fin cfg1.N) : cond1_1 (grid1.coords t) ↔ t.val % 500 = 499 :=
  (condK_1 _ (grid1.coords t 1).isLt).trans (by rw [coords1_1])

private theorem hz2 : (![0, 0] : Fin 2 → Nat) = fun _ => 0 := funext fun a => by fin_cases a <;> rfl

set_option maxHeartbeats 1000000 in
/-- The body at a point with k = 0: whatever the output buffer held, it ends at the tile's one-hot product added to
    the zero fill. -/
theorem run1_A (c : Dev nD) (E : Set ℕ) (i : grid1.Coords)
    (arg2 : Memref sig .tc .vmem S1x3200 .i32) (harg2 : arg2.IsWhole) (arg3 : Memref sig .tc .vmem S3200x64 .bf16) (harg3 : arg3.IsWhole)
    (arg4 : Memref sig .tc .vmem S2560x64 .f32) (harg4 : arg4.IsWhole) (hc0 : cond1_0 i) (hc1 : ¬ cond1_1 i)
    (x0 : Vec F S1x3200 .i32) (x1 : Vec F S3200x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay2 i x0 x1 (k1_pay1 (F := F)))) -∗ K ⟨⟩))
      ⊢ wp frame (wpE (defs₀ (F := F)) Variants.none c none) E (cc1__scatter_kernel i arg2 harg2 arg3 harg3 arg4 harg4) K := by
  simp only [cc1__scatter_kernel_eq_skeleton]; unfold cc1__scatter_kernel_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_cons_self, View.mem_set_unit_zero hz2 Gen.inb_S2560x64_S2560x64_0_0 y⟩),
    View.canon_cons_unit_zero hz2]
  sl_unfold_words
  simp only [View.readAt_eq_ld, harg2.read_unread, harg3.read_unread, harg4.read_unread,
    View.readCov_unit_zero (S := S2560x64) _ hz2,
    View.ld_unit_zero (S := S1x3200) hz2, View.ld_unit_zero (S := S3200x64) hz2, View.ld_unit_zero (S := S2560x64) hz2]

set_option maxHeartbeats 1000000 in
/-- The body at a point with 0 < k < 499, on whole staging memrefs: the output buffer at `xo` ends at the tile's
    one-hot product added to `xo`. -/
theorem run1_B (c : Dev nD) (E : Set ℕ) (i : grid1.Coords)
    (arg2 : Memref sig .tc .vmem S1x3200 .i32) (harg2 : arg2.IsWhole) (arg3 : Memref sig .tc .vmem S3200x64 .bf16) (harg3 : arg3.IsWhole)
    (arg4 : Memref sig .tc .vmem S2560x64 .f32) (harg4 : arg4.IsWhole) (hc0 : ¬ cond1_0 i) (hc1 : ¬ cond1_1 i)
    (x0 : Vec F S1x3200 .i32) (x1 : Vec F S3200x64 .bf16) (xo : Vec F S2560x64 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k1_pay2 i x0 x1 xo)) -∗ K ⟨⟩))
      ⊢ wp frame (wpE (defs₀ (F := F)) Variants.none c none) E (cc1__scatter_kernel i arg2 harg2 arg3 harg3 arg4 harg4) K := by
  simp only [cc1__scatter_kernel_eq_skeleton]; unfold cc1__scatter_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_singleton_self _, View.mem_set_unit_zero hz2 Gen.inb_S2560x64_S2560x64_0_0 y⟩),
    View.canon_unit_zero hz2]
  simp only [View.readAt_eq_ld, harg2.read_unread, harg3.read_unread, harg4.read_unread,
    View.ld_unit_zero (S := S1x3200) hz2, View.ld_unit_zero (S := S3200x64) hz2, View.ld_unit_zero (S := S2560x64) hz2]

set_option maxHeartbeats 1000000 in
/-- The body at a point with k = 499: the output buffer at `xo` ends at the tile's one-hot product added to `xo`,
    clipped below at zero. -/
theorem run1_C (c : Dev nD) (E : Set ℕ) (i : grid1.Coords)
    (arg2 : Memref sig .tc .vmem S1x3200 .i32) (harg2 : arg2.IsWhole) (arg3 : Memref sig .tc .vmem S3200x64 .bf16) (harg3 : arg3.IsWhole)
    (arg4 : Memref sig .tc .vmem S2560x64 .f32) (harg4 : arg4.IsWhole) (hc0 : ¬ cond1_0 i) (hc1 : cond1_1 i)
    (x0 : Vec F S1x3200 .i32) (x1 : Vec F S3200x64 .bf16) (xo : Vec F S2560x64 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k1_pay3 (k1_pay2 i x0 x1 xo))) -∗ K ⟨⟩))
      ⊢ wp frame (wpE (defs₀ (F := F)) Variants.none c none) E (cc1__scatter_kernel i arg2 harg2 arg3 harg3 arg4 harg4) K := by
  simp only [cc1__scatter_kernel_eq_skeleton]; unfold cc1__scatter_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_cons_self, View.mem_set_unit_zero hz2 Gen.inb_S2560x64_S2560x64_0_0 y⟩),
    View.canon_cons_unit_zero hz2]
  sl_unfold_words
  simp only [View.readAt_eq_ld, harg2.read_unread, harg3.read_unread, harg4.read_unread,
    View.readCov_unit_zero (S := S2560x64) _ hz2,
    View.ld_unit_zero (S := S1x3200) hz2, View.ld_unit_zero (S := S3200x64) hz2, View.ld_unit_zero (S := S2560x64) hz2]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point. The two input buffers hold their blocks. At k = 0 the output buffer holds anything and is
    overwritten by the zero fill before it is used; at k > 0 it holds what the point before left, the block not having been
    written back between; the three cases of k leave the three cases of the recursion. The invariant and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 500 = 0
  · have h1 : ¬ t.val % 500 = 499 := by omega
    rw [out1_first V c t h0]
    iintro ⟨HΦ, Ho, ⟨%d0, H0⟩, ⟨%d1, H1⟩, ⟨%d2, H2⟩⟩
    iapply (run1_A c Set.univ (grid1.coords t) _ _ _ _ _ _ ((hcond1_0 t).mpr h0) (fun h => h1 ((hcond1_1 t).mp h))
      (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before1_2_kept V c t h0]
    by_cases h1 : t.val % 500 = 499
    · rw [out1_last V c t h1]
      iintro ⟨HΦ, Ho, ⟨%d0, H0⟩, ⟨%d1, H1⟩, ⟨%d2, H2⟩⟩
      iapply (run1_C c Set.univ (grid1.coords t) _ _ _ _ _ _ (fun h => h0 ((hcond1_0 t).mp h)) ((hcond1_1 t).mpr h1)
        (iblk1 V c 0 t) (iblk1 V c 1 t) (out1 V c (t.val - 1) (Nat.lt_of_le_of_lt (Nat.sub_le _ _) t.isLt)) _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [out1_mid V c t h0 h1]
      iintro ⟨HΦ, Ho, ⟨%d0, H0⟩, ⟨%d1, H1⟩, ⟨%d2, H2⟩⟩
      iapply (run1_B c Set.univ (grid1.coords t) _ _ _ _ _ _ (fun h => h0 ((hcond1_0 t).mp h)) (fun h => h1 ((hcond1_1 t).mp h))
        (iblk1 V c 0 t) (iblk1 V c 1 t) (out1 V c (t.val - 1) (Nat.lt_of_le_of_lt (Nat.sub_le _ _) t.isLt)) _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The body obligation of the scatter stage at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
import proofs.«421706_j16071767622283_1_alg».proof.Proof.Gen.KernelIdeal.Launch
import proofs.«421706_j16071767622283_1_alg».proof.Proof.Gen.KernelIdeal.Skeleton
import proofs.«421706_j16071767622283_1_alg».proof.Proof.Gen.KernelIdeal.Regions
import proofs.«421706_j16071767622283_1_alg».proof.Proof.KI.Sched
import proofs.«421706_j16071767622283_1_alg».proof.Proof.KI.Region0
import proofs.«421706_j16071767622283_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # The whole run: @main's host stretches and its two regions, from the launch to the return

The buffer contents at each boundary of @main are a fold from the launch memory: a host stretch applies its operations, a
region leaves its arrays at what its write-backs leave (the proof data's `arrAt` at the grid's end) and every other buffer as
entered. -/

variable (m : (ℓ : Loc nD τ sig) → Buf (Elt F) ℓ) (ρ : Dev nD → PrngReg)

/-- Core `c`'s buffers at launch. -/
abbrev W0 : Dev nD → Valuation τ sig (Elt F) := fun c b => m (c, b)
/-- After the first host stretch (the constant). -/
abbrev W1 : Dev nD → Valuation τ sig (Elt F) := fun c => StableHlo.after hostOps0 (W0 m c)
/-- After the second host stretch (the zero padding). -/
abbrev W2 : Dev nD → Valuation τ sig (Elt F) := fun c => StableHlo.after hostOps0_1 (StableHlo.after hostOps0 (W0 m c))
/-- After the three host stretches before the first region (the constant; the zero padding; the narrowing and the reshapes). -/
abbrev W3 : Dev nD → Valuation τ sig (Elt F) := fun c => StableHlo.after hostOps0_2 (StableHlo.after hostOps0_1 (StableHlo.after hostOps0 (W0 m c)))
/-- The same read at the TensorCore's references: what the gather stage is entered with. -/
abbrev V3 : (c : Dev nD) → (b : Ref sig .tc) → Buf (Elt F) ((c : Thread nD τ).loc b) := fun c b => W3 m c b
/-- At the gather stage's exit. -/
def W4 (c : Dev nD) : Valuation τ sig (Elt F) :=
  Pipeline.withArrays spec0 c (W3 m c) fun w => (dat0 (V3 m) c).arrAt w cfg0.N
/-- The same read at the TensorCore's references: what the scatter stage is entered with. -/
abbrev V4 : (c : Dev nD) → (b : Ref sig .tc) → Buf (Elt F) ((c : Thread nD τ).loc b) := fun c b => W4 m c b
/-- At the scatter stage's exit. -/
def W5 (c : Dev nD) : Valuation τ sig (Elt F) :=
  Pipeline.withArrays spec1 c (W4 m c) fun w => (dat1 (V4 m) c).arrAt w cfg1.N
/-- The same read at the TensorCore's references. -/
abbrev V5 : (c : Dev nD) → (b : Ref sig .tc) → Buf (Elt F) ((c : Thread nD τ).loc b) := fun c b => W5 m c b
/-- After the last host stretch (the slice to the first 100000 rows). -/
abbrev W6 : Dev nD → Valuation τ sig (Elt F) := fun c => StableHlo.after hostOps2 (W5 m c)

/-! ## A region's exit contents: its arrays at what the write-backs leave, every other buffer as entered -/

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-! ## The proof data family and the thread state -/

/-- Each pipeline's proof data at the contents its region is entered with. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the core owing nothing. -/
abbrev R (c : Dev nD) : sProp 𝕄 := iprop((∃ r, prngReg c r) ∗ ∃ W, owes (c : Thread nD τ) (0 : CellTallies nD τ sig Unit) W)
/-- A host stretch as a segment over every unscoped buffer from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the fold's last contents, the generator register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The gather stage's region: entered from every unscoped buffer at `W3`, left at `W4`. Its arrays are split out of the
    unscoped buffers at entry and put back at the exit contents; the generator register and the scoped rest enter the
    region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V3 m) c)
    unfold Pipeline.ΦA
    iintro ⟨Hp, -, Hr⟩
    isplitl [Hr]; · iexact Hr
    iexact Hp
  hout c := by
    rw [Pipeline.ownSems0_none]
    refine BIBase.Entails.trans (hout0 (V3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter stage's region: entered from every unscoped buffer at `W4`, left at `W5`; its invariant is the scoped rest
    beside the generator register at every point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m),
    .host (hseg hostOps2 hostOps2_sub hostOps2_fresh (W5 m)) ]

set_option backward.isDefEq.respectTransparency.types false in
/-- THE RUN: from any memory with zero counters every weakly fair execution of @main terminates, nothing faulting, and every
    final memory holds each unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-! ## The fold read at the buffers the claims speak of -/

/-- A reference no host stretch writes and no region has among its arrays reaches the end as launched. -/
theorem W6_of_untouched (c : Dev nD) (r : Ref sig .tc) (h0 : r ∉ hostOps0_W) (h1 : r ∉ hostOps0_1_W) (h2 : r ∉ hostOps0_2_W)
    (h3 : ∀ w, Pipeline.arrRef spec0 w ≠ r) (h4 : ∀ w, Pipeline.arrRef spec1 w ≠ r) (h5 : r ∉ hostOps2_W) :
    W6 m c (Proc.devRef .tc r) = m ((c : Thread nD τ).loc r) :=
  calc W6 m c (Proc.devRef .tc r)
    _ = W5 m c (Proc.devRef .tc r) := StableHlo.after_of_writes_sub hostOps2 _ hostOps2_writes h5
    _ = W4 m c (Proc.devRef .tc r) := W5_of_ne m c r h4
    _ = W3 m c (Proc.devRef .tc r) := W4_of_ne m c r h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

theorem W6_main_arg0 (c : Dev nD) : W6 m c (Proc.devRef .tc main_arg0) = m ((c : Thread nD τ).loc main_arg0) :=
  W6_of_untouched m c main_arg0 (by decide) (by decide) (by decide) (by decide) (by decide) (by decide)
theorem W6_main_arg1 (c : Dev nD) : W6 m c (Proc.devRef .tc main_arg1) = m ((c : Thread nD τ).loc main_arg1) :=
  W6_of_untouched m c main_arg1 (by decide) (by decide) (by decide) (by decide) (by decide) (by decide)
theorem W6_main_arg2 (c : Dev nD) : W6 m c (Proc.devRef .tc main_arg2) = m ((c : Thread nD τ).loc main_arg2) :=
  W6_of_untouched m c main_arg2 (by decide) (by decide) (by decide) (by decide) (by decide) (by decide)
theorem W6_main_arg3 (c : Dev nD) : W6 m c (Proc.devRef .tc main_arg3) = m ((c : Thread nD τ).loc main_arg3) :=
  W6_of_untouched m c main_arg3 (by decide) (by decide) (by decide) (by decide) (by decide) (by decide)
theorem W6_main_arg4 (c : Dev nD) : W6 m c (Proc.devRef .tc main_arg4) = m ((c : Thread nD τ).loc main_arg4) :=
  W6_of_untouched m c main_arg4 (by decide) (by decide) (by decide) (by decide) (by decide) (by decide)

/-- The result: the first 100000 rows of what the scatter stage leaves in its output array. -/
theorem W6_main_v7 (c : Dev nD) : (W6 m c (Proc.devRef .tc main_v7) : S100000x64.Idx → Elt F .f32)
    = extractStridedSlice S100000x64 ![0, 0] ((dat1 (V4 m) c).arrAt 2 cfg1.N : S102400x64.Idx → Elt F .f32) Facts₀.slices_S102400x64_S100000x64_0_0 := by
  have h : W6 m c (Proc.devRef .tc main_v7)
      = extractStridedSlice S100000x64 ![0, 0] (W5 m c (Proc.devRef .tc main_v6) : S102400x64.Idx → Elt F .f32) Facts₀.slices_S102400x64_S100000x64_0_0 := by
    show StableHlo.after hostOps2 (W5 m c) (Proc.devRef .tc main_v7) = _
    after_results
  exact h.trans (congrArg (fun x : S102400x64.Idx → Elt F .f32 => extractStridedSlice S100000x64 ![0, 0] x Facts₀.slices_S102400x64_S100000x64_0_0) (W5_arr m c 2))

/-- What the gather stage is entered with: the node features padded with 2400 zero rows (and narrowed), and the column
    words, the edge values as columns. -/
theorem V3_main_v1 (c : Dev nD) : (V3 m c main_v1 : S102400x64.Idx → Elt F .bf16)
    = truncf .bf16 (pad S102400x64 ![0, 0] ![2400, 0] ![0, 0] (m ((c : Thread nD τ).loc main_arg1) : S100000x64.Idx → Elt F .f32)
        (sitofp .f32 (constantI S_ 32 0#32 : IVec S_ 32)) Facts₀.pads_S100000x64_S102400x64_024000_000 Facts₀.h_S_) Facts₀.bitsLt_bf16_f32 := by
  show StableHlo.after hostOps0_2 (StableHlo.after hostOps0_1 (StableHlo.after hostOps0 (W0 m c))) (Proc.devRef .tc main_v1) = _
  after_results
  rfl
theorem V3_main_v2 (c : Dev nD) : (V3 m c main_v2 : S1600000x1.Idx → Elt F .i32)
    = shapeCast S1600000x1 (m ((c : Thread nD τ).loc main_arg3) : S1600000.Idx → Elt F .i32) Facts₀.shapeCasts_S1600000_S1600000x1 := by
  show StableHlo.after hostOps0_2 (StableHlo.after hostOps0_1 (StableHlo.after hostOps0 (W0 m c))) (Proc.devRef .tc main_v2) = _
  after_results
  rfl
theorem V3_main_v3 (c : Dev nD) : (V3 m c main_v3 : S1600000x1.Idx → Elt F .f32)
    = shapeCast S1600000x1 (m ((c : Thread nD τ).loc main_arg4) : S1600000.Idx → Elt F .f32) Facts₀.shapeCasts_S1600000_S1600000x1 := by
  show StableHlo.after hostOps0_2 (StableHlo.after hostOps0_1 (StableHlo.after hostOps0 (W0 m c))) (Proc.devRef .tc main_v3) = _
  after_results
  rfl
/-- What the scatter stage is entered with: the row words as one row, and the gather stage's output array. -/
theorem V4_main_v4 (c : Dev nD) : (V4 m c main_v4 : S1x1600000.Idx → Elt F .i32)
    = shapeCast S1x1600000 (m ((c : Thread nD τ).loc main_arg2) : S1600000.Idx → Elt F .i32) Facts₀.shapeCasts_S1600000_S1x1600000 := by
  refine (W4_of_ne m c main_v4 (by decide)).trans ?_
  show StableHlo.after hostOps0_2 (StableHlo.after hostOps0_1 (StableHlo.after hostOps0 (W0 m c))) (Proc.devRef .tc main_v4) = _
  after_results
  rfl
theorem V4_main_v5 (c : Dev nD) : (V4 m c main_v5 : S1600000x64.Idx → Elt F .bf16)
    = ((dat0 (V3 m) c).arrAt 3 cfg0.N : S1600000x64.Idx → Elt F .bf16) :=
  W4_arr m c 3

end Cert.KernelIdeal.Hand

end
-- ==== Proof.KI.Value0Pay.lean ====
import proofs.«421706_j16071767622283_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx
open Facts₀ Facts
open scoped BigOperators

/-! # The gather stage's three block computations, entry by entry, over the extended reals

One grid point multiplies a 1600 × 2560 one-hot block (row `r`, lane `k`: "the column word of edge `r` is node
`2560 j + k`") by the 2560 × 64 block of padded features and adds the product to the accumulator; the accumulator starts
from zero; the output block is the accumulator with each row scaled by its edge's value. With exact arithmetic each is a
formula in the entries, and a tile's product extends a sum over the node rows below `2560 j` to the rows below
`2560 (j + 1)`. -/

/-- The product of a 1600 × 2560 block by a 2560 × 64 block into the zero accumulator, entry by entry. -/
theorem dot_apply (A : FVec Ideal S1600x2560 .bf16) (B : FVec Ideal S2560x64 .bf16) (r : Fin 1600) (q : Fin 64) :
    matmul dot_S1600x2560_S2560x64_S1600x64_1_0_0_1_n_n none A B (constant (F := Ideal) S1600x64 .f32 0x00000000#32) (ix2 r q)
      = ∑ k : Fin 2560, A (ix2 r k) * B (ix2 k q) := by
  show FloatOps.matmul _ none A B _ (ix2 r q) = _
  rw [Ideal.matmul_constant_zero_apply,
    ← Equiv.sum_comp (contrEquiv1 dot_S1600x2560_S2560x64_S1600x64_1_0_0_1_n_n 2560 rfl rfl).symm]
  refine Finset.sum_congr rfl fun c _ => ?_
  have c2 := contrEquiv1_symm_val dot_S1600x2560_S2560x64_S1600x64_1_0_0_1_n_n 2560 rfl rfl c
  have l2 : dot_S1600x2560_S2560x64_S1600x64_1_0_0_1_n_n.lhsIdx (ix2 r q)
      ((contrEquiv1 dot_S1600x2560_S2560x64_S1600x64_1_0_0_1_n_n 2560 rfl rfl).symm c) = ix2 r c := by
    funext ax; apply Fin.ext
    match ax with
    | ⟨0, _⟩ => simp [DotDims.lhsIdx, dot_S1600x2560_S2560x64_S1600x64_1_0_0_1_n_n]; rfl
    | ⟨1, _⟩ => simp [DotDims.lhsIdx, dot_S1600x2560_S2560x64_S1600x64_1_0_0_1_n_n]; exact c2
  have r2 : dot_S1600x2560_S2560x64_S1600x64_1_0_0_1_n_n.rhsIdx (ix2 r q)
      ((contrEquiv1 dot_S1600x2560_S2560x64_S1600x64_1_0_0_1_n_n 2560 rfl rfl).symm c) = ix2 c q := by
    funext ax; apply Fin.ext
    match ax with
    | ⟨0, _⟩ => simp [DotDims.rhsIdx, dot_S1600x2560_S2560x64_S1600x64_1_0_0_1_n_n]; exact c2
    | ⟨1, _⟩ => simp [DotDims.rhsIdx, dot_S1600x2560_S2560x64_S1600x64_1_0_0_1_n_n]; rfl
  rw [l2, r2]

/-- Word arithmetic of the node number: tile index times 2560 plus the lane, no wrap needed in the statement. -/
theorem node_word (j k : Nat) :
    IntOp.addi (Scalar.muli (BitVec.ofNat 32 j) 2560#32) (BitVec.ofNat 32 k) = BitVec.ofNat 32 (2560 * j + k) := by
  show BitVec.ofNat 32 j * BitVec.ofNat 32 2560 + BitVec.ofNat 32 k = _
  rw [← BitVec.ofNat_mul, ← BitVec.ofNat_add, Nat.mul_comm]

/-- A comparison bit, widened and read as a signed integer then as an extended real, is 1 or 0. -/
theorem onehot_word (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · subst h
    rw [if_pos rfl]
    have : (IntOp.cmpi .eq x x).setWidth 32 = 1#32 := by simp [IntOp.cmpi]
    rw [this]; norm_num
  · rw [if_neg h]
    have hb : (x == y) = false := by simpa using h
    have : (IntOp.cmpi .eq x y).setWidth 32 = 0#32 := by
      show BitVec.setWidth 32 (BitVec.ofBool (x == y)) = 0#32
      rw [hb]; rfl
    rw [this]; norm_num

/-- The one-hot block entry: row `r`'s column word against node number 2560 j + k. -/
theorem onehot_apply (i : grid0.Coords) (cols : IVec S1600x1 32) (r : Fin 1600) (k : Fin 2560)
    (h1 : S1600x1.ShapeCasts S1600x1) (hb1 : S1600x1.Broadcasts S1600x2560) (hb2 : S1x2560.Broadcasts S1600x2560)
    (hi : S1x2560.Iotas .tc 32 [1]) (hlt : 1 < 32) (hbits : FTy.bits .bf16 < FTy.bits .f32) :
    (truncf (F := Ideal) .bf16 (sitofp (F := Ideal) .f32 (extui 32 (cmpi .eq
        (broadcastTo S1600x2560 (shapeCast S1600x1 cols h1) hb1)
        (broadcastTo S1600x2560 (addi (broadcast S1x2560 (Scalar.muli (BitVec.ofNat 32 (i 1).val) 2560#32))
          (iota .tc S1x2560 32 [1] hi)) hb2)) hlt)) hbits
        : FVec Ideal S1600x2560 .bf16) (ix2 r k)
      = if cols (ix2 r (0 : Fin 1)) = BitVec.ofNat 32 (2560 * (i 1).val + k.val) then 1 else 0 := by
  have e1 : broadcastTo S1600x2560 (shapeCast S1600x1 cols h1) hb1 (ix2 r k)
      = cols (ix2 r (0 : Fin 1)) := by
    rw [shapeCast_self]
    exact broadcastTo_apply cols hb1 (ix2 r k) (ix2 r (0 : Fin 1)) (fun a => by
      match a with
      | ⟨0, _⟩ => rfl
      | ⟨1, _⟩ => rfl)
  have e2 : broadcastTo S1600x2560 (addi (broadcast S1x2560 (Scalar.muli (BitVec.ofNat 32 (i 1).val) 2560#32))
          (iota .tc S1x2560 32 [1] hi)) hb2 (ix2 r k)
      = BitVec.ofNat 32 (2560 * (i 1).val + k.val) := by
    refine (broadcastTo_apply _ hb2 (ix2 r k) (ix2 (0 : Fin 1) k) (fun a => by
      match a with
      | ⟨0, _⟩ => rfl
      | ⟨1, _⟩ => rfl)).trans ?_
    show IntOp.addi (Scalar.muli (BitVec.ofNat 32 (i 1).val) 2560#32) (iota .tc S1x2560 32 [1] hi (ix2 (0 : Fin 1) k)) = _
    rw [iota_single_apply]
    exact node_word _ _
  show FloatOps.sitofp (F := Ideal) .f32 ((IntOp.cmpi .eq _ _).setWidth 32) = _
  rw [e1, e2]
  exact onehot_word _ _

/-- THE ACCUMULATING STEP AT AN ENTRY: what was there plus the tile's one-hot product. -/
theorem pay2_apply (i : grid0.Coords) (cols : IVec S1600x1 32) (xblk : FVec Ideal S2560x64 .bf16)
    (prev : FVec Ideal S1600x64 .f32) (r : Fin 1600) (q : Fin 64) :
    k0_pay2 (F := Ideal) i cols xblk prev (ix2 r q)
      = prev (ix2 r q) + ∑ k : Fin 2560,
          (if cols (ix2 r (0 : Fin 1)) = BitVec.ofNat 32 (2560 * (i 1).val + k.val) then (1 : EReal) else 0) * xblk (ix2 k q) := by
  unfold k0_pay2
  refine (congrFun (shapeCast_self _ _) (ix2 r q)).trans ?_
  refine congrArg (prev (ix2 r q) + ·) ?_
  refine (dot_apply _ _ r q).trans ?_
  refine Finset.sum_congr rfl fun k _ => ?_
  refine congrArg₂ (· * ·) (onehot_apply i cols r k _ _ _ _ _ _) ?_
  exact congrFun (shapeCast_self _ _) (ix2 k q)

/-- The reset block is zero everywhere. -/
theorem pay1_apply (j : S1600x64.Idx) : k0_pay1 (F := Ideal) j = 0 := by
  unfold k0_pay1
  refine (congrFun (shapeCast_self _ _) j).trans ?_
  exact Ideal.ofBits_zero_f32

/-- THE OUTPUT BLOCK AT AN ENTRY: the accumulated row times the edge's value. -/
theorem pay3_apply (vals : FVec Ideal S1600x1 .f32) (acc : FVec Ideal S1600x64 .f32) (r : Fin 1600) (q : Fin 64) :
    k0_pay3 (F := Ideal) vals acc (ix2 r q) = acc (ix2 r q) * vals (ix2 r (0 : Fin 1)) := by
  unfold k0_pay3
  show acc (ix2 r q) * broadcastTo S1600x64 (shapeCast S1600x1 vals _) _ (ix2 r q) = _
  refine congrArg (acc (ix2 r q) * ·) ?_
  rw [shapeCast_self]
  exact broadcastTo_apply vals _ (ix2 r q) (ix2 r (0 : Fin 1)) (fun a => by
      match a with
      | ⟨0, _⟩ => rfl
      | ⟨1, _⟩ => rfl)

/-! ## Sums over an initial segment of the node rows -/

/-- Extending the segment `[0, B)` by the next `m` rows adds those rows' terms. -/
theorem sum_lt_add {M : Type*} [AddCommMonoid M] {N : ℕ} (g : Fin N → M) (B : ℕ) :
    ∀ (m : ℕ) (h : B + m ≤ N), (∑ n : Fin N, if n.val < B then g n else 0) + ∑ k : Fin m, g ⟨B + k.val, by have := k.isLt; omega⟩
      = ∑ n : Fin N, if n.val < B + m then g n else 0
  | 0, h => by simp
  | m + 1, h => by
    have ih := sum_lt_add g B m (by omega)
    rw [Fin.sum_univ_castSucc, ← add_assoc]
    have e : (∑ k : Fin m, g ⟨B + (Fin.castSucc k).val, by have := k.isLt; simp; omega⟩)
        = ∑ k : Fin m, g ⟨B + k.val, by have := k.isLt; omega⟩ := Finset.sum_congr rfl fun _ _ => rfl
    rw [e, ih]
    have split : ∀ n : Fin N, (if n.val < B + (m + 1) then g n else 0)
        = (if n.val < B + m then g n else 0) + (if n = ⟨B + m, by omega⟩ then g n else 0) := by
      intro n
      by_cases h1 : n.val < B + m
      · have h2 : n ≠ ⟨B + m, by omega⟩ := fun e => by rw [e] at h1; simp at h1
        rw [if_pos h1, if_pos (by omega), if_neg h2, add_zero]
      · by_cases h2 : n = ⟨B + m, by omega⟩
        · rw [if_neg h1, if_pos h2, if_pos (by rw [h2]; simp), zero_add]
        · have h3 : ¬ n.val < B + (m + 1) := fun h3 => h2 (Fin.ext (by simp; omega))
          rw [if_neg h1, if_neg h2, if_neg h3, add_zero]
    rw [Finset.sum_congr rfl fun n _ => split n, Finset.sum_add_distrib, Finset.sum_ite_eq' Finset.univ _ g, if_pos (Finset.mem_univ _)]
    rfl

/-- ONE NODE TILE'S CONTRIBUTION: the rows below `2560 j` already summed, plus tile `j`'s one-hot product against the
    rows `2560 j … 2560 j + 2559`, is the sum over the rows below `2560 (j + 1)`. -/
theorem tile_step (f : Fin 102400 → EReal) (w : BitVec 32) (j : ℕ) (hj : j < 40) :
    (∑ m : Fin 102400, if m.val < 2560 * j ∧ w = BitVec.ofNat 32 m.val then f m else 0)
      + ∑ k : Fin 2560, (if w = BitVec.ofNat 32 (2560 * j + k.val) then (1 : EReal) else 0) * f ⟨2560 * j + k.val, by have := k.isLt; omega⟩
    = ∑ m : Fin 102400, if m.val < 2560 * (j + 1) ∧ w = BitVec.ofNat 32 m.val then f m else 0 := by
  have h := sum_lt_add (fun m : Fin 102400 => if w = BitVec.ofNat 32 m.val then f m else 0) (2560 * j) 2560 (by omega)
  have e1 : ∀ m : Fin 102400, (if m.val < 2560 * j ∧ w = BitVec.ofNat 32 m.val then f m else 0)
      = if m.val < 2560 * j then (if w = BitVec.ofNat 32 m.val then f m else 0) else 0 := fun m => ite_and _ _ _ _
  have e2 : ∀ m : Fin 102400, (if m.val < 2560 * (j + 1) ∧ w = BitVec.ofNat 32 m.val then f m else 0)
      = if m.val < 2560 * j + 2560 then (if w = BitVec.ofNat 32 m.val then f m else 0) else 0 := fun m => by
    rw [show 2560 * (j + 1) = 2560 * j + 2560 by ring]; exact ite_and _ _ _ _
  have e3 : ∀ k : Fin 2560, (if w = BitVec.ofNat 32 (2560 * j + k.val) then (1 : EReal) else 0) * f ⟨2560 * j + k.val, by have := k.isLt; omega⟩
      = if w = BitVec.ofNat 32 (2560 * j + k.val) then f ⟨2560 * j + k.val, by have := k.isLt; omega⟩ else 0 := fun k => by
    rw [ite_mul, one_mul, zero_mul]
  rw [Finset.sum_congr rfl fun m _ => e1 m, Finset.sum_congr rfl fun k _ => e3 k, Finset.sum_congr rfl fun m _ => e2 m]
  exact h

end Cert.KernelIdeal.Hand

end
-- ==== Proof.KI.Value0.lean ====
import proofs.«421706_j16071767622283_1_alg».proof.Proof.Gen.KernelIdeal.Launch
import proofs.«421706_j16071767622283_1_alg».proof.Proof.Gen.KernelIdeal.Skeleton
import proofs.«421706_j16071767622283_1_alg».proof.Proof.KI.Sched
import proofs.«421706_j16071767622283_1_alg».proof.Proof.KI.Region0
import proofs.«421706_j16071767622283_1_alg».proof.Proof.KI.Value0Pay
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # What the gather stage leaves in its output array, at the ideal instance

Edge `e`'s row of the output is the sum over the 102400 padded node rows `n` of "column word of `e` is `n`" times row `n` of the
padded features, times `e`'s value: the one-hot products of the 40 node tiles accumulated in the scratch, scaled at the last tile. -/

open Idealize.ShloMosaic.ValueIdx

variable (V : (c : Dev nD) → (b : Ref sig .tc) → Buf (Elt Ideal) ((c : Thread nD τ).loc b))

/-! ## The arrays and the blocks, at their literal types -/

/-- The column words, one per edge. -/
abbrev colsarr (c : Dev nD) : IVec S1600000x1 32 := V c main_v2
/-- The edge values. -/
abbrev valsarr (c : Dev nD) : FVec Ideal S1600000x1 .f32 := V c main_v3
/-- The padded node features. -/
abbrev xarr (c : Dev nD) : FVec Ideal S102400x64 .bf16 := V c main_v1
/-- Edge tile `t / 40`'s column words, as point `t` loads them. -/
abbrev colsblk (c : Dev nD) (t : Fin cfg0.N) : IVec S1600x1 32 := iblk0 (F := Ideal) V c 0 t
/-- Edge tile `t / 40`'s values. -/
abbrev valsblk (c : Dev nD) (t : Fin cfg0.N) : FVec Ideal S1600x1 .f32 := iblk0 (F := Ideal) V c 1 t
/-- Node tile `t % 40`'s feature rows. -/
abbrev xblk (c : Dev nD) (t : Fin cfg0.N) : FVec Ideal S2560x64 .bf16 := iblk0 (F := Ideal) V c 2 t

/-- The block indices of the three input windows at point `t`: the edge tile for the column words and the values, the
    node tile for the features. -/
theorem index0_0 (s : Fin grid0.N) : win0_0.index s = ![s.val / 40, 0] := by
  have hs : s.val < 40000 := lt_of_lt_of_eq s.isLt N_0
  funext a
  match a with
  | ⟨0, _⟩ =>
    show (BitVec.ofNat 32 (grid0.coords s 0).val).toNat = s.val / 40
    rw [coords0_0, BitVec.toNat_ofNat]
    omega
  | ⟨1, _⟩ => rfl
theorem index0_1 (s : Fin grid0.N) : win0_1.index s = ![s.val / 40, 0] := by
  have hs : s.val < 40000 := lt_of_lt_of_eq s.isLt N_0
  funext a
  match a with
  | ⟨0, _⟩ =>
    show (BitVec.ofNat 32 (grid0.coords s 0).val).toNat = s.val / 40
    rw [coords0_0, BitVec.toNat_ofNat]
    omega
  | ⟨1, _⟩ => rfl
theorem index0_2 (s : Fin grid0.N) : win0_2.index s = ![s.val % 40, 0] := by
  funext a
  match a with
  | ⟨0, _⟩ =>
    show (BitVec.ofNat 32 (grid0.coords s 1).val).toNat = s.val % 40
    rw [coords0_1, BitVec.toNat_ofNat]
    omega
  | ⟨1, _⟩ => rfl

/-- Row `r` of the column-word block at point `t` is edge `1600 (t / 40) + r`'s word. -/
theorem colsblk_apply (c : Dev nD) (t : Fin cfg0.N) (r : Fin 1600) (e : Fin 1600000) (he : e.val = 1600 * (t.val / 40) + r.val) :
    colsblk V c t (ix2 r (0 : Fin 1)) = colsarr V c (ix2 e (0 : Fin 1)) := by
  show (iblk0 (F := Ideal) V c 0 t : IVec S1600x1 32) (ix2 r (0 : Fin 1)) = _
  unfold iblk0
  rw [View.read_apply]
  show V c main_v2 _ = V c main_v2 _
  refine congrArg (V c main_v2) ?_
  funext a
  apply Fin.ext
  match a with
  | ⟨0, _⟩ =>
    show win0_0.index t 0 * 1600 + 1 * r.val = e.val
    rw [index0_0, he]; show t.val / 40 * 1600 + 1 * r.val = _; omega
  | ⟨1, _⟩ =>
    show win0_0.index t 1 * 1 + 1 * 0 = 0
    rw [index0_0]; rfl

/-- Row `r` of the value block at point `t` is edge `1600 (t / 40) + r`'s value. -/
theorem valsblk_apply (c : Dev nD) (t : Fin cfg0.N) (r : Fin 1600) (e : Fin 1600000) (he : e.val = 1600 * (t.val / 40) + r.val) :
    valsblk V c t (ix2 r (0 : Fin 1)) = valsarr V c (ix2 e (0 : Fin 1)) := by
  show (iblk0 (F := Ideal) V c 1 t : FVec Ideal S1600x1 .f32) (ix2 r (0 : Fin 1)) = _
  unfold iblk0
  rw [View.read_apply]
  show V c main_v3 _ = V c main_v3 _
  refine congrArg (V c main_v3) ?_
  funext a
  apply Fin.ext
  match a with
  | ⟨0, _⟩ =>
    show win0_1.index t 0 * 1600 + 1 * r.val = e.val
    rw [index0_1, he]; show t.val / 40 * 1600 + 1 * r.val = _; omega
  | ⟨1, _⟩ =>
    show win0_1.index t 1 * 1 + 1 * 0 = 0
    rw [index0_1]; rfl

/-- Row `k` of the feature block at point `t` is padded node row `2560 (t % 40) + k`. -/
theorem xblk_apply (c : Dev nD) (t : Fin cfg0.N) (k : Fin 2560) (q : Fin 64) (m : Fin 102400) (hm : m.val = 2560 * (t.val % 40) + k.val) :
    xblk V c t (ix2 k q) = xarr V c (ix2 m q) := by
  show (iblk0 (F := Ideal) V c 2 t : FVec Ideal S2560x64 .bf16) (ix2 k q) = _
  unfold iblk0
  rw [View.read_apply]
  show V c main_v1 _ = V c main_v1 _
  refine congrArg (V c main_v1) ?_
  funext a
  apply Fin.ext
  match a with
  | ⟨0, _⟩ =>
    show win0_2.index t 0 * 2560 + 1 * k.val = m.val
    rw [index0_2, hm]; show t.val % 40 * 2560 + 1 * k.val = _; omega
  | ⟨1, _⟩ =>
    show win0_2.index t 1 * 64 + 1 * q.val = q.val
    rw [index0_2]; show 0 * 64 + 1 * q.val = _; omega

/-! ## The accumulator after each point

After point `t = 40 i + j` the scratch row `r` holds, in lane `q`, the sum over the padded node rows `m` below `2560 (j + 1)` of
"edge `1600 i + r`'s column word is `m`" times `xpad (m, q)`: zero rows below tile 0, one tile's one-hot product added per point. -/

/-- One point's step at an entry, from what the scratch held before it. -/
theorem acc_step (c : Dev nD) (t : Fin cfg0.N) (prev : FVec Ideal S1600x64 .f32) (r : Fin 1600) (q : Fin 64)
    (e : Fin 1600000) (he : e.val = 1600 * (t.val / 40) + r.val)
    (hprev : prev (ix2 r q) = ∑ m : Fin 102400, if m.val < 2560 * (t.val % 40) ∧ colsarr V c (ix2 e (0 : Fin 1)) = BitVec.ofNat 32 m.val
        then xarr V c (ix2 m q) else 0) :
    k0_pay2 (F := Ideal) (grid0.coords t) (colsblk V c t) (xblk V c t) prev (ix2 r q)
      = ∑ m : Fin 102400, if m.val < 2560 * (t.val % 40 + 1) ∧ colsarr V c (ix2 e (0 : Fin 1)) = BitVec.ofNat 32 m.val
        then xarr V c (ix2 m q) else 0 := by
  have ht : t.val < 40000 := lt_of_lt_of_eq t.isLt N0_eq
  refine (pay2_apply (grid0.coords t) (colsblk V c t) (xblk V c t) prev r q).trans ?_
  refine Eq.trans ?_ (tile_step (fun m => xarr V c (ix2 m q)) (colsarr V c (ix2 e (0 : Fin 1))) (t.val % 40) (Nat.mod_lt _ (by decide)))
  refine congrArg₂ (· + ·) hprev (Finset.sum_congr rfl fun k _ => ?_)
  rw [colsblk_apply V c t r e he, coords0_1, xblk_apply V c t k q ⟨2560 * (t.val % 40) + k.val, by have := k.isLt; omega⟩ rfl]

/-- The first point of an edge tile: the step from the zero fill. -/
theorem acc_first_entry (c : Dev nD) (t : Fin cfg0.N) (h0 : t.val % 40 = 0) (r : Fin 1600) (q : Fin 64)
    (e : Fin 1600000) (he : e.val = 1600 * (t.val / 40) + r.val) :
    k0_pay2 (F := Ideal) (grid0.coords t) (colsblk V c t) (xblk V c t) (k0_pay1 (F := Ideal)) (ix2 r q)
      = ∑ m : Fin 102400, if m.val < 2560 * (t.val % 40 + 1) ∧ colsarr V c (ix2 e (0 : Fin 1)) = BitVec.ofNat 32 m.val
        then xarr V c (ix2 m q) else 0 :=
  acc_step V c t _ r q e he (by
    rw [pay1_apply, h0]
    exact (Finset.sum_eq_zero fun m _ => if_neg (fun h => by have := h.1; omega)).symm)

/-- THE ACCUMULATOR AFTER POINT `n`, at an entry. -/
theorem acc0_apply (c : Dev nD) : ∀ (n : ℕ) (hn : n < cfg0.N) (r : Fin 1600) (q : Fin 64) (e : Fin 1600000),
    e.val = 1600 * (n / 40) + r.val →
    (acc0 (F := Ideal) V c n hn : FVec Ideal S1600x64 .f32) (ix2 r q)
      = ∑ m : Fin 102400, if m.val < 2560 * (n % 40 + 1) ∧ colsarr V c (ix2 e (0 : Fin 1)) = BitVec.ofNat 32 m.val
          then xarr V c (ix2 m q) else 0 := by
  intro n
  induction n with
  | zero =>
    intro hn r q e he
    refine (congrFun (acc0_first V c ⟨0, hn⟩ rfl) (ix2 r q)).trans ?_
    exact acc_first_entry V c ⟨0, hn⟩ rfl r q e he
  | succ n ih =>
    intro hn r q e he
    by_cases h : (n + 1) % 40 = 0
    · refine (congrFun (acc0_first V c ⟨n + 1, hn⟩ h) (ix2 r q)).trans ?_
      exact acc_first_entry V c ⟨n + 1, hn⟩ h r q e he
    · refine (congrFun (acc0_next V c ⟨n + 1, hn⟩ h) (ix2 r q)).trans ?_
      refine acc_step V c ⟨n + 1, hn⟩ _ r q e he ?_
      have hi := ih (Nat.lt_of_succ_lt hn) r q e (by omega)
      have h2 : n % 40 + 1 = (n + 1) % 40 := by omega
      rw [h2] at hi
      exact hi

/-! ## The output block, and the array the blocks fill -/

/-- THE GATHER STAGE'S VALUE as a function of the three arrays it reads: edge `e`'s output row, lane `h`, is the one-hot
    sum over all padded node rows — "`e`'s column word is `n`" times row `n` of the padded features — times `e`'s value. -/
def gatherVal (cols : S1600000x1.Idx → BitVec 32) (xpad : S102400x64.Idx → EReal) (vals : S1600000x1.Idx → EReal)
    (e : Fin 1600000) (h : Fin 64) : EReal :=
  (∑ n : Fin 102400, if cols (ix2 e (0 : Fin 1)) = BitVec.ofNat 32 n.val then xpad (ix2 n h) else 0) * vals (ix2 e (0 : Fin 1))

/-- The whole output array as one function of the three input arrays. -/
abbrev gatherArr (c : Dev nD) : FVec Ideal S1600000x64 .bf16 :=
  fun i => gatherVal (colsarr V c) (xarr V c) (valsarr V c) (i 0) (i 1)

/-- At the last node tile of an edge tile the accumulator's sum runs over every padded node row. -/
theorem acc0_last (c : Dev nD) (t : Fin cfg0.N) (h39 : t.val % 40 = 39) (r : Fin 1600) (q : Fin 64)
    (e : Fin 1600000) (he : e.val = 1600 * (t.val / 40) + r.val) :
    (acc0 (F := Ideal) V c t.val t.isLt : FVec Ideal S1600x64 .f32) (ix2 r q)
      = ∑ m : Fin 102400, if colsarr V c (ix2 e (0 : Fin 1)) = BitVec.ofNat 32 m.val then xarr V c (ix2 m q) else 0 := by
  rw [acc0_apply V c t.val t.isLt r q e he]
  refine Finset.sum_congr rfl fun m _ => ?_
  have hm : m.val < 2560 * (t.val % 40 + 1) := by have := m.isLt; omega
  exact if_congr (and_iff_right hm) rfl rfl

/-- The block stored at the last node tile of edge tile `t / 40`, at an entry. -/
theorem outblk_apply (c : Dev nD) (t : Fin cfg0.N) (h39 : t.val % 40 = 39) (r : Fin 1600) (q : Fin 64)
    (e : Fin 1600000) (he : e.val = 1600 * (t.val / 40) + r.val) :
    k0_pay3 (F := Ideal) (valsblk V c t) (acc0 (F := Ideal) V c t.val t.isLt) (ix2 r q)
      = gatherVal (colsarr V c) (xarr V c) (valsarr V c) e q := by
  refine (pay3_apply _ _ r q).trans ?_
  rw [acc0_last V c t h39 r q e he, valsblk_apply V c t r e he]
  unfold gatherVal
  rfl

/-- WHAT A FLUSHING POINT WRITES BACK is its block of the whole-array function. -/
theorem flushed0_3 (c : Dev nD) (t : Fin cfg0.N) (hf : (cfg0.win 3).flush t = true) :
    (dat0 (F := Ideal) V c).flushed 3 t = ((cfg0.win 3).blk t).view.read (Elt Ideal) (gatherArr V c) := by
  have h39 : t.val % 40 = 39 := (flush0_3 t).mp hf
  have ht : t.val < 40000 := lt_of_lt_of_eq t.isLt N0_eq
  show (cfg0.win 3).cut (grid0.coords t) ((dat0 (F := Ideal) V c).after 3 t) = _
  rw [after0_3]
  funext j
  rw [View.read_apply]
  have hj0 : (j 0).val < 1600 := (j 0).isLt
  have hj1 : (j 1).val < 64 := (j 1).isLt
  have hx : ((cfg0.win 3).xinj (grid0.coords t) j : S1600x64.Idx) = ix2 (⟨(j 0).val, hj0⟩ : Fin 1600) (⟨(j 1).val, hj1⟩ : Fin 64) :=
    funext fun a => by
      match a with
      | ⟨0, _⟩ => rfl
      | ⟨1, _⟩ => rfl
  show k0_pay3 (F := Ideal) (valsblk V c t) (acc0 (F := Ideal) V c t.val t.isLt) ((cfg0.win 3).xinj (grid0.coords t) j)
    = gatherVal (colsarr V c) (xarr V c) (valsarr V c) _ _
  refine (congrArg (k0_pay3 (F := Ideal) (valsblk V c t) (acc0 (F := Ideal) V c t.val t.isLt)) hx).trans ?_
  refine (outblk_apply V c t h39 ⟨(j 0).val, hj0⟩ ⟨(j 1).val, hj1⟩ ⟨1600 * (t.val / 40) + (j 0).val, by omega⟩ rfl).trans ?_
  refine congrArg₂ (gatherVal (colsarr V c) (xarr V c) (valsarr V c)) (Fin.ext ?_) (Fin.ext ?_)
  · show 1600 * (t.val / 40) + (j 0).val = win0_3.index t 0 * 1600 + 1 * (j 0).val
    rw [index0_3]; show _ = t.val / 40 * 1600 + 1 * (j 0).val; omega
  · show (j 1).val = win0_3.index t 1 * 64 + 1 * (j 1).val
    rw [index0_3]; show _ = 0 * 64 + 1 * (j 1).val; omega

/-- An index of the output array is in point `t`'s block iff each coordinate is in the block's range on its axis. -/
theorem mem_blk0_3 (t : Fin cfg0.N) (i : S1600000x64.Idx) :
    i ∈ ((cfg0.win 3).blk t).view.set ↔ ∀ a : Fin 2, win0_3.index t a * S1600x64.size a ≤ (i a).val
      ∧ (i a).val < win0_3.index t a * S1600x64.size a + S1600x64.size a := by
  show i ∈ ((View.whole main_v5).slice (win0_3.rect t)).set ↔ _
  rw [View.set_slice_whole, Rect.mem_set_unit]
  exact Iff.rfl

/-- THE OUTPUT ARRAY AFTER THE REGION: row `e` lies in the block of edge tile `e / 1600`, written back at that tile's
    last point. -/
theorem gather_array (c : Dev nD) : (dat0 (F := Ideal) V c).arrAt 3 cfg0.N = gatherArr V c :=
  (dat0 (F := Ideal) V c).arrAt_eq_of_cover 3 (gatherArr V c) (fun t hf => flushed0_3 V c t hf) fun i => by
    have hi0 : (i 0).val < 1600000 := (i 0).isLt
    have hi1 : (i 1).val < 64 := (i 1).isLt
    have hN := N0_eq
    refine ⟨⟨40 * ((i 0).val / 1600) + 39, by rw [hN]; omega⟩,
      (flush0_3 _).mpr (by show (40 * ((i 0).val / 1600) + 39) % 40 = 39; omega), ?_⟩
    rw [mem_blk0_3]
    intro a
    match a with
    | ⟨0, _⟩ =>
      show win0_3.index _ 0 * 1600 ≤ (i 0).val ∧ (i 0).val < win0_3.index _ 0 * 1600 + 1600
      rw [index0_3]
      show (40 * ((i 0).val / 1600) + 39) / 40 * 1600 ≤ (i 0).val ∧ (i 0).val < (40 * ((i 0).val / 1600) + 39) / 40 * 1600 + 1600
      omega
    | ⟨1, _⟩ =>
      show win0_3.index _ 1 * 64 ≤ (i 1).val ∧ (i 1).val < win0_3.index _ 1 * 64 + 64
      rw [index0_3]
      show 0 * 64 ≤ (i 1).val ∧ (i 1).val < 0 * 64 + 64
      omega

/-- THE GATHER STAGE'S OUTPUT ARRAY READ AT `(e, h)`, as the value function of the three arrays. -/
theorem gather_array_val (c : Dev nD) (e : Fin 1600000) (h : Fin 64) :
    ((dat0 (F := Ideal) V c).arrAt 3 cfg0.N : S1600000x64.Idx → EReal) (ix2 e h)
      = gatherVal (V c main_v2) (V c main_v1) (V c main_v3) e h :=
  congrFun (gather_array V c) (ix2 e h)

/-- THE GATHER STAGE'S OUTPUT ARRAY READ AT `(e, h)`. -/
theorem gather_array_apply (c : Dev nD) (e : Fin 1600000) (h : Fin 64) :
    ((dat0 (F := Ideal) V c).arrAt 3 cfg0.N : S1600000x64.Idx → EReal) (ix2 e h)
      = (∑ n : Fin 102400, (if (V c main_v2 : S1600000x1.Idx → BitVec 32) (ix2 e (0 : Fin 1)) = BitVec.ofNat 32 n.val
            then (V c main_v1 : S102400x64.Idx → EReal) (ix2 n h) else 0 : EReal))
          * (V c main_v3 : S1600000x1.Idx → EReal) (ix2 e (0 : Fin 1)) :=
  gather_array_val V c e h

end Cert.KernelIdeal.Hand

end
-- ==== Proof.KI.Value1.lean ====
import proofs.«421706_j16071767622283_1_alg».proof.Proof.Gen.KernelIdeal.Launch
import proofs.«421706_j16071767622283_1_alg».proof.Proof.Gen.KernelIdeal.Skeleton
import proofs.«421706_j16071767622283_1_alg».proof.Proof.KI.Sched
import proofs.«421706_j16071767622283_1_alg».proof.Proof.KI.Region1
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

/-! # What the scatter stage leaves in its output array, at the ideal instance

Padded node row `n` of the output is, feature by feature, the sum over the 1,600,000 edges `e` of "row word of `e` is `n`" times
`e`'s message, clipped below at zero: the one-hot products of the 500 edge tiles accumulated in the output block, clipped at the last.

The steps: one tile step read at an index (the one-hot matrix product is, entry by entry, the sum of the messages of the tile's
edges whose row word is the row's number); the running sums along a node tile's 500 edge tiles, by induction on the grid point;
the clip at the last; and the output array assembled from its 40 blocks, each written back once. -/

open Idealize.ShloMosaic.ValueIdx

namespace Scatter

/-- The scatter stage's dimension numbers: rows by edges times edges by features. -/
abbrev DS := dot_S2560x3200_S3200x64_S2560x64_1_0_0_1_n_n

theorem lhsS_0 (j : S2560x64.Idx) (k : DS.contr.Idx) : (DS.lhsIdx j k 0 : ℕ) = j 0 := by
  simp [DotDims.lhsIdx, DS, dot_S2560x3200_S3200x64_S2560x64_1_0_0_1_n_n]; rfl
theorem lhsS_1 (j : S2560x64.Idx) (k : DS.contr.Idx) : (DS.lhsIdx j k 1 : ℕ) = k ⟨0, by decide⟩ := by
  simp [DotDims.lhsIdx, DS, dot_S2560x3200_S3200x64_S2560x64_1_0_0_1_n_n]; rfl
theorem rhsS_0 (j : S2560x64.Idx) (k : DS.contr.Idx) : (DS.rhsIdx j k 0 : ℕ) = k ⟨0, by decide⟩ := by
  simp [DotDims.rhsIdx, DS, dot_S2560x3200_S3200x64_S2560x64_1_0_0_1_n_n]; rfl
theorem rhsS_1 (j : S2560x64.Idx) (k : DS.contr.Idx) : (DS.rhsIdx j k 1 : ℕ) = j 1 := by
  simp [DotDims.rhsIdx, DS, dot_S2560x3200_S3200x64_S2560x64_1_0_0_1_n_n]; rfl

/-- The product read at `(p, q)`: the sum over the 3200 edges of the tile. -/
theorem matmulS_apply (L : FVec Ideal S2560x3200 .bf16) (R : FVec Ideal S3200x64 .bf16) (p : Fin 2560) (q : Fin 64) :
    matmul DS none L R (constant S2560x64 .f32 0x00000000#32) (ix2 p q) = ∑ s : Fin 3200, L (ix2 p s) * R (ix2 s q) := by
  show FloatOps.matmul DS none L R (constant S2560x64 .f32 0x00000000#32) (ix2 p q) = _
  rw [Ideal.matmul_constant_zero_apply, ← Equiv.sum_comp (contrEquiv1 DS 3200 rfl rfl).symm]
  refine Finset.sum_congr rfl fun s _ => ?_
  have cs := contrEquiv1_symm_val DS 3200 rfl rfl s
  have l2 : DS.lhsIdx (ix2 p q) ((contrEquiv1 DS 3200 rfl rfl).symm s) = ix2 p s := by
    funext ax; apply Fin.ext
    match ax with
    | ⟨0, _⟩ => exact lhsS_0 _ _
    | ⟨1, _⟩ => exact (lhsS_1 _ _).trans cs
  have r2 : DS.rhsIdx (ix2 p q) ((contrEquiv1 DS 3200 rfl rfl).symm s) = ix2 s q := by
    funext ax; apply Fin.ext
    match ax with
    | ⟨0, _⟩ => exact (rhsS_0 _ _).trans cs
    | ⟨1, _⟩ => exact rhsS_1 _ _
  rw [l2, r2]

/-- A word comparison, zero-extended to 32 bits and read signed, is 1 where the words agree and 0 elsewhere. -/
theorem onehot_word (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  unfold IntOp.cmpi
  by_cases h : a = b
  · subst h; simp
  · have hb : (a == b) = false := beq_eq_false_iff_ne.mpr h
    rw [hb, if_neg h]; simp

/-- Node tile `a`'s row `p` as a word: the tile's first row number plus the row's place in the tile. -/
theorem row_word (a p : ℕ) : BitVec.ofNat 32 a * 2560#32 + BitVec.ofNat 32 p = BitVec.ofNat 32 (2560 * a + p) := by
  rw [BitVec.ofNat_add, BitVec.ofNat_mul, BitVec.mul_comm]

/-- A column of row numbers spread along the edges reads its row's entry. -/
theorem spread_col (x : IVec S2560x1 32) (p : Fin 2560) (s : Fin 3200) :
    broadcastTo S2560x3200 x Gen.broadcasts_S2560x1_S2560x3200 (ix2 p s) = x (ix2 p (0 : Fin 1)) :=
  broadcastTo_apply x _ (ix2 p s) (ix2 p 0) (fun a => by match a with | ⟨0, _⟩ => rfl | ⟨1, _⟩ => rfl)

/-- A row of edge words spread along the rows reads its edge's entry. -/
theorem spread_row (x : IVec S1x3200 32) (p : Fin 2560) (s : Fin 3200) :
    broadcastTo S2560x3200 x Gen.broadcasts_S1x3200_S2560x3200 (ix2 p s) = x (ix2 (0 : Fin 1) s) :=
  broadcastTo_apply x _ (ix2 p s) (ix2 0 s) (fun a => by match a with | ⟨0, _⟩ => rfl | ⟨1, _⟩ => rfl)

/-- THE TILE STEP READ AT `(p, q)`: what the block held there plus, over the tile's 3200 edges, the messages of the
    edges whose row word is the row's number. -/
theorem pay2_apply (i : grid1.Coords) (rws : Vec Ideal S1x3200 .i32) (ms : Vec Ideal S3200x64 .bf16)
    (prev : Vec Ideal S2560x64 .f32) (p : Fin 2560) (q : Fin 64) :
    k1_pay2 (F := Ideal) i rws ms prev (ix2 p q)
      = prev (ix2 p q) + ∑ s : Fin 3200,
          (if BitVec.ofNat 32 (2560 * (i 0).val + p.val) = rws (ix2 (0 : Fin 1) s) then (1 : EReal) else 0) * ms (ix2 s q) := by
  unfold k1_pay2
  dsimp only
  simp only [shapeCast_self]
  rw [addf_apply, matmulS_apply]
  refine congrArg (prev (ix2 p q) + ·) (Finset.sum_congr rfl fun s _ => ?_)
  refine congrArg (· * ms (ix2 s q)) ?_
  refine (onehot_word _ _).trans ?_
  rw [spread_col, spread_row]
  refine if_congr (Eq.congr_left ?_) rfl rfl
  show IntOp.addi (IntOp.muli (BitVec.ofNat 32 (i 0).val) 2560#32) (iota .tc S2560x1 32 [0] Gen.iota_S2560x1_d0_w32 (ix2 p (0 : Fin 1))) = _
  rw [iota_single_apply]
  exact row_word _ _

/-- The zero fill reads 0. -/
theorem pay1_apply (j : S2560x64.Idx) : (k1_pay1 (F := Ideal)) j = (0 : EReal) := by
  unfold k1_pay1
  exact Ideal.ofBits_zero_f32

/-- The closing clip reads the larger of the entry and 0. -/
theorem pay3_apply (x : Vec Ideal S2560x64 .f32) (j : S2560x64.Idx) : k1_pay3 (F := Ideal) x j = max (x j) (0 : EReal) := by
  unfold k1_pay3
  rw [maximumf_apply, shapeCast_self, broadcast_apply]
  exact congrArg (max (x j)) Ideal.ofBits_zero_f32

/-- The row words' block index at point `s`: the edge tile. -/
theorem index1_0 (s : Fin grid1.N) : win1_0.index s = ![0, s.val % 500] := by
  funext a
  match a with
  | ⟨0, _⟩ => rfl
  | ⟨1, _⟩ =>
    show (BitVec.ofNat 32 (grid1.coords s 1).val).toNat = s.val % 500
    rw [coords1_1, BitVec.toNat_ofNat]
    omega

/-- The messages' block index at point `s`: the edge tile. -/
theorem index1_1 (s : Fin grid1.N) : win1_1.index s = ![s.val % 500, 0] := by
  funext a
  match a with
  | ⟨0, _⟩ =>
    show (BitVec.ofNat 32 (grid1.coords s 1).val).toNat = s.val % 500
    rw [coords1_1, BitVec.toNat_ofNat]
    omega
  | ⟨1, _⟩ => rfl

variable (V : (c : Dev nD) → (b : Ref sig .tc) → Buf (Elt Ideal) ((c : Thread nD τ).loc b))

/-- Edge `e`'s row word (the zero word past the last edge: never read). -/
def roww (c : Dev nD) (e : ℕ) : BitVec 32 :=
  if h : e < 1600000 then (V c main_v4 : S1x1600000.Idx → BitVec 32) (ix2 (0 : Fin 1) ⟨e, h⟩) else 0

/-- Edge `e`'s message at feature `q` (zero outside the array: never read). -/
def msg (c : Dev nD) (e q : ℕ) : EReal :=
  if h : e < 1600000 ∧ q < 64 then (V c main_v5 : S1600000x64.Idx → EReal) (ix2 ⟨e, h.1⟩ ⟨q, h.2⟩) else 0

/-- Edge `e`'s contribution to node row `n` at feature `q`: its message if its row word is `n`, else nothing. -/
def term (c : Dev nD) (n q e : ℕ) : EReal := if BitVec.ofNat 32 n = roww V c e then msg V c e q else 0

/-- The row words' block at a grid point, as a vector of its literal shape. -/
abbrev rowsblk (c : Dev nD) (t : Fin cfg1.N) : Vec Ideal S1x3200 .i32 := iblk1 V c 0 t
/-- The messages' block at a grid point, as a vector of its literal shape. -/
abbrev msgsblk (c : Dev nD) (t : Fin cfg1.N) : Vec Ideal S3200x64 .bf16 := iblk1 V c 1 t

/-- The row words' block at point `t` holds the words of edges `3200 (t mod 500) + s`. -/
theorem rowsblk_apply (c : Dev nD) (t : Fin cfg1.N) (s : Fin 3200) :
    rowsblk V c t (ix2 (0 : Fin 1) s) = roww V c (3200 * (t.val % 500) + s.val) := by
  have hlt : 3200 * (t.val % 500) + s.val < 1600000 := by
    have := s.isLt; have := Nat.mod_lt t.val (by decide : 0 < 500); omega
  unfold roww
  rw [dif_pos hlt]
  unfold rowsblk iblk1
  rw [View.read_apply]
  show V c main_v4 (((cfg1.win 0).blk t).view.emb (ix2 (0 : Fin 1) s)) = V c main_v4 (ix2 (0 : Fin 1) ⟨_, hlt⟩)
  have e0 : win1_0.index t (0 : Fin 2) = 0 := congrFun (index1_0 t) 0
  have e1 : win1_0.index t (1 : Fin 2) = t.val % 500 := congrFun (index1_0 t) 1
  congr 1
  funext a
  apply Fin.ext
  match a with
  | ⟨0, _⟩ => show win1_0.index t (0 : Fin 2) * 1 + 1 * 0 = 0; rw [e0]
  | ⟨1, _⟩ => show win1_0.index t (1 : Fin 2) * 3200 + 1 * s.val = 3200 * (t.val % 500) + s.val; rw [e1]; omega

/-- The messages' block at point `t` holds the messages of edges `3200 (t mod 500) + s`. -/
theorem msgsblk_apply (c : Dev nD) (t : Fin cfg1.N) (s : Fin 3200) (q : Fin 64) :
    msgsblk V c t (ix2 s q) = msg V c (3200 * (t.val % 500) + s.val) q.val := by
  have hlt : 3200 * (t.val % 500) + s.val < 1600000 := by
    have := s.isLt; have := Nat.mod_lt t.val (by decide : 0 < 500); omega
  unfold msg
  rw [dif_pos ⟨hlt, q.isLt⟩]
  unfold msgsblk iblk1
  rw [View.read_apply]
  show V c main_v5 (((cfg1.win 1).blk t).view.emb (ix2 s q)) = V c main_v5 (ix2 ⟨_, hlt⟩ ⟨q.val, q.isLt⟩)
  have e2 : win1_1.index t (0 : Fin 2) = t.val % 500 := congrFun (index1_1 t) 0
  have e3 : win1_1.index t (1 : Fin 2) = 0 := congrFun (index1_1 t) 1
  congr 1
  funext a
  apply Fin.ext
  match a with
  | ⟨0, _⟩ => show win1_1.index t (0 : Fin 2) * 3200 + 1 * s.val = 3200 * (t.val % 500) + s.val; rw [e2]; omega
  | ⟨1, _⟩ => show win1_1.index t (1 : Fin 2) * 64 + 1 * q.val = q.val; rw [e3]; omega

/-- ONE GRID POINT'S STEP read at `(p, q)`: what the block held plus the contributions of the point's 3200 edges to
    node row `2560 (t / 500) + p`. -/
theorem step_apply (c : Dev nD) (t : Fin cfg1.N) (prev : Vec Ideal S2560x64 .f32) (p : Fin 2560) (q : Fin 64) :
    k1_pay2 (F := Ideal) (grid1.coords t) (rowsblk V c t) (msgsblk V c t) prev (ix2 p q)
      = prev (ix2 p q) + ∑ s ∈ Finset.range 3200, term V c (2560 * (t.val / 500) + p.val) q.val (3200 * (t.val % 500) + s) := by
  refine (pay2_apply (grid1.coords t) (rowsblk V c t) (msgsblk V c t) prev p q).trans ?_
  refine congrArg (prev (ix2 p q) + ·) ?_
  rw [← Fin.sum_univ_eq_sum_range (fun s => term V c (2560 * (t.val / 500) + p.val) q.val (3200 * (t.val % 500) + s)) 3200]
  refine Finset.sum_congr rfl fun s _ => ?_
  rw [rowsblk_apply, msgsblk_apply, coords1_0 t]
  unfold term
  split
  · rw [one_mul]
  · rw [zero_mul]

/-- AT THE FIRST EDGE TILE of a node tile the block holds the contributions of the tile's own edges. -/
theorem first_apply (c : Dev nD) (t : Fin cfg1.N) (h : t.val % 500 = 0) (p : Fin 2560) (q : Fin 64) :
    out1 V c t.val t.isLt (ix2 p q)
      = ∑ e ∈ Finset.range (3200 * (t.val % 500 + 1)), term V c (2560 * (t.val / 500) + p.val) q.val e := by
  refine (congrFun (out1_first V c t h) (ix2 p q)).trans ?_
  refine (step_apply V c t (k1_pay1 (F := Ideal)) p q).trans ?_
  rw [pay1_apply, zero_add, h]
  simp only [Nat.mul_zero, Nat.zero_add, Nat.mul_one]

/-- AT A LATER EDGE TILE but the last, the block gains the tile's edges' contributions. -/
theorem mid_apply (c : Dev nD) (t : Fin cfg1.N) (h0 : ¬ t.val % 500 = 0) (h1 : ¬ t.val % 500 = 499) (p : Fin 2560) (q : Fin 64)
    (ih : out1 V c (t.val - 1) (Nat.lt_of_le_of_lt (Nat.sub_le _ _) t.isLt) (ix2 p q)
      = ∑ e ∈ Finset.range (3200 * ((t.val - 1) % 500 + 1)), term V c (2560 * ((t.val - 1) / 500) + p.val) q.val e) :
    out1 V c t.val t.isLt (ix2 p q)
      = ∑ e ∈ Finset.range (3200 * (t.val % 500 + 1)), term V c (2560 * (t.val / 500) + p.val) q.val e := by
  refine (congrFun (out1_mid V c t h0 h1) (ix2 p q)).trans ?_
  refine (step_apply V c t _ p q).trans ?_
  rw [ih]
  have e1 : (t.val - 1) / 500 = t.val / 500 := by omega
  have e2 : (t.val - 1) % 500 + 1 = t.val % 500 := by omega
  rw [e1, e2, show 3200 * (t.val % 500 + 1) = 3200 * (t.val % 500) + 3200 from by ring, Finset.sum_range_add]

/-- THE PARTIAL SUMS: after edge tile `n mod 500` (any but the last) of node tile `n / 500` the block holds at `(p, q)`
    the contributions of edges `0 … 3200 (n mod 500 + 1) - 1` to node row `2560 (n / 500) + p`. By induction on the point. -/
theorem out1_partial (c : Dev nD) (p : Fin 2560) (q : Fin 64) : ∀ (n : ℕ) (hn : n < cfg1.N), ¬ n % 500 = 499 →
    out1 V c n hn (ix2 p q)
      = ∑ e ∈ Finset.range (3200 * (n % 500 + 1)), term V c (2560 * (n / 500) + p.val) q.val e
  | 0, hn, _ => first_apply V c ⟨0, hn⟩ rfl p q
  | n + 1, hn, h499 => by
    by_cases h0 : (n + 1) % 500 = 0
    · exact first_apply V c ⟨n + 1, hn⟩ h0 p q
    · exact mid_apply V c ⟨n + 1, hn⟩ h0 h499 p q (out1_partial c p q n (Nat.lt_of_succ_lt hn) (by omega))

/-- AT THE LAST EDGE TILE the block holds the contributions of all 1,600,000 edges, clipped below at zero. -/
theorem out1_final (c : Dev nD) (t : Fin cfg1.N) (h : t.val % 500 = 499) (p : Fin 2560) (q : Fin 64) :
    out1 V c t.val t.isLt (ix2 p q)
      = max (∑ e ∈ Finset.range 1600000, term V c (2560 * (t.val / 500) + p.val) q.val e) 0 := by
  refine (congrFun (out1_last V c t h) (ix2 p q)).trans ?_
  refine (pay3_apply _ (ix2 p q)).trans ?_
  refine congrArg (max · (0 : EReal)) ?_
  refine (step_apply V c t _ p q).trans ?_
  rw [out1_partial V c p q (t.val - 1) (Nat.lt_of_le_of_lt (Nat.sub_le _ _) t.isLt) (by omega)]
  have e1 : (t.val - 1) / 500 = t.val / 500 := by omega
  have e2 : (t.val - 1) % 500 + 1 = 499 := by omega
  rw [e1, e2, h, show (1600000 : ℕ) = 3200 * 499 + 3200 from by norm_num, Finset.sum_range_add]

/-- An index of the output array is in point `t`'s block iff each coordinate is in the block's range on its axis. -/
theorem mem_blk (t : Fin cfg1.N) (i : S102400x64.Idx) :
    i ∈ ((cfg1.win 2).blk t).view.set ↔ ∀ a : Fin 2, win1_2.index t a * S2560x64.size a ≤ (i a).val ∧ (i a).val < win1_2.index t a * S2560x64.size a + S2560x64.size a := by
  show i ∈ ((View.whole main_v6).slice (win1_2.rect t)).set ↔ _
  rw [View.set_slice_whole, Rect.mem_set_unit]
  exact Iff.rfl

/-- Every row of the output array lies in the block of its node tile's last point. -/
theorem cover (i : S102400x64.Idx) :
    ∃ t : Fin cfg1.N, (cfg1.win 2).flush t = true ∧ i ∈ ((cfg1.win 2).blk t).view.set := by
  have h0 : (i 0).val < 102400 := (i 0).isLt
  have h1 : (i 1).val < 64 := (i 1).isLt
  have hlt : 500 * ((i 0).val / 2560) + 499 < cfg1.N := by rw [N1_eq]; omega
  refine ⟨⟨500 * ((i 0).val / 2560) + 499, hlt⟩, (flush1_2 _).mpr (by show (500 * ((i 0).val / 2560) + 499) % 500 = 499; omega), ?_⟩
  rw [mem_blk]
  intro a
  match a with
  | ⟨0, _⟩ =>
    show win1_2.index ⟨500 * ((i 0).val / 2560) + 499, hlt⟩ (0 : Fin 2) * 2560 ≤ (i 0).val ∧ (i 0).val < win1_2.index ⟨500 * ((i 0).val / 2560) + 499, hlt⟩ (0 : Fin 2) * 2560 + 2560
    rw [congrFun (index1_2 _) 0]
    show (500 * ((i 0).val / 2560) + 499) / 500 * 2560 ≤ (i 0).val ∧ (i 0).val < (500 * ((i 0).val / 2560) + 499) / 500 * 2560 + 2560
    omega
  | ⟨1, _⟩ =>
    show win1_2.index ⟨500 * ((i 0).val / 2560) + 499, hlt⟩ (1 : Fin 2) * 64 ≤ (i 1).val ∧ (i 1).val < win1_2.index ⟨500 * ((i 0).val / 2560) + 499, hlt⟩ (1 : Fin 2) * 64 + 64
    rw [congrFun (index1_2 _) 1]
    show 0 * 64 ≤ (i 1).val ∧ (i 1).val < 0 * 64 + 64
    omega

/-- Node row `n` at feature `q` after the stage: all edges' contributions to `n`, clipped below at zero. -/
def outVal (c : Dev nD) (n q : ℕ) : EReal := max (∑ e ∈ Finset.range 1600000, term V c n q e) 0

/-- The array whose entry at `(n, q)` is a given function of the two coordinates. -/
def arrOf (f : ℕ → ℕ → EReal) : S102400x64.Idx → EReal := fun j => f (j 0).val (j 1).val

/-- WHAT THE LAST EDGE TILE'S POINT WRITES BACK is node tile `t / 500`'s block of the array of `f`, whenever the block
    the point leaves holds `f` at the block's rows (`hfin`). Stated for any `f`: only the placement of the block matters. -/
theorem flushed_of (f : ℕ → ℕ → EReal) (c : Dev nD)
    (hfin : ∀ (t : Fin cfg1.N), t.val % 500 = 499 → ∀ (p : Fin 2560) (q : Fin 64),
      out1 V c t.val t.isLt (ix2 p q) = f (2560 * (t.val / 500) + p.val) q.val)
    (t : Fin cfg1.N) (hf : (cfg1.win 2).flush t = true) :
    (dat1 V c).flushed 2 t = ((cfg1.win 2).blk t).view.read (Elt Ideal) (arrOf f) := by
  have h : t.val % 500 = 499 := (flush1_2 t).mp hf
  show (cfg1.win 2).cut (grid1.coords t) ((dat1 V c).after 2 t) = _
  rw [after1_2]
  funext j
  rw [View.read_apply]
  have hj0 : (j 0).val < 2560 := (j 0).isLt
  have hj1 : (j 1).val < 64 := (j 1).isLt
  have hx : ((cfg1.win 2).xinj (grid1.coords t) j : S2560x64.Idx) = ix2 (⟨(j 0).val, hj0⟩ : Fin 2560) (⟨(j 1).val, hj1⟩ : Fin 64) :=
    funext fun a => by
      match a with
      | ⟨0, _⟩ => rfl
      | ⟨1, _⟩ => rfl
  show out1 V c t.val t.isLt ((cfg1.win 2).xinj (grid1.coords t) j) = f _ _
  refine (congrArg (out1 V c t.val t.isLt) hx).trans ?_
  refine (hfin t h ⟨(j 0).val, hj0⟩ ⟨(j 1).val, hj1⟩).trans ?_
  refine congrArg₂ f ?_ ?_
  · show 2560 * (t.val / 500) + (j 0).val = win1_2.index t 0 * 2560 + 1 * (j 0).val
    rw [index1_2]; show _ = t.val / 500 * 2560 + 1 * (j 0).val; omega
  · show (j 1).val = win1_2.index t 1 * 64 + 1 * (j 1).val
    rw [index1_2]; show _ = 0 * 64 + 1 * (j 1).val; omega

/-- THE OUTPUT ARRAY after the stage is the array of `f`, read at `(n, h)`: each of its 40 blocks is written back once. -/
theorem array_of (f : ℕ → ℕ → EReal) (c : Dev nD)
    (hfin : ∀ (t : Fin cfg1.N), t.val % 500 = 499 → ∀ (p : Fin 2560) (q : Fin 64),
      out1 V c t.val t.isLt (ix2 p q) = f (2560 * (t.val / 500) + p.val) q.val)
    (n : Fin 102400) (h : Fin 64) :
    ((dat1 (F := Ideal) V c).arrAt 2 cfg1.N : S102400x64.Idx → EReal) (ix2 n h) = f n.val h.val :=
  congrFun ((dat1 V c).arrAt_eq_of_cover 2 (arrOf f) (flushed_of V f c hfin) cover) (ix2 n h)

end Scatter

open Scatter

variable (V : (c : Dev nD) → (b : Ref sig .tc) → Buf (Elt Ideal) ((c : Thread nD τ).loc b))

/-- THE SCATTER STAGE'S OUTPUT ARRAY READ AT `(n, h)`. -/
theorem scatter_array_apply (c : Dev nD) (n : Fin 102400) (h : Fin 64) :
    ((dat1 (F := Ideal) V c).arrAt 2 cfg1.N : S102400x64.Idx → EReal) (ix2 n h)
      = max (∑ e : Fin 1600000, (if BitVec.ofNat 32 n.val = (V c main_v4 : S1x1600000.Idx → BitVec 32) (ix2 (0 : Fin 1) e)
            then (V c main_v5 : S1600000x64.Idx → EReal) (ix2 e h) else 0 : EReal)) 0 := by
  refine (array_of V (outVal V c) c (fun t ht p q => out1_final V c t ht p q) n h).trans ?_
  unfold outVal
  rw [← Fin.sum_univ_eq_sum_range (fun e => term V c n.val h.val e) 1600000]
  refine congrArg (max · (0 : EReal)) (Finset.sum_congr rfl fun e _ => ?_)
  unfold term roww msg
  rw [dif_pos e.isLt, dif_pos ⟨e.isLt, h.isLt⟩]

end Cert.KernelIdeal.Hand

end
-- ==== Proof.Spec.lean ====
/-
  What the sparse product computes, as one function of the argument arrays.

  Node features `x : [100000, 64]`; an edge list of 1,600,000 triples (row word, column word, value). Edge `e` carries the
  message `x[col e, ·] · val e` to node `row e`; a node's result is the sum of the messages addressed to it, clipped below at
  zero. A row word addresses node `n` when it reads, as a signed integer, `n`; a column word names a node when it is below 100000.
-/
import Idealize.ShloMosaic.PureOps.Ideal
import Idealize.ShloMosaic.Lib.ValueIdx

noncomputable section

open scoped BigOperators

namespace Cert.Spec

open Idealize.ShloMosaic Idealize.ShloMosaic.ValueIdx

/-- The node a column word names (the word itself when it is below 100000). -/
def nodeOf (w : BitVec 32) : Fin 100000 := ⟨min w.toNat 99999, by omega⟩

/-- Edge `e`'s message in feature `h`: the source node's feature times the edge's value. -/
def msg (x : (⟨2, ![100000, 64]⟩ : Shape).Idx → EReal) (cols : (⟨1, ![1600000]⟩ : Shape).Idx → BitVec 32)
    (vals : (⟨1, ![1600000]⟩ : Shape).Idx → EReal) (e : Fin 1600000) (h : Fin 64) : EReal :=
  x (ix2 (nodeOf (cols (ix1 e))) h) * vals (ix1 e)

/-- The edges addressed to node `n`: those whose row word, read signed, is `n`. -/
def edgesTo (rows : (⟨1, ![1600000]⟩ : Shape).Idx → BitVec 32) (n : Nat) : Finset (Fin 1600000) :=
  Finset.univ.filter fun e => (rows (ix1 e)).toInt = (n : Int)

/-- THE RESULT: at node `n` and feature `h`, the sum of the messages addressed to `n`, clipped below at zero. -/
def G (x : (⟨2, ![100000, 64]⟩ : Shape).Idx → EReal) (rows cols : (⟨1, ![1600000]⟩ : Shape).Idx → BitVec 32)
    (vals : (⟨1, ![1600000]⟩ : Shape).Idx → EReal) : (⟨2, ![100000, 64]⟩ : Shape).Idx → EReal :=
  fun i => max (∑ e ∈ edgesTo rows (i 0).val, msg x cols vals e (i 1)) 0

end Cert.Spec

end
-- ==== Proof.Bridge.lean ====
/-
  Two facts about 32-bit words that join the one-hot sums to the specification's sums.

  A one-hot sum over node numbers picks the entry at the word's own value; and, for a node number below 100000, "the word IS
  that number" and "the word reads, as a signed integer, that number" are the same condition.
-/
import proofs.«421706_j16071767622283_1_alg».proof.Proof.Spec

noncomputable section

open scoped BigOperators

namespace Cert.Bridge

/-- A word that reads signed in [0, 100000) is its unsigned value, below 100000. -/
theorem toNat_of_range (w : BitVec 32) (h0 : 0 ≤ w.toInt) (h1 : w.toInt < 100000) :
    w.toNat < 100000 ∧ (w.toNat : Int) = w.toInt := by
  have := w.isLt
  rw [BitVec.toInt_eq_toNat_cond] at h0 h1 ⊢
  split at h0 <;> split at h1 <;> simp_all <;> omega

/-- The node a column word in range names is the word's value. -/
theorem nodeOf_val (w : BitVec 32) (h : w.toNat < 100000) : (Cert.Spec.nodeOf w).val = w.toNat := by
  show min w.toNat 99999 = w.toNat
  omega

/-- A one-hot sum over the 102400 padded node numbers reads the entry at the word's value, when that is below 102400. -/
theorem sum_onehot (w : BitVec 32) (hw : w.toNat < 102400) (f : Fin 102400 → EReal) :
    (∑ n : Fin 102400, if w = BitVec.ofNat 32 n.val then f n else 0) = f ⟨w.toNat, hw⟩ := by
  rw [Finset.sum_eq_single (⟨w.toNat, hw⟩ : Fin 102400)]
  · rw [if_pos]
    apply BitVec.eq_of_toNat_eq
    rw [BitVec.toNat_ofNat]
    exact (Nat.mod_eq_of_lt w.isLt).symm
  · intro n _ hn
    rw [if_neg]
    intro hEq
    apply hn
    apply Fin.ext
    have := congrArg BitVec.toNat hEq
    rw [BitVec.toNat_ofNat, Nat.mod_eq_of_lt (by have := n.isLt; omega)] at this
    exact this.symm
  · intro h; exact absurd (Finset.mem_univ _) h

/-- For a node number below 100000 the word is that number exactly when it reads, signed, as that number. -/
theorem ofNat_eq_iff (n : Nat) (hn : n < 100000) (w : BitVec 32) :
    BitVec.ofNat 32 n = w ↔ w.toInt = (n : Int) := by
  constructor
  · intro h
    rw [← h, BitVec.toInt_eq_toNat_cond, BitVec.toNat_ofNat, Nat.mod_eq_of_lt (by omega)]
    rw [if_pos (by omega)]
  · intro h
    apply BitVec.eq_of_toNat_eq
    rw [BitVec.toNat_ofNat, Nat.mod_eq_of_lt (by omega)]
    have := w.isLt
    rw [BitVec.toInt_eq_toNat_cond] at h
    split at h <;> omega

end Cert.Bridge

end
-- ==== Proof.KI.Final.lean ====
import proofs.«421706_j16071767622283_1_alg».proof.Proof.Gen.KernelIdeal.Launch
import proofs.«421706_j16071767622283_1_alg».proof.Proof.Gen.KernelIdeal.Skeleton
import proofs.«421706_j16071767622283_1_alg».proof.Proof.KI.Run
import proofs.«421706_j16071767622283_1_alg».proof.Proof.KI.Value0
import proofs.«421706_j16071767622283_1_alg».proof.Proof.KI.Value1
import proofs.«421706_j16071767622283_1_alg».proof.Proof.Spec
import proofs.«421706_j16071767622283_1_alg».proof.Proof.Bridge
import Idealize.ShloMosaic.Lib.ValueIdx
import Idealize.ShloMosaic.Lib.ValueLayout
import Idealize.ShloMosaic.Lib.KernelVsHost
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! # The kernel's result is the specification's function

The result array is the first 100000 rows of the scatter stage's output; the scatter stage sums, into node row `n`, the rows of
the gather stage's output whose row word is `n`; the gather stage's row `e` is the padded features' row at `e`'s column word times
`e`'s value. With every column word a node number the padded row is the node's own row. -/

open Idealize.ShloMosaic.ValueIdx

variable (m : (ℓ : Loc nD τ sig) → Buf (Elt Ideal) ℓ)

/-- The padded, narrowed features at row `n < 100000` are the features' row `n`. -/
theorem xpad_apply (c : Dev nD) (n : Fin 102400) (hn : n.val < 100000) (h : Fin 64) :
    (V3 (F := Ideal) m c main_v1 : S102400x64.Idx → EReal) (ix2 n h)
      = (m ((c : Thread nD τ).loc main_arg1) : S100000x64.Idx → EReal) (ix2 (⟨n.val, hn⟩ : Fin 100000) h) := by
  rw [V3_main_v1]
  exact pad_apply_of_inside (s := S100000x64) (t := S102400x64) ![0, 0] ![2400, 0] ![0, 0] _ _ Facts₀.pads_S100000x64_S102400x64_024000_000 Facts₀.h_S_ (ix2 n h) (ix2 (⟨n.val, hn⟩ : Fin 100000) h) (fun a => by
    match a with
    | ⟨0, _⟩ => show n.val = 0 + n.val * (0 + 1); omega
    | ⟨1, _⟩ => show h.val = 0 + h.val * (0 + 1); omega)

/-- The column words, the edge values and the row words as the stages find them. -/
theorem cols_apply (c : Dev nD) (e : Fin 1600000) :
    (V3 (F := Ideal) m c main_v2 : S1600000x1.Idx → BitVec 32) (ix2 e (0 : Fin 1))
      = (m ((c : Thread nD τ).loc main_arg3) : S1600000.Idx → BitVec 32) (ix1 e) := by
  rw [V3_main_v2]
  exact shapeCast_apply (s := S1600000) (t := S1600000x1) (m ((c : Thread nD τ).loc main_arg3) : S1600000.Idx → BitVec 32) _ (ix2 e (0 : Fin 1)) (ix1 e) (by
    rw [Shape.rowMajor_val_one, Shape.rowMajor_val_two]
    show e.val = e.val * 1 + 0
    omega)
theorem vals_apply (c : Dev nD) (e : Fin 1600000) :
    (V3 (F := Ideal) m c main_v3 : S1600000x1.Idx → EReal) (ix2 e (0 : Fin 1))
      = (m ((c : Thread nD τ).loc main_arg4) : S1600000.Idx → EReal) (ix1 e) := by
  rw [V3_main_v3]
  exact shapeCast_apply (s := S1600000) (t := S1600000x1) (m ((c : Thread nD τ).loc main_arg4) : S1600000.Idx → EReal) _ (ix2 e (0 : Fin 1)) (ix1 e) (by
    rw [Shape.rowMajor_val_one, Shape.rowMajor_val_two]
    show e.val = e.val * 1 + 0
    omega)
theorem rows_apply (c : Dev nD) (e : Fin 1600000) :
    (V4 (F := Ideal) m c main_v4 : S1x1600000.Idx → BitVec 32) (ix2 (0 : Fin 1) e)
      = (m ((c : Thread nD τ).loc main_arg2) : S1600000.Idx → BitVec 32) (ix1 e) := by
  rw [V4_main_v4]
  exact shapeCast_a_1a_apply _ _ _ _

/-- THE RESULT. With every column word a node number, the result buffer after the run holds the specification's function of
    the argument arrays. -/
theorem result_eq (c : Dev nD)
    (hcols : ∀ e : Fin 1600000, 0 ≤ ((m ((c : Thread nD τ).loc main_arg3) : S1600000.Idx → BitVec 32) (ix1 e)).toInt
      ∧ ((m ((c : Thread nD τ).loc main_arg3) : S1600000.Idx → BitVec 32) (ix1 e)).toInt < 100000) :
    (W6 (F := Ideal) m c (Proc.devRef .tc main_v7) : S100000x64.Idx → EReal)
      = Cert.Spec.G (m ((c : Thread nD τ).loc main_arg1)) (m ((c : Thread nD τ).loc main_arg2)) (m ((c : Thread nD τ).loc main_arg3)) (m ((c : Thread nD τ).loc main_arg4)) := by
  rw [W6_main_v7]
  funext i
  obtain ⟨n, h, rfl⟩ : ∃ (n : Fin 100000) (h : Fin 64), i = ix2 n h := ⟨i 0, i 1, eq_ix2 i⟩
  have hn := n.isLt
  rw [extractStridedSlice_apply ![0, 0] _ _ (ix2 n h) (ix2 (⟨n.val, by omega⟩ : Fin 102400) h) (fun a => by
    match a with
    | ⟨0, _⟩ => exact (Nat.zero_add _).symm
    | ⟨1, _⟩ => exact (Nat.zero_add _).symm)]
  rw [scatter_array_apply]
  show (max (∑ e : Fin 1600000, _) (0 : EReal) : EReal)
    = max (∑ e ∈ Cert.Spec.edgesTo (m ((c : Thread nD τ).loc main_arg2)) n.val, Cert.Spec.msg (m ((c : Thread nD τ).loc main_arg1)) (m ((c : Thread nD τ).loc main_arg3)) (m ((c : Thread nD τ).loc main_arg4)) e h) (0 : EReal)
  refine congrArg (fun s : EReal => max s 0) ?_
  unfold Cert.Spec.edgesTo
  rw [Finset.sum_filter]
  refine Finset.sum_congr rfl fun e _ => ?_
  rw [rows_apply]
  refine if_congr (Cert.Bridge.ofNat_eq_iff n.val hn _) ?_ rfl
  rw [V4_main_v5, gather_array_apply, cols_apply, vals_apply]
  obtain ⟨hlt, -⟩ := Cert.Bridge.toNat_of_range _ (hcols e).1 (hcols e).2
  rw [Cert.Bridge.sum_onehot _ (by omega) (fun n' : Fin 102400 => (V3 (F := Ideal) m c main_v1 : S102400x64.Idx → EReal) (ix2 n' h))]
  rw [xpad_apply m c _ hlt]
  unfold Cert.Spec.msg
  congr 2
  exact congrArg (fun k => ix2 k h) (Fin.ext (Cert.Bridge.nodeOf_val _ hlt).symm)

/-- THE KERNEL'S RUN: from any memory whose column words are node numbers, every weakly fair execution of the idealized kernel
    terminates with the result array at the specification's function of the argument arrays, the arguments unchanged. -/
theorem run_G (ρ : Dev nD → PrngReg)
    (hcols : ∀ (c : Dev nD) (e : Fin 1600000), 0 ≤ ((m ((c : Thread nD τ).loc main_arg3) : S1600000.Idx → BitVec 32) (ix1 e)).toInt
      ∧ ((m ((c : Thread nD τ).loc main_arg3) : S1600000.Idx → BitVec 32) (ix1 e)).toInt < 100000) :
    θ_run (defs (F := Ideal)) (onTc (τ := τ) (main (F := Ideal))) ⟨m, fun _ => 0, ρ⟩ (fun r => ∀ c : Dev nD,
      r.2.mem ((c.tc : Thread nD τ).loc main_v7) = Cert.Spec.G (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v7 (by decide))).trans (result_eq m c (hcols c)),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run_all (F := Ideal) m ρ)

end Cert.KernelIdeal.Hand

end
-- ==== Proof.LibGatherRows.lean ====
/-
  A row gather (`x[idx]` along one axis of a rank-2 table) read at an index, in both layouts.

  Table `[N, C]`, start indices `[E, 1]`, result `[E, C]`: result element `(e, k)` is the table's
  `(r, k)`, where `r` is the index word `idx[e, 0]` read as a signed integer and clamped into
  `[0, N - 1]` (a negative number reads as row 0, one past the end as the last row).
  The transposed layout (table `[C, N]`, result `[C, E]`) gathers along axis 1 the same way.
  Beside them: the index wrap `i < 0 ? i + N : i` of a signed 32-bit word in `[-N, N)` lands in `[0, N)`.
-/
import Idealize.ShloMosaic.PureOps
import Idealize.ShloMosaic.Lib.ValueIdx

noncomputable section

namespace Idealize.ShloMosaic.RowGather

open Idealize.ShloMosaic Idealize.ShloMosaic.ValueIdx

variable {α : Type}

/-- Gather of whole rows: table `[N, C]`, indices `[E, 1]`, result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of whole columns: table `[C, N]`, indices `[E, 1]`, result `[C, E]`. -/
abbrev colDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- The row an index word names: read signed, clamped into `[0, N - 1]`. -/
def clampRow (N : Nat) (hN : 0 < N) {w : Nat} (i : BitVec w) : Fin N :=
  ⟨min i.toInt.toNat (N - 1), by omega⟩

/-- THE ROW GATHER READ AT `(e, k)`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (clampRow N hN (idx (ix2 e (0 : Fin 1)))) k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show (1 : Fin 2) ∉ (rowDims N C E wf).startIndexMap from (by decide : (1 : Fin 2) ∉ [(0 : Fin 2)]))]
    simp only [Nat.add_zero, Nat.zero_add]
    unfold GatherDims.offCoord
    rw [dif_pos ((GatherDims.mem_sKept _ _).mpr ⟨(by decide : (1 : Fin 2) ∉ [(0 : Fin 2)]), List.not_mem_nil⟩)]
    rfl

/-- THE COLUMN GATHER READ AT `(k, e)`. -/
theorem gather_cols_apply {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (e : Fin E) (k : Fin C) :
    Host.gather (colDims C N E wf) x idx (ix2 k e)
      = x (ix2 k (clampRow N hN (idx (ix2 e (0 : Fin 1))))) := by
  unfold Host.gather
  congr 1
  funext a
  refine Fin.ext ?_
  match a with
  | ⟨0, _⟩ =>
    show (colDims C N E wf).start (ix2 k e) idx 0 + (colDims C N E wf).batchCoord (ix2 k e) 0
      + (colDims C N E wf).offCoord (ix2 k e) 0 = _
    rw [GatherDims.batchCoord_eq_zero _ _ _ List.not_mem_nil]
    unfold GatherDims.start
    rw [dif_neg (show (0 : Fin 2) ∉ (colDims C N E wf).startIndexMap from (by decide : (0 : Fin 2) ∉ [(1 : Fin 2)]))]
    simp only [Nat.add_zero, Nat.zero_add]
    unfold GatherDims.offCoord
    rw [dif_pos ((GatherDims.mem_sKept _ _).mpr ⟨(by decide : (0 : Fin 2) ∉ [(1 : Fin 2)]), List.not_mem_nil⟩)]
    rfl
  | ⟨1, _⟩ =>
    show (colDims C N E wf).start (ix2 k e) idx 1 + (colDims C N E wf).batchCoord (ix2 k e) 1
      + (colDims C N E wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims C N E wf).startIndexMap from List.mem_singleton.mpr rfl)]
    have hsi : (colDims C N E wf).siIdx (ix2 k e) ⟨List.idxOf (1 : Fin 2) (colDims C N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The wrapped index `i < 0 ? i + 100000 : i` as the programs spell it. -/
def wrap (i : BitVec 32) : BitVec 32 :=
  Scalar.select (IntOp.cmpi .slt i 0#32) (IntOp.addi i 100000#32) i

/-- The three constants read as signed integers. -/
private theorem toInt_zero32 : (0#32 : BitVec 32).toInt = 0 := by decide
private theorem toInt_n32 : (100000#32 : BitVec 32).toInt = 100000 := by decide
private theorem toInt_m32 : (99999#32 : BitVec 32).toInt = 99999 := by decide

/-- On a negative word the wrap adds `100000`. -/
private theorem wrap_of_neg (i : BitVec 32) (h : i.toInt < 0) : wrap i = i + 100000#32 := by
  have hs : i.slt 0#32 = true := by
    rw [BitVec.slt_iff_toInt_lt, toInt_zero32]; exact h
  show (if BitVec.ofBool (i.slt 0#32) = 1 then i + 100000#32 else i) = _
  rw [hs]; rfl

/-- On a non-negative word the wrap is the identity. -/
private theorem wrap_of_nonneg (i : BitVec 32) (h : 0 ≤ i.toInt) : wrap i = i := by
  have hs : i.slt 0#32 = false := by
    rw [BitVec.slt_eq_decide, toInt_zero32]; exact decide_eq_false (by omega)
  show (if BitVec.ofBool (i.slt 0#32) = 1 then i + 100000#32 else i) = _
  rw [hs]; rfl

/-- The wrapped word, read signed, lies in `[0, 99999]`. -/
private theorem wrap_toInt_range (i : BitVec 32) (h1 : -100000 ≤ i.toInt) (h2 : i.toInt < 100000) :
    0 ≤ (wrap i).toInt ∧ (wrap i).toInt ≤ 99999 := by
  by_cases hneg : i.toInt < 0
  · rw [wrap_of_neg i hneg, BitVec.toInt_add, toInt_n32,
      Int.bmod_eq_of_le_mul_two (by omega) (by omega)]
    omega
  · rw [wrap_of_nonneg i (by omega)]; omega

/-- Both range tests hold of a word whose signed reading lies in `[0, 99999]`. -/
private theorem range_tests (v : BitVec 32) (h : 0 ≤ v.toInt ∧ v.toInt ≤ 99999) :
    IntOp.cmpi .sge v 0#32 = 1#1 ∧ IntOp.cmpi .sle v 99999#32 = 1#1 := by
  constructor
  · show BitVec.ofBool ((0#32 : BitVec 32).sle v) = 1#1
    have : (0#32 : BitVec 32).sle v = true := by
      rw [BitVec.sle_iff_toInt_le, toInt_zero32]; exact h.1
    rw [this]; rfl
  · show BitVec.ofBool (v.sle 99999#32) = 1#1
    have : v.sle 99999#32 = true := by
      rw [BitVec.sle_iff_toInt_le, toInt_m32]; exact h.2
    rw [this]; rfl

/-- A word in `[-100000, 100000)` wraps into `[0, 100000)`: both range tests of the wrapped word hold. -/
theorem wrap_inb (i : BitVec 32) (h1 : -100000 ≤ i.toInt) (h2 : i.toInt < 100000) :
    IntOp.cmpi .sge (wrap i) 0#32 = 1#1 ∧ IntOp.cmpi .sle (wrap i) 99999#32 = 1#1 := by
  exact range_tests (wrap i) (wrap_toInt_range i h1 h2)

/-- A word that is a row number `n < 100000` is its own wrap, and in range. -/
theorem wrap_of_row (i : BitVec 32) (n : Nat) (hn : n < 100000) (h : i.toInt = (n : Int)) :
    wrap i = i ∧ IntOp.cmpi .sge (wrap i) 0#32 = 1#1 ∧ IntOp.cmpi .sle (wrap i) 99999#32 = 1#1 := by
  have hw : wrap i = i := wrap_of_nonneg i (by omega)
  refine ⟨hw, ?_⟩
  rw [hw]
  exact range_tests i (by omega)

end Idealize.ShloMosaic.RowGather

end
-- ==== Proof.LibScatterRows.lean ====
/-
  The host's accumulating scatter (a segment sum) read at an index, at the ideal instance.

  Operand `[N, C]`, scatter indices `[E, 1]` (one row number per update row), updates `[E, C]`:
  update row `e` is added, column by column, onto operand row `idx[e, 0]` read as a SIGNED integer,
  and is dropped when that number is not a row of the operand. So element `(n, j)` of the result is
  the operand's plus the sum, over the update rows `e` whose index is `n`, of `upd[e, j]`.
  The flat form (operand `[N]`, updates `[E]`) is the same with no column.
-/
import Idealize.ShloMosaic.PureOps.Ideal
import Idealize.ShloMosaic.Lib.ValueIdx
import Idealize.ShloMosaic.Lib.ValueIdxRank1

noncomputable section

namespace Idealize.ShloMosaic.SegSum

open Idealize.ShloMosaic Idealize.ShloMosaic.ValueIdx

/-- The dimension numbers of a row scatter: operand `[N, C]`, indices `[E, 1]`, updates `[E, C]`;
    the updates' axis 1 is the window, the operand's axis 0 is the scattered one. -/
abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a flat scatter: operand `[N]`, indices `[E, 1]`, updates `[E]`. -/
abbrev flatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The update rows that land on operand row `n`: those whose index word, read signed, is `n`. -/
def rowsOf {N E w : Nat} (idx : IVec ⟨2, ![E, 1]⟩ w) (n : Fin N) : Finset (Fin E) :=
  Finset.univ.filter fun e => (idx (ix2 e (0 : Fin 1))).toInt = (n.val : Int)

/-- An update index lands on operand index `i` exactly when, on every axis, its start plus its
    window coordinate is `i`'s coordinate (being inside the operand is then automatic). -/
private theorem resultIdx?_eq_some_iff {s si u : Shape} (d : ScatterDims s si u) {w : Nat}
    (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      intro a
      have hv := congrArg (fun f => (f a).val) (Option.some.inj h)
      simp only at hv
      have := hb a
      omega
    · cases h
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

section Rows
variable {N E C w : Nat}
  (wf : ScatterDims.WF ⟨2, ![N, C]⟩ ⟨2, ![E, 1]⟩ ⟨2, ![E, C]⟩ [1] [0] [0] 1)

/-- On the scattered axis the start is the update row's index word, read signed. -/
private theorem rows_start0 (e : Fin E) (j' : Fin C) (idx : IVec ⟨2, ![E, 1]⟩ w) :
    (rowsDims N E C wf).start (ix2 e j') idx 0 = (idx (ix2 e (0 : Fin 1))).toInt := by
  unfold ScatterDims.start
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

/-- The column axis is not a scattered one: its start is `0`. -/
private theorem rows_start1 (u : (⟨2, ![E, C]⟩ : Shape).Idx) (idx : IVec ⟨2, ![E, 1]⟩ w) :
    (rowsDims N E C wf).start u idx 1 = 0 := by
  unfold ScatterDims.start
  rw [dif_neg (show (1 : Fin 2) ∉ [(0 : Fin 2)] by decide)]

/-- The scattered axis is an inserted one: its window coordinate is `0`. -/
private theorem rows_window0 (u : (⟨2, ![E, C]⟩ : Shape).Idx) :
    (rowsDims N E C wf).window u 0 = 0 := by
  have h : (0 : Fin 2) ∉ (rowsDims N E C wf).sKept := by
    show (0 : Fin 2) ∉ (List.finRange 2).filter (· ∉ [(0 : Fin 2)])
    decide
  unfold ScatterDims.window
  exact dif_neg h

/-- On the column axis the window coordinate is the update's column. -/
private theorem rows_window1 (e : Fin E) (j' : Fin C) :
    (rowsDims N E C wf).window (ix2 e j') 1 = j'.val := by
  have h : (1 : Fin 2) ∈ (rowsDims N E C wf).sKept := by
    show (1 : Fin 2) ∈ (List.finRange 2).filter (· ∉ [(0 : Fin 2)])
    decide
  unfold ScatterDims.window
  rw [dif_pos h]
  rfl

/-- Update element `(e, j')` lands on operand element `(n, j)` exactly when row `e`'s index word,
    read signed, is `n` and the columns agree. -/
private theorem rows_resultIdx_iff (e : Fin E) (j' : Fin C) (idx : IVec ⟨2, ![E, 1]⟩ w)
    (n : Fin N) (j : Fin C) :
    (rowsDims N E C wf).resultIdx? (ix2 e j') idx = some (ix2 n j) ↔
      (idx (ix2 e (0 : Fin 1))).toInt = (n.val : Int) ∧ j' = j := by
  rw [resultIdx?_eq_some_iff]
  constructor
  · intro h
    have h0 : (rowsDims N E C wf).start (ix2 e j') idx 0
        + ((rowsDims N E C wf).window (ix2 e j') 0 : Int) = (n.val : Int) := h 0
    have h1 : (rowsDims N E C wf).start (ix2 e j') idx 1
        + ((rowsDims N E C wf).window (ix2 e j') 1 : Int) = (j.val : Int) := h 1
    rw [rows_start0, rows_window0] at h0
    rw [rows_start1, rows_window1] at h1
    exact ⟨by omega, Fin.ext (by omega)⟩
  · rintro ⟨hn, rfl⟩ a
    match a with
    | ⟨0, _⟩ =>
      show (rowsDims N E C wf).start (ix2 e j') idx 0 + ((rowsDims N E C wf).window (ix2 e j') 0 : Int) = (n.val : Int)
      rw [rows_start0, rows_window0, hn]; simp
    | ⟨1, _⟩ =>
      show (rowsDims N E C wf).start (ix2 e j') idx 1 + ((rowsDims N E C wf).window (ix2 e j') 1 : Int) = (j'.val : Int)
      rw [rows_start1, rows_window1]; simp

end Rows

/-- THE ROW SCATTER READ AT `(n, j)`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowsDims N E C wf) x idx upd (ix2 n j)
      = x (ix2 n j) + ∑ e ∈ rowsOf idx n, upd (ix2 e j) := by
  unfold Ideal.hostScatterAdd rowsOf
  congr 1
  rw [Finset.sum_filter, Finset.sum_filter, sum_idx2]
  refine Finset.sum_congr rfl fun e _ => ?_
  simp only [rows_resultIdx_iff]
  by_cases h : (idx (ix2 e (0 : Fin 1))).toInt = (n.val : Int)
  · simp [h]
  · simp [h]

section Flat
variable {N E w : Nat}
  (wf : ScatterDims.WF ⟨1, ![N]⟩ ⟨2, ![E, 1]⟩ ⟨1, ![E]⟩ [] [0] [0] 1)

/-- On the one (scattered) axis the start is the update's index word, read signed. -/
private theorem flat_start0 (e : Fin E) (idx : IVec ⟨2, ![E, 1]⟩ w) :
    (flatDims N E wf).start (ix1 e) idx 0 = (idx (ix2 e (0 : Fin 1))).toInt := by
  unfold ScatterDims.start
  rw [dif_pos (show (0 : Fin 1) ∈ (flatDims N E wf).scatterDimsToOperandDims from List.mem_singleton.mpr rfl)]
  congr 2
  funext b; refine Fin.ext ?_
  match b with
  | ⟨0, _⟩ => rfl
  | ⟨1, _⟩ => rfl

/-- The one axis is an inserted one: its window coordinate is `0`. -/
private theorem flat_window0 (u : (⟨1, ![E]⟩ : Shape).Idx) :
    (flatDims N E wf).window u 0 = 0 := by
  have h : (0 : Fin 1) ∉ (flatDims N E wf).sKept := by
    show (0 : Fin 1) ∉ (List.finRange 1).filter (· ∉ [(0 : Fin 1)])
    decide
  unfold ScatterDims.window
  exact dif_neg h

/-- Update element `e` lands on operand element `n` exactly when its index word, read signed, is `n`. -/
private theorem flat_resultIdx_iff (e : Fin E) (idx : IVec ⟨2, ![E, 1]⟩ w) (n : Fin N) :
    (flatDims N E wf).resultIdx? (ix1 e) idx = some (ix1 n) ↔
      (idx (ix2 e (0 : Fin 1))).toInt = (n.val : Int) := by
  rw [resultIdx?_eq_some_iff]
  constructor
  · intro h
    have h0 : (flatDims N E wf).start (ix1 e) idx 0
        + ((flatDims N E wf).window (ix1 e) 0 : Int) = (n.val : Int) := h 0
    rw [flat_start0, flat_window0] at h0
    omega
  · intro hn a
    match a with
    | ⟨0, _⟩ =>
      show (flatDims N E wf).start (ix1 e) idx 0 + ((flatDims N E wf).window (ix1 e) 0 : Int) = (n.val : Int)
      rw [flat_start0, flat_window0, hn]; simp

end Flat

/-- THE FLAT SCATTER READ AT `n`. -/
theorem hostScatterAdd_flat_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (flatDims N E wf) x idx upd (ix1 n)
      = x (ix1 n) + ∑ e ∈ rowsOf idx n, upd (ix1 e) := by
  unfold Ideal.hostScatterAdd rowsOf
  congr 1
  rw [Finset.sum_filter, Finset.sum_filter, ← Equiv.sum_comp (idxEquiv1 (n := E)).symm]
  refine Finset.sum_congr rfl fun e _ => ?_
  show (if (flatDims N E wf).resultIdx? (ix1 e) idx = some (ix1 n) then upd (ix1 e) else 0) = _
  simp only [flat_resultIdx_iff]

end Idealize.ShloMosaic.SegSum

end
-- ==== Proof.RefValue.lean ====
/-
  The reference, read at an index: a row gather of the node features at the (wrapped, clamped) column words, scaled by the
  edge values, summed into the rows the row words address, clipped below at zero. Under the column words' range this is
  the specification's function.
-/
import proofs.«421706_j16071767622283_1_alg».proof.Defs
import proofs.«421706_j16071767622283_1_alg».proof.Proof.Gen.ReferenceIdeal.Run
import proofs.«421706_j16071767622283_1_alg».proof.Proof.Gen.ReferenceIdeal.Read
import proofs.«421706_j16071767622283_1_alg».proof.Proof.Spec
import proofs.«421706_j16071767622283_1_alg».proof.Proof.LibGatherRows
import proofs.«421706_j16071767622283_1_alg».proof.Proof.LibScatterRows
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.ReferenceIdeal.RefValue

open Idealize.ShloMosaic Idealize.ShloMosaic.TcCoe Idealize.SL.Sem Idealize.ShloMosaic.ValueIdx
open Cert.ReferenceIdeal Cert.ReferenceIdeal.Gen

variable {α : Type}

/-- A vector laid out as one column, read at row `e`. -/
theorem col_apply (h : S1600000.BroadcastsInDim S1600000x1 (![0] : Fin 1 → Fin S1600000x1.rank))
    (v : S1600000.Idx → α) (e : Fin 1600000) (z : Fin 1) :
    broadcastInDim S1600000x1 ![0] h v (ix2 e z) = v (ix1 e) := by
  refine broadcastInDim_apply _ h v _ (ix1 e) ?_
  intro a
  match a with
  | ⟨0, _⟩ => rfl

/-- A column repeated along the feature axis, read at `(e, k)`. -/
theorem rep_apply (h : S1600000x1.BroadcastsInDim S1600000x64 (![0, 1] : Fin 2 → Fin S1600000x64.rank))
    (v : S1600000x1.Idx → α) (e : Fin 1600000) (k : Fin 64) :
    broadcastInDim S1600000x64 ![0, 1] h v (ix2 e k) = v (ix2 e (0 : Fin 1)) := by
  refine broadcastInDim_apply _ h v _ (ix2 e (0 : Fin 1)) ?_
  intro a
  match a with
  | ⟨0, _⟩ => rfl
  | ⟨1, _⟩ => rfl

/-- A scalar spread over a shape, read anywhere. -/
theorem splat_apply {t : Shape} (h : S_.BroadcastsInDim t (![] : Fin 0 → Fin t.rank))
    (v : S_.Idx → α) (j : t.Idx) :
    broadcastInDim t ![] h v j = v ix0 := by
  refine broadcastInDim_apply _ h v _ ix0 ?_
  intro a
  exact a.elim0

/-- A word whose signed reading is not negative reads the same unsigned. -/
theorem toNat_of_nonneg (w : BitVec 32) (h0 : 0 ≤ w.toInt) : w.toInt.toNat = w.toNat := by
  have hlt := w.isLt
  rw [BitVec.toInt_eq_toNat_cond] at h0 ⊢
  split at h0 <;> rename_i hc
  · rw [if_pos hc]; omega
  · omega

/-- Under the range of the column words, the clamped wrapped word is the node the word names. -/
theorem clamp_wrap (w : BitVec 32) (h0 : 0 ≤ w.toInt) (h1 : w.toInt < 100000) :
    RowGather.clampRow 100000 (by decide) (RowGather.wrap w) = Cert.Spec.nodeOf w := by
  have hw : RowGather.wrap w = w :=
    (RowGather.wrap_of_row w w.toInt.toNat (by omega) (by omega)).1
  rw [hw]
  unfold RowGather.clampRow Cert.Spec.nodeOf
  refine Fin.ext ?_
  show min w.toInt.toNat (100000 - 1) = min w.toNat 99999
  rw [toNat_of_nonneg w h0]

section Term
variable [Cert.ReferenceIdeal.Facts]

/-- The reference's scatter read at `(n, k)`: the operand there plus the update rows addressed to `n`. -/
theorem scatter_apply (Z : FVec Ideal S100000x64 .f32) (R : IVec S1600000x1 32) (U : FVec Ideal S1600000x64 .f32)
    (n : Fin 100000) (k : Fin 64) :
    Host.scatterAdd (F := Ideal) scatter_S100000x64_S1600000x1_S1600000x64_1_0_0_1 Z R U (ix2 n k)
      = Z (ix2 n k) + ∑ e ∈ SegSum.rowsOf R n, U (ix2 e k) :=
  SegSum.hostScatterAdd_rows_apply Facts₀.scatter_S100000x64_S1600000x1_S1600000x64_1_0_0_1_wf Z R U n k

/-- The reference's gather read at `(e, k)`: the table's row the index word names, clamped. -/
theorem gather_apply (x : FVec Ideal S100000x64 .f32) (I : IVec S1600000x1 32) (e : Fin 1600000) (k : Fin 64) :
    Host.gather gather_S100000x64_S1600000x1_S1600000x64_1_0_n_n_0_1_164 x I (ix2 e k)
      = x (ix2 (RowGather.clampRow 100000 (by decide) (I (ix2 e (0 : Fin 1)))) k) :=
  RowGather.gather_rows_apply (by decide) Facts₀.gather_S100000x64_S1600000x1_S1600000x64_1_0_n_n_0_1_164_wf x I e k

/-- The reference's term, read at an index, is the specification's function. -/
theorem term_G (x : FVec Ideal S100000x64 .f32) (rows cols : IVec S1600000 32) (vals : FVec Ideal S1600000 .f32)
    (hcols : ∀ e : Fin 1600000, 0 ≤ (cols (ix1 e)).toInt ∧ (cols (ix1 e)).toInt < 100000) :
    maximumf
      (Host.scatterAdd (F := Ideal) scatter_S100000x64_S1600000x1_S1600000x64_1_0_0_1
        (broadcastInDim S100000x64 ![] Facts₀.bcast_S_S100000x64 (constant (F := Ideal) S_ .f32 0x00000000#32))
        (broadcastInDim S1600000x1 ![0] Facts₀.bcast_S1600000_S1600000x1_0 rows)
        (mulf (broadcastInDim S1600000x64 ![0, 1] Facts₀.bcast_S1600000x1_S1600000x64_0_1
                (broadcastInDim S1600000x1 ![0] Facts₀.bcast_S1600000_S1600000x1_0 vals))
          (Host.gather gather_S100000x64_S1600000x1_S1600000x64_1_0_n_n_0_1_164 x
            (broadcastInDim S1600000x1 ![0] Facts₀.bcast_S1600000_S1600000x1_0
              (select (cmpi .slt cols (broadcastInDim S1600000 ![] Facts₀.bcast_S_S1600000 (constantI S_ 32 0#32)))
                (addi cols (broadcastInDim S1600000 ![] Facts₀.bcast_S_S1600000 (constantI S_ 32 100000#32))) cols)))))
      (broadcastInDim S100000x64 ![] Facts₀.bcast_S_S100000x64 (constant (F := Ideal) S_ .f32 0x00000000#32))
    = Cert.Spec.G x rows cols vals := by
  funext i
  obtain ⟨n, k, rfl⟩ : ∃ (n : Fin 100000) (k : Fin 64), i = ix2 n k := ⟨i 0, i 1, eq_ix2 i⟩
  rw [maximumf_apply, splat_apply, constant_apply, Ideal.ofBits_zero_f32, scatter_apply, splat_apply, constant_apply,
    Ideal.ofBits_zero_f32, zero_add]
  show _ = max (∑ e ∈ Cert.Spec.edgesTo rows n.val, Cert.Spec.msg x cols vals e k) 0
  have hset : SegSum.rowsOf (broadcastInDim S1600000x1 ![0] Facts₀.bcast_S1600000_S1600000x1_0 rows) n
      = Cert.Spec.edgesTo rows n.val := by
    unfold SegSum.rowsOf Cert.Spec.edgesTo
    refine Finset.filter_congr fun e _ => ?_
    rw [col_apply]
  rw [hset]
  refine congrArg (fun t => max t 0) (Finset.sum_congr rfl fun e _ => ?_)
  rw [mulf_apply, rep_apply, col_apply, gather_apply, col_apply]
  have hw : (select (cmpi .slt cols (broadcastInDim S1600000 ![] Facts₀.bcast_S_S1600000 (constantI S_ 32 0#32)))
      (addi cols (broadcastInDim S1600000 ![] Facts₀.bcast_S_S1600000 (constantI S_ 32 100000#32))) cols) (ix1 e)
      = RowGather.wrap (cols (ix1 e)) := rfl
  rw [hw, clamp_wrap _ (hcols e).1 (hcols e).2, mul_comm]
  rfl

end Term

/-- THE REFERENCE'S RUN: from any memory whose column words are node numbers, every weakly fair execution of the reference
    terminates with the result array at the specification's function of the argument arrays, the arguments unchanged. -/
theorem run_G [hR : Cert.ReferenceIdeal.Facts]
    (m : (ℓ : Loc nD τ sig) → Buf (Elt Ideal) ℓ) (ρ : Dev nD → PrngReg)
    (hcols : ∀ (c : Dev nD) (e : Fin 1600000), 0 ≤ (m ((c.tc : Thread nD τ).loc main_arg3) (ix1 e)).toInt ∧ (m ((c.tc : Thread nD τ).loc main_arg3) (ix1 e)).toInt < 100000) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v13) = Cert.Spec.G (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (Cert.ReferenceIdeal.defs (F := Ideal)) _ _).mono (fun _ h c => ⟨(h c).1.trans ?_, (h c).2⟩)
    (Cert.ReferenceIdeal.Value.run (F := Ideal) m ρ)
  exact term_G _ _ _ _ (hcols c)

end Cert.ReferenceIdeal.RefValue

end
-- ==== Proof.PreDecode.lean ====
/-
  The precondition read at one edge: every column word, read as a signed integer, lies in [0, 100000).
-/
import proofs.«421706_j16071767622283_1_alg».proof.Pre_finite_inputs
import proofs.«421706_j16071767622283_1_alg».proof.Proof.Gen.Pre_finite_inputs
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx
open Cert.Pre_finite_inputs

variable {F : FTy → Type} [FloatOps F]

/-- If the stated precondition holds of the argument arrays, each column word is a node number:
    read signed it is at least 0 and below 100000. -/
theorem cols_range [hP : Cert.Pre_finite_inputs.Facts] (a0 : FVec F S_ .f32) (a1 : FVec F S100000x64 .f32) (a2 : IVec S1600000 32) (a3 : IVec S1600000 32) (a4 : FVec F S1600000 .f32)
    (h : Cert.Pre_finite_inputs.fn (F := F) a0 a1 a2 a3 a4 = fun _ => 1#1) (e : Fin 1600000) :
    0 ≤ (a3 (ix1 e)).toInt ∧ (a3 (ix1 e)).toInt < 100000 := by
  -- The predicate's value is a scalar, and the scalar shape has exactly one index.
  haveI : Subsingleton S_.Idx := ⟨fun _ _ => funext fun d => d.elim0⟩
  -- Read the predicate at that index and open its chain of operations.
  have h0 := congrFun h ix0
  dsimp only [fn, fn_part1] at h0
  -- Outermost it is (the three finiteness tests) AND (every column word in range): a one-bit AND is 1
  -- exactly when both sides are. Only the second side speaks of the columns.
  obtain ⟨-, hall⟩ := IntOp.andi_eq_one.1 h0
  -- "Every column word in range" is an AND-fold, from 1, of the per-position tests over all 1600000
  -- positions; a fold that came out 1 met a 1 at each position, so at position e.
  have hel := Host.reduce_andi_all _ _ _ _ ix0 hall (ix1 e)
  -- The test at position e is (0 ≤ word) AND (word < 100000), both compared as signed integers; each bound
  -- is one scalar constant laid out over all positions, so at position e it is that constant.
  obtain ⟨hge, hlt⟩ := IntOp.andi_eq_one.1 hel
  have hge' : (0#32 : BitVec 32).toInt ≤ (a3 (ix1 e)).toInt := IntOp.cmpi_sge.1 hge
  have hlt' : (a3 (ix1 e)).toInt < (100000#32 : BitVec 32).toInt := IntOp.cmpi_slt.1 hlt
  -- As signed 32-bit integers the two bound words are 0 and 100000.
  have z : (0#32 : BitVec 32).toInt = 0 := by decide
  have c : (100000#32 : BitVec 32).toInt = 100000 := by decide
  rw [z] at hge'
  rw [c] at hlt'
  exact ⟨hge', hlt'⟩

end Cert.PreDecode

end
-- ==== Proof.lean ====
/-
  The sparse product `relu(A · x)` of a 100000 × 100000 matrix given as 1,600,000 (row, column, value) triples with node
  features `x : [100000, 64]`, computed by two pallas_calls of one-hot matrix products, against the jnp reference (a row
  gather, a scaling, a segment sum, a clip at zero).

  The first pallas_call, for each tile of 1600 edges, runs over the 40 tiles of 2560 padded node rows: it multiplies the 0/1
  matrix "edge's column word = node number" by the node tile and accumulates in a scratch buffer, so that after the last tile
  the scratch holds each edge's source row (a column word outside the padded range, or naming a zero padding row, gives zero);
  there it scales by the edge values. The second, for each tile of 2560 padded node rows, runs over the 500 tiles of 3200
  edges: it multiplies the 0/1 matrix "node number = edge's row word" by the tile's messages and accumulates in the output
  block, clipped below at zero after the last tile. The first 100000 rows are the result.

  The reference reads row `clamp(wrap(col))` of `x`, so the two agree exactly when every column word is a node number,
  0 ≤ col < 100000: the precondition's added conjunct. Row words need no condition: a row word that names no node is dropped by
  the reference's scatter and lands in no kept row of the kernel. On the extended reals the equality uses only that 0 · v = 0,
  1 · v = v, commutativity of the product and that sums may be regrouped, so the inputs' finiteness is not used.

  Both programs' runs are proved over one account of @main (the host stretches as stated operations, each pallas_call as a
  pipeline region with the kernel body's effect at every grid point), at the word level for the frame and at the ideal
  instance for the frame and the value.
-/
import proofs.«421706_j16071767622283_1_alg».proof.Defs
import proofs.«421706_j16071767622283_1_alg».proof.Proof.Gen.Kernel
import proofs.«421706_j16071767622283_1_alg».proof.Proof.Gen.KernelIdeal
import proofs.«421706_j16071767622283_1_alg».proof.Proof.Gen.ReferenceIdeal
import proofs.«421706_j16071767622283_1_alg».proof.Proof.Gen.ReferenceIdeal.Run
import proofs.«421706_j16071767622283_1_alg».proof.Proof.Gen.Pre_finite_inputs
import proofs.«421706_j16071767622283_1_alg».proof.Proof.K.Run
import proofs.«421706_j16071767622283_1_alg».proof.Proof.KI.Final
import proofs.«421706_j16071767622283_1_alg».proof.Proof.RefValue
import proofs.«421706_j16071767622283_1_alg».proof.Proof.PreDecode

noncomputable section

namespace Cert.Proof

open Idealize.ShloMosaic Idealize.ShloMosaic.TcCoe Idealize.SL.Sem Idealize.ShloMosaic.ValueIdx

/-- The word-level kernel runs and leaves its arguments as launched: the run of @main read at the argument buffers. -/
theorem frame_p : Cert.frame_Kernel := fun m ρ _ =>
  (θ_run Cert.Kernel.defs _ _).mono (fun r h c =>
    ⟨(h c _ (Cert.Kernel.Hand.mem_uc Cert.Kernel.main_arg0 (by decide))).trans (Cert.Kernel.Hand.W6_main_arg0 m c),
     (h c _ (Cert.Kernel.Hand.mem_uc Cert.Kernel.main_arg1 (by decide))).trans (Cert.Kernel.Hand.W6_main_arg1 m c),
     (h c _ (Cert.Kernel.Hand.mem_uc Cert.Kernel.main_arg2 (by decide))).trans (Cert.Kernel.Hand.W6_main_arg2 m c),
     (h c _ (Cert.Kernel.Hand.mem_uc Cert.Kernel.main_arg3 (by decide))).trans (Cert.Kernel.Hand.W6_main_arg3 m c),
     (h c _ (Cert.Kernel.Hand.mem_uc Cert.Kernel.main_arg4 (by decide))).trans (Cert.Kernel.Hand.W6_main_arg4 m c)⟩)
    (Cert.Kernel.Hand.run_all (F := Bits) m ρ)

/-- The same of the idealized kernel. -/
theorem frame_pi : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W6_main_arg0 m c),
     (h c _ (Cert.KernelIdeal.Hand.mem_uc Cert.KernelIdeal.main_arg1 (by decide))).trans (Cert.KernelIdeal.Hand.W6_main_arg1 m c),
     (h c _ (Cert.KernelIdeal.Hand.mem_uc Cert.KernelIdeal.main_arg2 (by decide))).trans (Cert.KernelIdeal.Hand.W6_main_arg2 m c),
     (h c _ (Cert.KernelIdeal.Hand.mem_uc Cert.KernelIdeal.main_arg3 (by decide))).trans (Cert.KernelIdeal.Hand.W6_main_arg3 m c),
     (h c _ (Cert.KernelIdeal.Hand.mem_uc Cert.KernelIdeal.main_arg4 (by decide))).trans (Cert.KernelIdeal.Hand.W6_main_arg4 m c)⟩)
    (Cert.KernelIdeal.Hand.run_all (F := Ideal) m ρ)

/-- The reference is a host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Under the precondition every column word is a node number; then both programs end at the specification's function of
    arguments that agree. -/
theorem algebraic : Cert.algebraic_KernelIdeal_ReferenceIdeal := by
  intro m ρ m' ρ' hpre hagree
  have hcols : ∀ (c : Dev Cert.KernelIdeal.nD) (e : Fin 1600000),
      0 ≤ ((m ((c.tc : Thread Cert.KernelIdeal.nD Cert.KernelIdeal.τ).loc Cert.KernelIdeal.main_arg3) : Cert.KernelIdeal.S1600000.Idx → BitVec 32) (ix1 e)).toInt
      ∧ ((m ((c.tc : Thread Cert.KernelIdeal.nD Cert.KernelIdeal.τ).loc Cert.KernelIdeal.main_arg3) : Cert.KernelIdeal.S1600000.Idx → BitVec 32) (ix1 e)).toInt < 100000 :=
    fun c e => Cert.PreDecode.cols_range _ _ _ _ _ (hpre c) e
  refine ⟨fun c => Cert.Spec.G (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Hand.run_G m ρ hcols, ?_⟩
  have hcols' : ∀ (c : Dev Cert.ReferenceIdeal.nD) (e : Fin 1600000),
      0 ≤ (m' ((c.tc : Thread Cert.ReferenceIdeal.nD Cert.ReferenceIdeal.τ).loc Cert.ReferenceIdeal.main_arg3) (ix1 e)).toInt
      ∧ (m' ((c.tc : Thread Cert.ReferenceIdeal.nD Cert.ReferenceIdeal.τ).loc Cert.ReferenceIdeal.main_arg3) (ix1 e)).toInt < 100000 := by
    intro c e
    rw [(hagree c).2.2.2.1]
    exact hcols c e
  refine (θ_run Cert.ReferenceIdeal.defs _ _).mono (fun _ h c => ⟨(h c).1.trans ?_, (h c).2⟩)
    (Cert.ReferenceIdeal.RefValue.run_G m' ρ' hcols')
  rw [(hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
